-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2400000 : Shape := ⟨1, ![2400000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2400000 : S_.BroadcastsInDim S2400000 (![] : Fin 0 → Fin S2400000.rank)
  reducesTo_S2400000_S_d0 : S2400000.ReducesTo [0] S_

variable [Facts]

def fn_part1 {F : FTy → Type} [FloatOps F] (main_arg3 : IVec S2400000 32) (main_v13 : IVec S_ 1) (main_v15 : IVec S2400000 1) (main_c_5 : IVec S_ 1) : IVec S_ 1 :=
  let main_v16 : IVec S_ 1 := (fun x v => Host.reduce IntOp.andi x v reducesTo_S2400000_S_d0 h_S_) main_v15 main_c_5
  let main_v17 : IVec S_ 1 := andi main_v13 main_v16
  let main_c_6 : IVec S_ 32 := constantI S_ 32 150000#32
  let main_v18 : IVec S2400000 32 := broadcastInDim S2400000 ![] bcast_S_S2400000 main_c_6
  let main_v19 : IVec S2400000 1 := cmpi .slt main_arg3 main_v18
  let main_c_7 : IVec S_ 1 := constantI S_ 1 1#1
  let main_v20 : IVec S_ 1 := (fun x v => Host.reduce IntOp.andi x v reducesTo_S2400000_S_d0 h_S_) main_v19 main_c_7
  let main_v21 : IVec S_ 1 := andi main_v17 main_v20
  main_v21

def fn {F : FTy → Type} [FloatOps F] (main_arg0 : FVec F S100000x64 .f32) (main_arg1 : FVec F S50000x64 .f32) (main_arg2 : IVec S2400000 32) (main_arg3 : IVec S2400000 32) (main_arg4 : FVec F S2400000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2400000 .f32 := Host.absf main_arg4
  let main_cst_2 : FVec F S_ .f32 := constant S_ .f32 0x7F800000#32
  let main_v10 : FVec F S2400000 .f32 := broadcastInDim S2400000 ![] bcast_S_S2400000 main_cst_2
  let main_v11 : IVec S2400000 1 := cmpf .olt main_v9 main_v10
  let main_c_3 : IVec S_ 1 := constantI S_ 1 1#1
  let main_v12 : IVec S_ 1 := (fun x v => Host.reduce IntOp.andi x v reducesTo_S2400000_S_d0 h_S_) main_v11 main_c_3
  let main_v13 : IVec S_ 1 := andi main_v8 main_v12
  let main_c_4 : IVec S_ 32 := constantI S_ 32 4294817296#32
  let main_v14 : IVec S2400000 32 := broadcastInDim S2400000 ![] bcast_S_S2400000 main_c_4
  let main_v15 : IVec S2400000 1 := cmpi .sge main_arg3 main_v14
  let main_c_5 : IVec S_ 1 := constantI S_ 1 1#1
  fn_part1 (F := F) main_arg3 main_v13 main_v15 main_c_5
-- ==== Kernel.lean ====
abbrev S100000x64 : Shape := ⟨2, ![100000, 64]⟩
abbrev S50000x64 : Shape := ⟨2, ![50000, 64]⟩
abbrev S2400000 : Shape := ⟨1, ![2400000]⟩
abbrev S150000x64 : Shape := ⟨2, ![150000, 64]⟩
abbrev S2400000x1 : Shape := ⟨2, ![2400000, 1]⟩
abbrev S_ : Shape := ⟨0, ![]⟩
abbrev S1 : Shape := ⟨1, ![1]⟩
abbrev S1x1 : Shape := ⟨2, ![1, 1]⟩
abbrev S2400000x64 : Shape := ⟨2, ![2400000, 64]⟩
abbrev S8192x64 : Shape := ⟨2, ![8192, 64]⟩
abbrev S8192x1 : Shape := ⟨2, ![8192, 1]⟩

abbrev nBuf : Space → Nat
  | .hbm => 94
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2400000, .i32⟩
  | .hbm, ⟨3, _⟩ => ⟨S2400000, .i32⟩
  | .hbm, ⟨4, _⟩ => ⟨S2400000, .f32⟩
  | .hbm, ⟨5, _⟩ => ⟨S150000x64, .f32⟩
  | .hbm, ⟨6, _⟩ => ⟨S2400000x1, .f32⟩
  | .hbm, ⟨7, _⟩ => ⟨S_, .i32⟩
  | .hbm, ⟨8, _⟩ => ⟨S2400000, .i32⟩
  | .hbm, ⟨9, _⟩ => ⟨S2400000, .i1⟩
  | .hbm, ⟨10, _⟩ => ⟨S_, .i32⟩
  | .hbm, ⟨11, _⟩ => ⟨S2400000, .i32⟩
  | .hbm, ⟨12, _⟩ => ⟨S2400000, .i32⟩
  | .hbm, ⟨13, _⟩ => ⟨S2400000, .i32⟩
  | .hbm, ⟨14, _⟩ => ⟨S2400000x1, .i32⟩
  | .hbm, ⟨15, _⟩ => ⟨S1, .i32⟩
  | .hbm, ⟨16, _⟩ => ⟨S_, .i32⟩
  | .hbm, ⟨17, _⟩ => ⟨S2400000x1, .i32⟩
  | .hbm, ⟨18, _⟩ => ⟨S2400000x1, .i1⟩
  | .hbm, ⟨19, _⟩ => ⟨S1x1, .i32⟩
  | .hbm, ⟨20, _⟩ => ⟨S2400000x1, .i32⟩
  | .hbm, ⟨21, _⟩ => ⟨S2400000x1, .i1⟩
  | .hbm, ⟨22, _⟩ => ⟨S2400000x1, .i1⟩
  | .hbm, ⟨23, _⟩ => ⟨S_, .i1⟩
  | .hbm, ⟨24, _⟩ => ⟨S2400000, .i1⟩
  | .hbm, ⟨25, _⟩ => ⟨S2400000x64, .f32⟩
  | .hbm, ⟨26, _⟩ => ⟨S2400000x64, .i1⟩
  | .hbm, ⟨27, _⟩ => ⟨S_, .f32⟩
  | .hbm, ⟨28, _⟩ => ⟨S2400000x64, .f32⟩
  | .hbm, ⟨29, _⟩ => ⟨S2400000x64, .f32⟩
  | .hbm, ⟨30, _⟩ => ⟨S2400000x64, .f32⟩
  | .hbm, ⟨31, _⟩ => ⟨S_, .f32⟩
  | .hbm, ⟨32, _⟩ => ⟨S150000x64, .f32⟩
  | .hbm, ⟨33, _⟩ => ⟨S2400000x1, .i32⟩
  | .hbm, ⟨34, _⟩ => ⟨S150000x64, .f32⟩
  | .hbm, ⟨35, _⟩ => ⟨S_, .i32⟩
  | .hbm, ⟨36, _⟩ => ⟨S2400000, .i32⟩
  | .hbm, ⟨37, _⟩ => ⟨S2400000, .i1⟩
  | .hbm, ⟨38, _⟩ => ⟨S_, .i32⟩
  | .hbm, ⟨39, _⟩ => ⟨S2400000, .i32⟩
  | .hbm, ⟨40, _⟩ => ⟨S2400000, .i32⟩
  | .hbm, ⟨41, _⟩ => ⟨S2400000, .i32⟩
  | .hbm, ⟨42, _⟩ => ⟨S2400000x1, .i32⟩
  | .hbm, ⟨43, _⟩ => ⟨S1, .i32⟩
  | .hbm, ⟨44, _⟩ => ⟨S_, .i32⟩
  | .hbm, ⟨45, _⟩ => ⟨S2400000x1, .i32⟩
  | .hbm, ⟨46, _⟩ => ⟨S2400000x1, .i1⟩
  | .hbm, ⟨47, _⟩ => ⟨S1x1, .i32⟩
  | .hbm, ⟨48, _⟩ => ⟨S2400000x1, .i32⟩
  | .hbm, ⟨49, _⟩ => ⟨S2400000x1, .i1⟩
  | .hbm, ⟨50, _⟩ => ⟨S2400000x1, .i1⟩
  | .hbm, ⟨51, _⟩ => ⟨S_, .i1⟩
  | .hbm, ⟨52, _⟩ => ⟨S2400000, .i1⟩
  | .hbm, ⟨53, _⟩ => ⟨S2400000x64, .f32⟩
  | .hbm, ⟨54, _⟩ => ⟨S2400000x64, .i1⟩
  | .hbm, ⟨55, _⟩ => ⟨S_, .f32⟩
  | .hbm, ⟨56, _⟩ => ⟨S2400000x64, .f32⟩
  | .hbm, ⟨57, _⟩ => ⟨S2400000x64, .f32⟩
  | .hbm, ⟨58, _⟩ => ⟨S2400000x64, .f32⟩
  | .hbm, ⟨59, _⟩ => ⟨S_, .f32⟩
  | .hbm, ⟨60, _⟩ => ⟨S150000x64, .f32⟩
  | .hbm, ⟨61, _⟩ => ⟨S2400000x1, .i32⟩
  | .hbm, ⟨62, _⟩ => ⟨S150000x64, .f32⟩
  | .hbm, ⟨63, _⟩ => ⟨S_, .i32⟩
  | .hbm, ⟨64, _⟩ => ⟨S2400000, .i32⟩
  | .hbm, ⟨65, _⟩ => ⟨S2400000, .i1⟩
  | .hbm, ⟨66, _⟩ => ⟨S_, .i32⟩
  | .hbm, ⟨67, _⟩ => ⟨S2400000, .i32⟩
  | .hbm, ⟨68, _⟩ => ⟨S2400000, .i32⟩
  | .hbm, ⟨69, _⟩ => ⟨S2400000, .i32⟩
  | .hbm, ⟨70, _⟩ => ⟨S2400000x1, .i32⟩
  | .hbm, ⟨71, _⟩ => ⟨S1, .i32⟩
  | .hbm, ⟨72, _⟩ => ⟨S_, .i32⟩
  | .hbm, ⟨73, _⟩ => ⟨S2400000x1, .i32⟩
  | .hbm, ⟨74, _⟩ => ⟨S2400000x1, .i1⟩
  | .hbm, ⟨75, _⟩ => ⟨S1x1, .i32⟩
  | .hbm, ⟨76, _⟩ => ⟨S2400000x1, .i32⟩
  | .hbm, ⟨77, _⟩ => ⟨S2400000x1, .i1⟩
  | .hbm, ⟨78, _⟩ => ⟨S2400000x1, .i1⟩
  | .hbm, ⟨79, _⟩ => ⟨S_, .i1⟩
  | .hbm, ⟨80, _⟩ => ⟨S2400000, .i1⟩
  | .hbm, ⟨81, _⟩ => ⟨S2400000x64, .f32⟩
  | .hbm, ⟨82, _⟩ => ⟨S2400000x64, .i1⟩
  | .hbm, ⟨83, _⟩ => ⟨S_, .f32⟩
  | .hbm, ⟨84, _⟩ => ⟨S2400000x64, .f32⟩
  | .hbm, ⟨85, _⟩ => ⟨S2400000x64, .f32⟩
  | .hbm, ⟨86, _⟩ => ⟨S2400000x64, .f32⟩
  | .hbm, ⟨87, _⟩ => ⟨S_, .f32⟩
  | .hbm, ⟨88, _⟩ => ⟨S150000x64, .f32⟩
  | .hbm, ⟨89, _⟩ => ⟨S2400000x1, .i32⟩
  | .hbm, ⟨90, _⟩ => ⟨S150000x64, .f32⟩
  | .hbm, ⟨91, _⟩ => ⟨S150000x64, .f32⟩
  | .hbm, ⟨92, _⟩ => ⟨S100000x64, .f32⟩
  | .hbm, ⟨93, _⟩ => ⟨S50000x64, .f32⟩
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S8192x64, .f32⟩
  | .local _ .vmem, ⟨8, _⟩ => ⟨S8192x1, .f32⟩
  | .local _ .vmem, ⟨9, _⟩ => ⟨S8192x1, .f32⟩
  | .local _ .vmem, ⟨10, _⟩ => ⟨S8192x64, .f32⟩
  | .local _ .vmem, ⟨11, _⟩ => ⟨S8192x64, .f32⟩
  | .local _ .vmem, ⟨12, _⟩ => ⟨S8192x64, .f32⟩
  | .local _ .vmem, ⟨13, _⟩ => ⟨S8192x64, .f32⟩
  | .local _ .vmem, ⟨14, _⟩ => ⟨S8192x1, .f32⟩
  | .local _ .vmem, ⟨15, _⟩ => ⟨S8192x1, .f32⟩
  | .local _ .vmem, ⟨16, _⟩ => ⟨S8192x64, .f32⟩
  | .local _ .vmem, ⟨17, _⟩ => ⟨S8192x64, .f32⟩
  | .local _ .vmem, ⟨18, _⟩ => ⟨S8192x64, .f32⟩
  | .local _ .vmem, ⟨19, _⟩ => ⟨S8192x64, .f32⟩
  | .local _ .vmem, ⟨20, _⟩ => ⟨S8192x64, .f32⟩
  | .local _ .vmem, ⟨21, _⟩ => ⟨S8192x64, .f32⟩
  | .local _ .vmem, ⟨22, _⟩ => ⟨S8192x64, .f32⟩
  | .local _ .vmem, ⟨23, _⟩ => ⟨S8192x64, .f32⟩
  | .local _ .vmem, ⟨24, _⟩ => ⟨S8192x64, .f32⟩
  | .local _ .vmem, ⟨25, _⟩ => ⟨S8192x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v7 : Ref sig .tc := ⟨.hbm, 57, rfl⟩
abbrev main_v8 : Ref sig .tc := ⟨.hbm, 58, rfl⟩
abbrev main_cst_0 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v12 : Ref sig .tc := ⟨.hbm, 85, rfl⟩
abbrev main_v13 : Ref sig .tc := ⟨.hbm, 86, rfl⟩
abbrev main_cst_1 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![293], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![293], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![293], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![19], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8192x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  concatenates_S100000x64_S50000x64_S150000x64_d0 : Shape.Concatenates [S100000x64, S50000x64] S150000x64 0
  shapeCasts_S2400000_S2400000x1 : S2400000.ShapeCasts S2400000x1
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S_S2400000x1 : S_.BroadcastsInDim S2400000x1 (![] : Fin 0 → Fin S2400000x1.rank)
  bcast_S1_S1x1_1 : S1.BroadcastsInDim S1x1 (![1] : Fin 1 → Fin S1x1.rank)
  bcast_S1x1_S2400000x1_0_1 : S1x1.BroadcastsInDim S2400000x1 (![0, 1] : Fin 2 → Fin S2400000x1.rank)
  reducesTo_S2400000x1_S2400000_d1 : S2400000x1.ReducesTo [1] S2400000
  h_S_ : 0 < S_.numel
  bcast_S2400000_S2400000x64_0 : S2400000.BroadcastsInDim S2400000x64 (![0] : Fin 1 → Fin S2400000x64.rank)
  bcast_S_S2400000x64 : S_.BroadcastsInDim S2400000x64 (![] : Fin 0 → Fin S2400000x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x64.size a < S2400000x64.size a
  hwx0_0 : ∀ i : grid0.Coords, EltTy.bits .f32 = 32 ∨ (Rect.unit (s := S2400000x64) (fun a => cc0_transform_0 i a * S8192x64.size a) (fun a => (Pipeline.Clip.of (cc0_transform_0 i a) (S8192x64.size a) (S2400000x64.size a)).extent (S8192x64.size a)) fun a => Pipeline.Clip.inb (Pipeline.Clip.ok_of (hstart0_0 i a))).WholeWords (EltTy.packing .f32)
  hwxs0_0 : ∀ i : grid0.Coords, EltTy.bits .f32 = 32 ∨ (Rect.unit (s := S8192x64) (fun _ => 0) (fun a => (Pipeline.Clip.of (cc0_transform_0 i a) (S8192x64.size a) (S2400000x64.size a)).extent (S8192x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x1.size a < S2400000x1.size a
  hwx0_1 : ∀ i : grid0.Coords, EltTy.bits .f32 = 32 ∨ (Rect.unit (s := S2400000x1) (fun a => cc0_transform_1 i a * S8192x1.size a) (fun a => (Pipeline.Clip.of (cc0_transform_1 i a) (S8192x1.size a) (S2400000x1.size a)).extent (S8192x1.size a)) fun a => Pipeline.Clip.inb (Pipeline.Clip.ok_of (hstart0_1 i a))).WholeWords (EltTy.packing .f32)
  hwxs0_1 : ∀ i : grid0.Coords, EltTy.bits .f32 = 32 ∨ (Rect.unit (s := S8192x1) (fun _ => 0) (fun a => (Pipeline.Clip.of (cc0_transform_1 i a) (S8192x1.size a) (S2400000x1.size a)).extent (S8192x1.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x64.size a < S2400000x64.size a
  hwx0_2 : ∀ i : grid0.Coords, EltTy.bits .f32 = 32 ∨ (Rect.unit (s := S2400000x64) (fun a => cc0_transform_2 i a * S8192x64.size a) (fun a => (Pipeline.Clip.of (cc0_transform_2 i a) (S8192x64.size a) (S2400000x64.size a)).extent (S8192x64.size a)) fun a => Pipeline.Clip.inb (Pipeline.Clip.ok_of (hstart0_2 i a))).WholeWords (EltTy.packing .f32)
  hwxs0_2 : ∀ i : grid0.Coords, EltTy.bits .f32 = 32 ∨ (Rect.unit (s := S8192x64) (fun _ => 0) (fun a => (Pipeline.Clip.of (cc0_transform_2 i a) (S8192x64.size a) (S2400000x64.size a)).extent (S8192x64.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8192x64.size a < S2400000x64.size a
  hwx1_0 : ∀ i : grid1.Coords, EltTy.bits .f32 = 32 ∨ (Rect.unit (s := S2400000x64) (fun a => cc1_transform_0 i a * S8192x64.size a) (fun a => (Pipeline.Clip.of (cc1_transform_0 i a) (S8192x64.size a) (S2400000x64.size a)).extent (S8192x64.size a)) fun a => Pipeline.Clip.inb (Pipeline.Clip.ok_of (hstart1_0 i a))).WholeWords (EltTy.packing .f32)
  hwxs1_0 : ∀ i : grid1.Coords, EltTy.bits .f32 = 32 ∨ (Rect.unit (s := S8192x64) (fun _ => 0) (fun a => (Pipeline.Clip.of (cc1_transform_0 i a) (S8192x64.size a) (S2400000x64.size a)).extent (S8192x64.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S8192x1.size a < S2400000x1.size a
  hwx1_1 : ∀ i : grid1.Coords, EltTy.bits .f32 = 32 ∨ (Rect.unit (s := S2400000x1) (fun a => cc1_transform_1 i a * S8192x1.size a) (fun a => (Pipeline.Clip.of (cc1_transform_1 i a) (S8192x1.size a) (S2400000x1.size a)).extent (S8192x1.size a)) fun a => Pipeline.Clip.inb (Pipeline.Clip.ok_of (hstart1_1 i a))).WholeWords (EltTy.packing .f32)
  hwxs1_1 : ∀ i : grid1.Coords, EltTy.bits .f32 = 32 ∨ (Rect.unit (s := S8192x1) (fun _ => 0) (fun a => (Pipeline.Clip.of (cc1_transform_1 i a) (S8192x1.size a) (S2400000x1.size a)).extent (S8192x1.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S8192x64.size a < S2400000x64.size a
  hwx1_2 : ∀ i : grid1.Coords, EltTy.bits .f32 = 32 ∨ (Rect.unit (s := S2400000x64) (fun a => cc1_transform_2 i a * S8192x64.size a) (fun a => (Pipeline.Clip.of (cc1_transform_2 i a) (S8192x64.size a) (S2400000x64.size a)).extent (S8192x64.size a)) fun a => Pipeline.Clip.inb (Pipeline.Clip.ok_of (hstart1_2 i a))).WholeWords (EltTy.packing .f32)
  hwxs1_2 : ∀ i : grid1.Coords, EltTy.bits .f32 = 32 ∨ (Rect.unit (s := S8192x64) (fun _ => 0) (fun a => (Pipeline.Clip.of (cc1_transform_2 i a) (S8192x64.size a) (S2400000x64.size a)).extent (S8192x64.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S8192x64.size a < S2400000x64.size a
  hwx2_0 : ∀ i : grid2.Coords, EltTy.bits .f32 = 32 ∨ (Rect.unit (s := S2400000x64) (fun a => cc2_transform_0 i a * S8192x64.size a) (fun a => (Pipeline.Clip.of (cc2_transform_0 i a) (S8192x64.size a) (S2400000x64.size a)).extent (S8192x64.size a)) fun a => Pipeline.Clip.inb (Pipeline.Clip.ok_of (hstart2_0 i a))).WholeWords (EltTy.packing .f32)
  hwxs2_0 : ∀ i : grid2.Coords, EltTy.bits .f32 = 32 ∨ (Rect.unit (s := S8192x64) (fun _ => 0) (fun a => (Pipeline.Clip.of (cc2_transform_0 i a) (S8192x64.size a) (S2400000x64.size a)).extent (S8192x64.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S8192x1.size a < S2400000x1.size a
  hwx2_1 : ∀ i : grid2.Coords, EltTy.bits .f32 = 32 ∨ (Rect.unit (s := S2400000x1) (fun a => cc2_transform_1 i a * S8192x1.size a) (fun a => (Pipeline.Clip.of (cc2_transform_1 i a) (S8192x1.size a) (S2400000x1.size a)).extent (S8192x1.size a)) fun a => Pipeline.Clip.inb (Pipeline.Clip.ok_of (hstart2_1 i a))).WholeWords (EltTy.packing .f32)
  hwxs2_1 : ∀ i : grid2.Coords, EltTy.bits .f32 = 32 ∨ (Rect.unit (s := S8192x1) (fun _ => 0) (fun a => (Pipeline.Clip.of (cc2_transform_1 i a) (S8192x1.size a) (S2400000x1.size a)).extent (S8192x1.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S8192x64.size a < S2400000x64.size a
  hwx2_2 : ∀ i : grid2.Coords, EltTy.bits .f32 = 32 ∨ (Rect.unit (s := S2400000x64) (fun a => cc2_transform_2 i a * S8192x64.size a) (fun a => (Pipeline.Clip.of (cc2_transform_2 i a) (S8192x64.size a) (S2400000x64.size a)).extent (S8192x64.size a)) fun a => Pipeline.Clip.inb (Pipeline.Clip.ok_of (hstart2_2 i a))).WholeWords (EltTy.packing .f32)
  hwxs2_2 : ∀ i : grid2.Coords, EltTy.bits .f32 = 32 ∨ (Rect.unit (s := S8192x64) (fun _ => 0) (fun a => (Pipeline.Clip.of (cc2_transform_2 i a) (S8192x64.size a) (S2400000x64.size a)).extent (S8192x64.size a)) fun a => (Nat.zero_add _).trans_le (Pipeline.Clip.extent_le (Pipeline.Clip.ok_of (hstart2_2 i a)))).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S8192x64.size a < S150000x64.size a
  hwx3_0 : ∀ i : grid3.Coords, EltTy.bits .f32 = 32 ∨ (Rect.unit (s := S150000x64) (fun a => cc3_transform_0 i a * S8192x64.size a) (fun a => (Pipeline.Clip.of (cc3_transform_0 i a) (S8192x64.size a) (S150000x64.size a)).extent (S8192x64.size a)) fun a => Pipeline.Clip.inb (Pipeline.Clip.ok_of (hstart3_0 i a))).WholeWords (EltTy.packing .f32)
  hwxs3_0 : ∀ i : grid3.Coords, EltTy.bits .f32 = 32 ∨ (Rect.unit (s := S8192x64) (fun _ => 0) (fun a => (Pipeline.Clip.of (cc3_transform_0 i a) (S8192x64.size a) (S150000x64.size a)).extent (S8192x64.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S8192x64.size a < S150000x64.size a
  hwx3_1 : ∀ i : grid3.Coords, EltTy.bits .f32 = 32 ∨ (Rect.unit (s := S150000x64) (fun a => cc3_transform_1 i a * S8192x64.size a) (fun a => (Pipeline.Clip.of (cc3_transform_1 i a) (S8192x64.size a) (S150000x64.size a)).extent (S8192x64.size a)) fun a => Pipeline.Clip.inb (Pipeline.Clip.ok_of (hstart3_1 i a))).WholeWords (EltTy.packing .f32)
  hwxs3_1 : ∀ i : grid3.Coords, EltTy.bits .f32 = 32 ∨ (Rect.unit (s := S8192x64) (fun _ => 0) (fun a => (Pipeline.Clip.of (cc3_transform_1 i a) (S8192x64.size a) (S150000x64.size a)).extent (S8192x64.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S8192x64.size a < S150000x64.size a
  hwx3_2 : ∀ i : grid3.Coords, EltTy.bits .f32 = 32 ∨ (Rect.unit (s := S150000x64) (fun a => cc3_transform_2 i a * S8192x64.size a) (fun a => (Pipeline.Clip.of (cc3_transform_2 i a) (S8192x64.size a) (S150000x64.size a)).extent (S8192x64.size a)) fun a => Pipeline.Clip.inb (Pipeline.Clip.ok_of (hstart3_2 i a))).WholeWords (EltTy.packing .f32)
  hwxs3_2 : ∀ i : grid3.Coords, EltTy.bits .f32 = 32 ∨ (Rect.unit (s := S8192x64) (fun _ => 0) (fun a => (Pipeline.Clip.of (cc3_transform_2 i a) (S8192x64.size a) (S150000x64.size a)).extent (S8192x64.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S8192x64.size a < S150000x64.size a
  hwx3_3 : ∀ i : grid3.Coords, EltTy.bits .f32 = 32 ∨ (Rect.unit (s := S150000x64) (fun a => cc3_transform_3 i a * S8192x64.size a) (fun a => (Pipeline.Clip.of (cc3_transform_3 i a) (S8192x64.size a) (S150000x64.size a)).extent (S8192x64.size a)) fun a => Pipeline.Clip.inb (Pipeline.Clip.ok_of (hstart3_3 i a))).WholeWords (EltTy.packing .f32)
  hwxs3_3 : ∀ i : grid3.Coords, EltTy.bits .f32 = 32 ∨ (Rect.unit (s := S8192x64) (fun _ => 0) (fun a => (Pipeline.Clip.of (cc3_transform_3 i a) (S8192x64.size a) (S150000x64.size a)).extent (S8192x64.size a)) fun a => (Nat.zero_add _).trans_le (Pipeline.Clip.extent_le (Pipeline.Clip.ok_of (hstart3_3 i a)))).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf

abbrev win0_0 : Pipeline.Window sig grid0 :=
  Pipeline.Window.ofSpecClip (Memref.whole main_v2) S8192x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S8192x1.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v3) S8192x64.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v7) S8192x64.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v1) S8192x1.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v8) S8192x64.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpecClip (Memref.whole main_v12) S8192x64.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v1) S8192x1.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v13) S8192x64.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpecClip (Memref.whole main_v6) S8192x64.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v11) S8192x64.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v16) S8192x64.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v17) S8192x64.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2400000 : Shape := ⟨1, ![2400000]⟩
abbrev S150000x64 : Shape := ⟨2, ![150000, 64]⟩
abbrev S_ : Shape := ⟨0, ![]⟩
abbrev S2400000x1 : Shape := ⟨2, ![2400000, 1]⟩
abbrev S2400000x64 : Shape := ⟨2, ![2400000, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2400000, .i32⟩
  | .hbm, ⟨3, _⟩ => ⟨S2400000, .i32⟩
  | .hbm, ⟨4, _⟩ => ⟨S2400000, .f32⟩
  | .hbm, ⟨5, _⟩ => ⟨S150000x64, .f32⟩
  | .hbm, ⟨6, _⟩ => ⟨S_, .f32⟩
  | .hbm, ⟨7, _⟩ => ⟨S150000x64, .f32⟩
  | .hbm, ⟨8, _⟩ => ⟨S2400000x1, .f32⟩
  | .hbm, ⟨9, _⟩ => ⟨S_, .i32⟩
  | .hbm, ⟨10, _⟩ => ⟨S2400000, .i32⟩
  | .hbm, ⟨11, _⟩ => ⟨S2400000, .i1⟩
  | .hbm, ⟨12, _⟩ => ⟨S_, .i32⟩
  | .hbm, ⟨13, _⟩ => ⟨S2400000, .i32⟩
  | .hbm, ⟨14, _⟩ => ⟨S2400000, .i32⟩
  | .hbm, ⟨15, _⟩ => ⟨S2400000, .i32⟩
  | .hbm, ⟨16, _⟩ => ⟨S2400000x1, .i32⟩
  | .hbm, ⟨17, _⟩ => ⟨S2400000x64, .f32⟩
  | .hbm, ⟨18, _⟩ => ⟨S2400000x64, .f32⟩
  | .hbm, ⟨19, _⟩ => ⟨S2400000x64, .f32⟩
  | .hbm, ⟨20, _⟩ => ⟨S_, .f32⟩
  | .hbm, ⟨21, _⟩ => ⟨S150000x64, .f32⟩
  | .hbm, ⟨22, _⟩ => ⟨S2400000x1, .i32⟩
  | .hbm, ⟨23, _⟩ => ⟨S150000x64, .f32⟩
  | .hbm, ⟨24, _⟩ => ⟨S150000x64, .f32⟩
  | .hbm, ⟨25, _⟩ => ⟨S2400000x1, .f32⟩
  | .hbm, ⟨26, _⟩ => ⟨S_, .i32⟩
  | .hbm, ⟨27, _⟩ => ⟨S2400000, .i32⟩
  | .hbm, ⟨28, _⟩ => ⟨S2400000, .i1⟩
  | .hbm, ⟨29, _⟩ => ⟨S_, .i32⟩
  | .hbm, ⟨30, _⟩ => ⟨S2400000, .i32⟩
  | .hbm, ⟨31, _⟩ => ⟨S2400000, .i32⟩
  | .hbm, ⟨32, _⟩ => ⟨S2400000, .i32⟩
  | .hbm, ⟨33, _⟩ => ⟨S2400000x1, .i32⟩
  | .hbm, ⟨34, _⟩ => ⟨S2400000x64, .f32⟩
  | .hbm, ⟨35, _⟩ => ⟨S2400000x64, .f32⟩
  | .hbm, ⟨36, _⟩ => ⟨S2400000x64, .f32⟩
  | .hbm, ⟨37, _⟩ => ⟨S_, .f32⟩
  | .hbm, ⟨38, _⟩ => ⟨S150000x64, .f32⟩
  | .hbm, ⟨39, _⟩ => ⟨S2400000x1, .i32⟩
  | .hbm, ⟨40, _⟩ => ⟨S150000x64, .f32⟩
  | .hbm, ⟨41, _⟩ => ⟨S150000x64, .f32⟩
  | .hbm, ⟨42, _⟩ => ⟨S2400000x1, .f32⟩
  | .hbm, ⟨43, _⟩ => ⟨S_, .i32⟩
  | .hbm, ⟨44, _⟩ => ⟨S2400000, .i32⟩
  | .hbm, ⟨45, _⟩ => ⟨S2400000, .i1⟩
  | .hbm, ⟨46, _⟩ => ⟨S_, .i32⟩
  | .hbm, ⟨47, _⟩ => ⟨S2400000, .i32⟩
  | .hbm, ⟨48, _⟩ => ⟨S2400000, .i32⟩
  | .hbm, ⟨49, _⟩ => ⟨S2400000, .i32⟩
  | .hbm, ⟨50, _⟩ => ⟨S2400000x1, .i32⟩
  | .hbm, ⟨51, _⟩ => ⟨S2400000x64, .f32⟩
  | .hbm, ⟨52, _⟩ => ⟨S2400000x64, .f32⟩
  | .hbm, ⟨53, _⟩ => ⟨S2400000x64, .f32⟩
  | .hbm, ⟨54, _⟩ => ⟨S_, .f32⟩
  | .hbm, ⟨55, _⟩ => ⟨S150000x64, .f32⟩
  | .hbm, ⟨56, _⟩ => ⟨S2400000x1, .i32⟩
  | .hbm, ⟨57, _⟩ => ⟨S150000x64, .f32⟩
  | .hbm, ⟨58, _⟩ => ⟨S150000x64, .f32⟩
  | .hbm, ⟨59, _⟩ => ⟨S_, .f32⟩
  | .hbm, ⟨60, _⟩ => ⟨S150000x64, .f32⟩
  | .hbm, ⟨61, _⟩ => ⟨S150000x64, .f32⟩
  | .hbm, ⟨62, _⟩ => ⟨S100000x64, .f32⟩
  | .hbm, ⟨63, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S150000x64 : S_.BroadcastsInDim S150000x64 (![] : Fin 0 → Fin S150000x64.rank)
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  slices_S150000x64_S100000x64_0_0 : S150000x64.Slices ![0, 0] S100000x64
  slices_S150000x64_S50000x64_100000_0 : S150000x64.Slices ![100000, 0] S50000x64
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf

class Facts : Prop extends Facts₀ where

variable [Facts]
-- ==== Proof.Region0.lean ====
import proofs.«403625_j20873541059099_2_alg».proof.Proof.Gen.KernelIdeal.Launch
import proofs.«403625_j20873541059099_2_alg».proof.Proof.Gen.KernelIdeal.Points
import proofs.«403625_j20873541059099_2_alg».proof.Proof.Gen.KernelIdeal.Skeleton
import Idealize.ShloMosaic.Lib.Pipeline.Regions
import Idealize.ShloMosaic.Lib.Pipeline.Kit
import Idealize.ShloMosaic.Lib.Tactic

/-! Edge-scale pass 0 as a pipeline: what its staging buffers hold after the body at each grid point, and the body's
    obligation. The edge table has 2400000 rows and the blocks 8192, so the last of the 293 blocks overhangs the table
    by 256 rows; every window is stated only on the rows inside the table. -/

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

-- the buffers' contents the region is entered from, per core
variable (V : (c : Dev nD) → (b : Ref sig .tc) → Buf (Elt F) ((c : Thread nD τ).loc b))

/-- The gathered rows' block at point `t`: its rows inside the table, the zero word past the table's end. -/
def gblk0 (c : Dev nD) (t : Fin cfg0.N) : S8192x64.Idx → Elt F .f32 :=
  win0_0.fill (grid0.coords t) (fun _ => Scalar.ofBits .f32 0#32) ((win0_0.blk t).view.read (Elt F) (V c main_v2))
/-- The weights' block at point `t`, likewise. -/
def vblk0 (c : Dev nD) (t : Fin cfg0.N) : S8192x1.Idx → Elt F .f32 :=
  win0_1.fill (grid0.coords t) (fun _ => Scalar.ofBits .f32 0#32) ((win0_1.blk t).view.read (Elt F) (V c main_v1))
/-- The scaled block: the body's value of the two. -/
def oblk0 (c : Dev nD) (t : Fin cfg0.N) : S8192x64.Idx → Elt F .f32 := k0_pay1 (gblk0 V c t) (vblk0 V c t)

/-- The proof data of the pass on core `c`: the three arrays as the region finds them; after the body the blocks above;
    between points only the scoped buffers the pipeline does not stage; nothing owed; full shares. -/
def dat0 (c : Dev nD) : Dat τ (Elt F) Unit ℕ (UR sig nD τ) ℕ cfg0 c where
  A w := V c (Pipeline.arrRef spec0 w)
  after w t := match w with
    | ⟨0, _⟩ => gblk0 V c t
    | ⟨1, _⟩ => vblk0 V c t
    | ⟨2, _⟩ => oblk0 V c t
  Φ _ := Pipeline.scopedRest (Ix := Unit) (Name := ℕ) (U := UR sig nD τ) (Lvl := ℕ) (Val := Elt F) spec0 c
  q _ := fullShare
  owed _ := 0

theorem before0_0 (c : Dev nD) (t : Fin cfg0.N) (d) :
    (dat0 V c).before (0 : Fin 3) t d = win0_0.fill (grid0.coords t) d ((win0_0.blk t).view.read (Elt F) (V c main_v2)) := by
  unfold Dat.before; rw [if_pos (fetch0_0 t)]; rfl
theorem before0_1 (c : Dev nD) (t : Fin cfg0.N) (d) :
    (dat0 V c).before (1 : Fin 3) t d = win0_1.fill (grid0.coords t) d ((win0_1.blk t).view.read (Elt F) (V c main_v1)) := by
  unfold Dat.before; rw [if_pos (fetch0_1 t)]; rfl
theorem nofetch0_2 (t : Fin cfg0.N) : (cfg0.win (2 : Fin 3)).fetch t = false := rfl
theorem before0_2 (c : Dev nD) (t : Fin cfg0.N) (d) : (dat0 V c).before (2 : Fin 3) t d = d := by
  unfold Dat.before
  rw [if_neg (by rw [nofetch0_2 t]; exact Bool.false_ne_true)]
  by_cases h : t.val = 0
  · rw [if_pos h]
  · rw [if_neg h]; exact if_pos (flush0_2 _)

/-- The body's run, over any three whole staging memrefs: the scaled block lands in the third, the other two keep
    their contents. -/
def ScaleRun0 : Prop := ∀ (c : Dev nD) (E : Set ℕ) (i : grid0.Coords)
    (M0 : Memref sig .tc .vmem S8192x64 .f32) (h0 : M0.IsWhole) (M1 : Memref sig .tc .vmem S8192x1 .f32) (h1 : M1.IsWhole)
    (M2 : Memref sig .tc .vmem S8192x64 .f32) (h2 : M2.IsWhole)
    (X0 : S8192x64.Idx → Elt F .f32) (X1 : S8192x1.Idx → Elt F .f32) (X2 : S8192x64.Idx → Elt F .f32) (K : PUnit → sProp 𝕄),
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                ∗ owns (c : Thread nD τ) M2 fullShare (k0_pay1 X0 X1)) -∗ K ⟨⟩))
      ⊢ wp frame (wpE (defs₀ (F := F)) Variants.none c none) E (cc0__scale_kernel i M0 h0 M1 h1 M2 h2) K

/-- On the rows inside the table the scaled block depends only on the rows inside the table of its two operands. -/
def PayCut0 : Prop := ∀ (i : grid0.Coords) (d0 d0' : S8192x64.Idx → Elt F .f32) (d1 d1' : S8192x1.Idx → Elt F .f32)
    (B0 : (win0_0.xblock i).Idx → Elt F .f32) (B1 : (win0_1.xblock i).Idx → Elt F .f32),
    win0_2.cut i (k0_pay1 (win0_0.fill i d0 B0) (win0_1.fill i d1 B1))
      = win0_2.cut i (k0_pay1 (win0_0.fill i d0' B0) (win0_1.fill i d1' B1))

/-- The library's body obligation at every point: the three staging buffers handed to the body, its run, and each buffer
    handed back stated on the rows inside the table. -/
theorem body_obligation0 (hrun : ScaleRun0 (F := F)) (hcut : PayCut0 (F := F)) (c : Dev nD) :
    BodyObligationLoose (dat0 V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1, before0_2 V c t d2]
  iapply (hrun c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 ((win0_0.blk t).view.read (Elt F) (V c main_v2)))
    (win0_1.fill (grid0.coords t) d1 ((win0_1.blk t).view.read (Elt F) (V c main_v1))) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t) (gblk0 V c t) = (win0_0.blk t).view.read (Elt F) (V c main_v2) := win0_0.cut_fill _ _ _
  have hy : win0_1.cut (grid0.coords t) (vblk0 V c t) = (win0_1.blk t).view.read (Elt F) (V c main_v1) := win0_1.cut_fill _ _ _
  isplitl [H0]
  · iexists d0
    change _ ⊢ owns (c : Thread nD τ) (stage0_0 (cfg0.slots t 0)) fullShare (win0_0.fill (grid0.coords t) d0 (win0_0.cut (grid0.coords t) (gblk0 V c t)))
    rw [hx]; try iexact H0
  isplitl [H1]
  · iexists d1
    change _ ⊢ owns (c : Thread nD τ) (stage0_1 (cfg0.slots t 1)) fullShare (win0_1.fill (grid0.coords t) d1 (win0_1.cut (grid0.coords t) (vblk0 V c t)))
    rw [hy]; try iexact H1
  · iexists (k0_pay1 (win0_0.fill (grid0.coords t) d0 ((win0_0.blk t).view.read (Elt F) (V c main_v2)))
      (win0_1.fill (grid0.coords t) d1 ((win0_1.blk t).view.read (Elt F) (V c main_v1))))
    have hc := hcut (grid0.coords t) d0 (fun _ => Scalar.ofBits .f32 0#32) d1 (fun _ => Scalar.ofBits .f32 0#32)
      ((win0_0.blk t).view.read (Elt F) (V c main_v2)) ((win0_1.blk t).view.read (Elt F) (V c main_v1))
    change _ ⊢ owns (c : Thread nD τ) (stage0_2 (cfg0.slots t 2)) fullShare (win0_2.fill (grid0.coords t) _ (win0_2.cut (grid0.coords t) (oblk0 V c t)))
    unfold oblk0 gblk0 vblk0
    have e := win0_2.fill_congr_cut (α := Elt F .f32) (grid0.coords t) hc
    first | rw [e] | erw [e]
    try iexact H2

end Cert.KernelIdeal.Hand

end
-- ==== Proof.Region1.lean ====
import proofs.«403625_j20873541059099_2_alg».proof.Proof.Gen.KernelIdeal.Launch
import proofs.«403625_j20873541059099_2_alg».proof.Proof.Gen.KernelIdeal.Points
import proofs.«403625_j20873541059099_2_alg».proof.Proof.Gen.KernelIdeal.Skeleton
import Idealize.ShloMosaic.Lib.Pipeline.Regions
import Idealize.ShloMosaic.Lib.Pipeline.Kit
import Idealize.ShloMosaic.Lib.Tactic

/-! Edge-scale pass 1 as a pipeline: what its staging buffers hold after the body at each grid point, and the body's
    obligation. The edge table has 2400000 rows and the blocks 8192, so the last of the 293 blocks overhangs the table
    by 256 rows; every window is stated only on the rows inside the table. -/

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

-- the buffers' contents the region is entered from, per core
variable (V : (c : Dev nD) → (b : Ref sig .tc) → Buf (Elt F) ((c : Thread nD τ).loc b))

/-- The gathered rows' block at point `t`: its rows inside the table, the zero word past the table's end. -/
def gblk1 (c : Dev nD) (t : Fin cfg1.N) : S8192x64.Idx → Elt F .f32 :=
  win1_0.fill (grid1.coords t) (fun _ => Scalar.ofBits .f32 0#32) ((win1_0.blk t).view.read (Elt F) (V c main_v7))
/-- The weights' block at point `t`, likewise. -/
def vblk1 (c : Dev nD) (t : Fin cfg1.N) : S8192x1.Idx → Elt F .f32 :=
  win1_1.fill (grid1.coords t) (fun _ => Scalar.ofBits .f32 0#32) ((win1_1.blk t).view.read (Elt F) (V c main_v1))
/-- The scaled block: the body's value of the two. -/
def oblk1 (c : Dev nD) (t : Fin cfg1.N) : S8192x64.Idx → Elt F .f32 := k1_pay1 (gblk1 V c t) (vblk1 V c t)

/-- The proof data of the pass on core `c`: the three arrays as the region finds them; after the body the blocks above;
    between points only the scoped buffers the pipeline does not stage; nothing owed; full shares. -/
def dat1 (c : Dev nD) : Dat τ (Elt F) Unit ℕ (UR sig nD τ) ℕ cfg1 c where
  A w := V c (Pipeline.arrRef spec1 w)
  after w t := match w with
    | ⟨0, _⟩ => gblk1 V c t
    | ⟨1, _⟩ => vblk1 V c t
    | ⟨2, _⟩ => oblk1 V c t
  Φ _ := Pipeline.scopedRest (Ix := Unit) (Name := ℕ) (U := UR sig nD τ) (Lvl := ℕ) (Val := Elt F) spec1 c
  q _ := fullShare
  owed _ := 0

theorem before1_0 (c : Dev nD) (t : Fin cfg1.N) (d) :
    (dat1 V c).before (0 : Fin 3) t d = win1_0.fill (grid1.coords t) d ((win1_0.blk t).view.read (Elt F) (V c main_v7)) := by
  unfold Dat.before; rw [if_pos (fetch1_0 t)]; rfl
theorem before1_1 (c : Dev nD) (t : Fin cfg1.N) (d) :
    (dat1 V c).before (1 : Fin 3) t d = win1_1.fill (grid1.coords t) d ((win1_1.blk t).view.read (Elt F) (V c main_v1)) := by
  unfold Dat.before; rw [if_pos (fetch1_1 t)]; rfl
theorem nofetch1_2 (t : Fin cfg1.N) : (cfg1.win (2 : Fin 3)).fetch t = false := rfl
theorem before1_2 (c : Dev nD) (t : Fin cfg1.N) (d) : (dat1 V c).before (2 : Fin 3) t d = d := by
  unfold Dat.before
  rw [if_neg (by rw [nofetch1_2 t]; exact Bool.false_ne_true)]
  by_cases h : t.val = 0
  · rw [if_pos h]
  · rw [if_neg h]; exact if_pos (flush1_2 _)

/-- The body's run, over any three whole staging memrefs: the scaled block lands in the third, the other two keep
    their contents. -/
def ScaleRun1 : Prop := ∀ (c : Dev nD) (E : Set ℕ) (i : grid1.Coords)
    (M0 : Memref sig .tc .vmem S8192x64 .f32) (h0 : M0.IsWhole) (M1 : Memref sig .tc .vmem S8192x1 .f32) (h1 : M1.IsWhole)
    (M2 : Memref sig .tc .vmem S8192x64 .f32) (h2 : M2.IsWhole)
    (X0 : S8192x64.Idx → Elt F .f32) (X1 : S8192x1.Idx → Elt F .f32) (X2 : S8192x64.Idx → Elt F .f32) (K : PUnit → sProp 𝕄),
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                ∗ owns (c : Thread nD τ) M2 fullShare (k1_pay1 X0 X1)) -∗ K ⟨⟩))
      ⊢ wp frame (wpE (defs₀ (F := F)) Variants.none c none) E (cc1__scale_kernel i M0 h0 M1 h1 M2 h2) K

/-- On the rows inside the table the scaled block depends only on the rows inside the table of its two operands. -/
def PayCut1 : Prop := ∀ (i : grid1.Coords) (d0 d0' : S8192x64.Idx → Elt F .f32) (d1 d1' : S8192x1.Idx → Elt F .f32)
    (B0 : (win1_0.xblock i).Idx → Elt F .f32) (B1 : (win1_1.xblock i).Idx → Elt F .f32),
    win1_2.cut i (k1_pay1 (win1_0.fill i d0 B0) (win1_1.fill i d1 B1))
      = win1_2.cut i (k1_pay1 (win1_0.fill i d0' B0) (win1_1.fill i d1' B1))

/-- The library's body obligation at every point: the three staging buffers handed to the body, its run, and each buffer
    handed back stated on the rows inside the table. -/
theorem body_obligation1 (hrun : ScaleRun1 (F := F)) (hcut : PayCut1 (F := F)) (c : Dev nD) :
    BodyObligationLoose (dat1 V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1, before1_2 V c t d2]
  iapply (hrun c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_0.fill (grid1.coords t) d0 ((win1_0.blk t).view.read (Elt F) (V c main_v7)))
    (win1_1.fill (grid1.coords t) d1 ((win1_1.blk t).view.read (Elt F) (V c main_v1))) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win1_0.cut (grid1.coords t) (gblk1 V c t) = (win1_0.blk t).view.read (Elt F) (V c main_v7) := win1_0.cut_fill _ _ _
  have hy : win1_1.cut (grid1.coords t) (vblk1 V c t) = (win1_1.blk t).view.read (Elt F) (V c main_v1) := win1_1.cut_fill _ _ _
  isplitl [H0]
  · iexists d0
    change _ ⊢ owns (c : Thread nD τ) (stage1_0 (cfg1.slots t 0)) fullShare (win1_0.fill (grid1.coords t) d0 (win1_0.cut (grid1.coords t) (gblk1 V c t)))
    rw [hx]; try iexact H0
  isplitl [H1]
  · iexists d1
    change _ ⊢ owns (c : Thread nD τ) (stage1_1 (cfg1.slots t 1)) fullShare (win1_1.fill (grid1.coords t) d1 (win1_1.cut (grid1.coords t) (vblk1 V c t)))
    rw [hy]; try iexact H1
  · iexists (k1_pay1 (win1_0.fill (grid1.coords t) d0 ((win1_0.blk t).view.read (Elt F) (V c main_v7)))
      (win1_1.fill (grid1.coords t) d1 ((win1_1.blk t).view.read (Elt F) (V c main_v1))))
    have hc := hcut (grid1.coords t) d0 (fun _ => Scalar.ofBits .f32 0#32) d1 (fun _ => Scalar.ofBits .f32 0#32)
      ((win1_0.blk t).view.read (Elt F) (V c main_v7)) ((win1_1.blk t).view.read (Elt F) (V c main_v1))
    change _ ⊢ owns (c : Thread nD τ) (stage1_2 (cfg1.slots t 2)) fullShare (win1_2.fill (grid1.coords t) _ (win1_2.cut (grid1.coords t) (oblk1 V c t)))
    unfold oblk1 gblk1 vblk1
    have e := win1_2.fill_congr_cut (α := Elt F .f32) (grid1.coords t) hc
    first | rw [e] | erw [e]
    try iexact H2

end Cert.KernelIdeal.Hand

end
-- ==== Proof.Region2.lean ====
import proofs.«403625_j20873541059099_2_alg».proof.Proof.Gen.KernelIdeal.Launch
import proofs.«403625_j20873541059099_2_alg».proof.Proof.Gen.KernelIdeal.Points
import proofs.«403625_j20873541059099_2_alg».proof.Proof.Gen.KernelIdeal.Skeleton
import Idealize.ShloMosaic.Lib.Pipeline.Regions
import Idealize.ShloMosaic.Lib.Pipeline.Kit
import Idealize.ShloMosaic.Lib.Tactic

/-! Edge-scale pass 2 as a pipeline: what its staging buffers hold after the body at each grid point, and the body's
    obligation. The edge table has 2400000 rows and the blocks 8192, so the last of the 293 blocks overhangs the table
    by 256 rows; every window is stated only on the rows inside the table. -/

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

-- the buffers' contents the region is entered from, per core
variable (V : (c : Dev nD) → (b : Ref sig .tc) → Buf (Elt F) ((c : Thread nD τ).loc b))

/-- The gathered rows' block at point `t`: its rows inside the table, the zero word past the table's end. -/
def gblk2 (c : Dev nD) (t : Fin cfg2.N) : S8192x64.Idx → Elt F .f32 :=
  win2_0.fill (grid2.coords t) (fun _ => Scalar.ofBits .f32 0#32) ((win2_0.blk t).view.read (Elt F) (V c main_v12))
/-- The weights' block at point `t`, likewise. -/
def vblk2 (c : Dev nD) (t : Fin cfg2.N) : S8192x1.Idx → Elt F .f32 :=
  win2_1.fill (grid2.coords t) (fun _ => Scalar.ofBits .f32 0#32) ((win2_1.blk t).view.read (Elt F) (V c main_v1))
/-- The scaled block: the body's value of the two. -/
def oblk2 (c : Dev nD) (t : Fin cfg2.N) : S8192x64.Idx → Elt F .f32 := k2_pay1 (gblk2 V c t) (vblk2 V c t)

/-- The proof data of the pass on core `c`: the three arrays as the region finds them; after the body the blocks above;
    between points only the scoped buffers the pipeline does not stage; nothing owed; full shares. -/
def dat2 (c : Dev nD) : Dat τ (Elt F) Unit ℕ (UR sig nD τ) ℕ cfg2 c where
  A w := V c (Pipeline.arrRef spec2 w)
  after w t := match w with
    | ⟨0, _⟩ => gblk2 V c t
    | ⟨1, _⟩ => vblk2 V c t
    | ⟨2, _⟩ => oblk2 V c t
  Φ _ := Pipeline.scopedRest (Ix := Unit) (Name := ℕ) (U := UR sig nD τ) (Lvl := ℕ) (Val := Elt F) spec2 c
  q _ := fullShare
  owed _ := 0

theorem before2_0 (c : Dev nD) (t : Fin cfg2.N) (d) :
    (dat2 V c).before (0 : Fin 3) t d = win2_0.fill (grid2.coords t) d ((win2_0.blk t).view.read (Elt F) (V c main_v12)) := by
  unfold Dat.before; rw [if_pos (fetch2_0 t)]; rfl
theorem before2_1 (c : Dev nD) (t : Fin cfg2.N) (d) :
    (dat2 V c).before (1 : Fin 3) t d = win2_1.fill (grid2.coords t) d ((win2_1.blk t).view.read (Elt F) (V c main_v1)) := by
  unfold Dat.before; rw [if_pos (fetch2_1 t)]; rfl
theorem nofetch2_2 (t : Fin cfg2.N) : (cfg2.win (2 : Fin 3)).fetch t = false := rfl
theorem before2_2 (c : Dev nD) (t : Fin cfg2.N) (d) : (dat2 V c).before (2 : Fin 3) t d = d := by
  unfold Dat.before
  rw [if_neg (by rw [nofetch2_2 t]; exact Bool.false_ne_true)]
  by_cases h : t.val = 0
  · rw [if_pos h]
  · rw [if_neg h]; exact if_pos (flush2_2 _)

/-- The body's run, over any three whole staging memrefs: the scaled block lands in the third, the other two keep
    their contents. -/
def ScaleRun2 : Prop := ∀ (c : Dev nD) (E : Set ℕ) (i : grid2.Coords)
    (M0 : Memref sig .tc .vmem S8192x64 .f32) (h0 : M0.IsWhole) (M1 : Memref sig .tc .vmem S8192x1 .f32) (h1 : M1.IsWhole)
    (M2 : Memref sig .tc .vmem S8192x64 .f32) (h2 : M2.IsWhole)
    (X0 : S8192x64.Idx → Elt F .f32) (X1 : S8192x1.Idx → Elt F .f32) (X2 : S8192x64.Idx → Elt F .f32) (K : PUnit → sProp 𝕄),
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                ∗ owns (c : Thread nD τ) M2 fullShare (k2_pay1 X0 X1)) -∗ K ⟨⟩))
      ⊢ wp frame (wpE (defs₀ (F := F)) Variants.none c none) E (cc2__scale_kernel i M0 h0 M1 h1 M2 h2) K

/-- On the rows inside the table the scaled block depends only on the rows inside the table of its two operands. -/
def PayCut2 : Prop := ∀ (i : grid2.Coords) (d0 d0' : S8192x64.Idx → Elt F .f32) (d1 d1' : S8192x1.Idx → Elt F .f32)
    (B0 : (win2_0.xblock i).Idx → Elt F .f32) (B1 : (win2_1.xblock i).Idx → Elt F .f32),
    win2_2.cut i (k2_pay1 (win2_0.fill i d0 B0) (win2_1.fill i d1 B1))
      = win2_2.cut i (k2_pay1 (win2_0.fill i d0' B0) (win2_1.fill i d1' B1))

/-- The library's body obligation at every point: the three staging buffers handed to the body, its run, and each buffer
    handed back stated on the rows inside the table. -/
theorem body_obligation2 (hrun : ScaleRun2 (F := F)) (hcut : PayCut2 (F := F)) (c : Dev nD) :
    BodyObligationLoose (dat2 V c) (defs₀ (F := F)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  rw [before2_0 V c t d0, before2_1 V c t d1, before2_2 V c t d2]
  iapply (hrun c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_0.fill (grid2.coords t) d0 ((win2_0.blk t).view.read (Elt F) (V c main_v12)))
    (win2_1.fill (grid2.coords t) d1 ((win2_1.blk t).view.read (Elt F) (V c main_v1))) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win2_0.cut (grid2.coords t) (gblk2 V c t) = (win2_0.blk t).view.read (Elt F) (V c main_v12) := win2_0.cut_fill _ _ _
  have hy : win2_1.cut (grid2.coords t) (vblk2 V c t) = (win2_1.blk t).view.read (Elt F) (V c main_v1) := win2_1.cut_fill _ _ _
  isplitl [H0]
  · iexists d0
    change _ ⊢ owns (c : Thread nD τ) (stage2_0 (cfg2.slots t 0)) fullShare (win2_0.fill (grid2.coords t) d0 (win2_0.cut (grid2.coords t) (gblk2 V c t)))
    rw [hx]; try iexact H0
  isplitl [H1]
  · iexists d1
    change _ ⊢ owns (c : Thread nD τ) (stage2_1 (cfg2.slots t 1)) fullShare (win2_1.fill (grid2.coords t) d1 (win2_1.cut (grid2.coords t) (vblk2 V c t)))
    rw [hy]; try iexact H1
  · iexists (k2_pay1 (win2_0.fill (grid2.coords t) d0 ((win2_0.blk t).view.read (Elt F) (V c main_v12)))
      (win2_1.fill (grid2.coords t) d1 ((win2_1.blk t).view.read (Elt F) (V c main_v1))))
    have hc := hcut (grid2.coords t) d0 (fun _ => Scalar.ofBits .f32 0#32) d1 (fun _ => Scalar.ofBits .f32 0#32)
      ((win2_0.blk t).view.read (Elt F) (V c main_v12)) ((win2_1.blk t).view.read (Elt F) (V c main_v1))
    change _ ⊢ owns (c : Thread nD τ) (stage2_2 (cfg2.slots t 2)) fullShare (win2_2.fill (grid2.coords t) _ (win2_2.cut (grid2.coords t) (oblk2 V c t)))
    unfold oblk2 gblk2 vblk2
    have e := win2_2.fill_congr_cut (α := Elt F .f32) (grid2.coords t) hc
    first | rw [e] | erw [e]
    try iexact H2

end Cert.KernelIdeal.Hand

end
-- ==== Proof.Region3.lean ====
import proofs.«403625_j20873541059099_2_alg».proof.Proof.Gen.KernelIdeal.Launch
import proofs.«403625_j20873541059099_2_alg».proof.Proof.Gen.KernelIdeal.Points
import proofs.«403625_j20873541059099_2_alg».proof.Proof.Gen.KernelIdeal.Skeleton
import Idealize.ShloMosaic.Lib.Pipeline.Regions
import Idealize.ShloMosaic.Lib.Pipeline.Kit
import Idealize.ShloMosaic.Lib.Tactic

/-! The mean pass as a pipeline: what its staging buffers hold after the body at each grid point, and the body's
    obligation. The node table has 150000 rows and the blocks 8192, so the last of the 19 blocks overhangs the table;
    every window is stated only on the rows inside the table. -/

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

-- the buffers' contents the region is entered from, per core
variable (V : (c : Dev nD) → (b : Ref sig .tc) → Buf (Elt F) ((c : Thread nD τ).loc b))

/-- The three layer outputs' blocks at point `t`: the rows inside the table, the zero word past the table's end. -/
def ablk3 (c : Dev nD) (t : Fin cfg3.N) : S8192x64.Idx → Elt F .f32 :=
  win3_0.fill (grid3.coords t) (fun _ => Scalar.ofBits .f32 0#32) ((win3_0.blk t).view.read (Elt F) (V c main_v6))
def bblk3 (c : Dev nD) (t : Fin cfg3.N) : S8192x64.Idx → Elt F .f32 :=
  win3_1.fill (grid3.coords t) (fun _ => Scalar.ofBits .f32 0#32) ((win3_1.blk t).view.read (Elt F) (V c main_v11))
def cblk3 (c : Dev nD) (t : Fin cfg3.N) : S8192x64.Idx → Elt F .f32 :=
  win3_2.fill (grid3.coords t) (fun _ => Scalar.ofBits .f32 0#32) ((win3_2.blk t).view.read (Elt F) (V c main_v16))
/-- The mean block: the body's value of the three. -/
def oblk3 (c : Dev nD) (t : Fin cfg3.N) : S8192x64.Idx → Elt F .f32 := k3_pay1 (ablk3 V c t) (bblk3 V c t) (cblk3 V c t)

/-- The proof data of the pass on core `c`: the four arrays as the region finds them; after the body the blocks above;
    between points only the scoped buffers the pipeline does not stage; nothing owed; full shares. -/
def dat3 (c : Dev nD) : Dat τ (Elt F) Unit ℕ (UR sig nD τ) ℕ cfg3 c where
  A w := V c (Pipeline.arrRef spec3 w)
  after w t := match w with
    | ⟨0, _⟩ => ablk3 V c t
    | ⟨1, _⟩ => bblk3 V c t
    | ⟨2, _⟩ => cblk3 V c t
    | ⟨3, _⟩ => oblk3 V c t
  Φ _ := Pipeline.scopedRest (Ix := Unit) (Name := ℕ) (U := UR sig nD τ) (Lvl := ℕ) (Val := Elt F) spec3 c
  q _ := fullShare
  owed _ := 0

theorem before3_0 (c : Dev nD) (t : Fin cfg3.N) (d) :
    (dat3 V c).before (0 : Fin 4) t d = win3_0.fill (grid3.coords t) d ((win3_0.blk t).view.read (Elt F) (V c main_v6)) := by
  unfold Dat.before; rw [if_pos (fetch3_0 t)]; rfl
theorem before3_1 (c : Dev nD) (t : Fin cfg3.N) (d) :
    (dat3 V c).before (1 : Fin 4) t d = win3_1.fill (grid3.coords t) d ((win3_1.blk t).view.read (Elt F) (V c main_v11)) := by
  unfold Dat.before; rw [if_pos (fetch3_1 t)]; rfl
theorem before3_2 (c : Dev nD) (t : Fin cfg3.N) (d) :
    (dat3 V c).before (2 : Fin 4) t d = win3_2.fill (grid3.coords t) d ((win3_2.blk t).view.read (Elt F) (V c main_v16)) := by
  unfold Dat.before; rw [if_pos (fetch3_2 t)]; rfl
theorem nofetch3_3 (t : Fin cfg3.N) : (cfg3.win (3 : Fin 4)).fetch t = false := rfl
theorem before3_3 (c : Dev nD) (t : Fin cfg3.N) (d) : (dat3 V c).before (3 : Fin 4) t d = d := by
  unfold Dat.before
  rw [if_neg (by rw [nofetch3_3 t]; exact Bool.false_ne_true)]
  by_cases h : t.val = 0
  · rw [if_pos h]
  · rw [if_neg h]; exact if_pos (flush3_3 _)

/-- The body's run, over any four whole staging memrefs: the mean block lands in the fourth, the other three keep
    their contents. -/
def MeanRun3 : Prop := ∀ (c : Dev nD) (E : Set ℕ) (i : grid3.Coords)
    (M0 : Memref sig .tc .vmem S8192x64 .f32) (h0 : M0.IsWhole) (M1 : Memref sig .tc .vmem S8192x64 .f32) (h1 : M1.IsWhole)
    (M2 : Memref sig .tc .vmem S8192x64 .f32) (h2 : M2.IsWhole) (M3 : Memref sig .tc .vmem S8192x64 .f32) (h3 : M3.IsWhole)
    (X0 X1 X2 X3 : S8192x64.Idx → Elt F .f32) (K : PUnit → sProp 𝕄),
    iprop((owns (c : Thread nD τ) M0 fullShare X0 ∗ owns (c : Thread nD τ) M1 fullShare X1 ∗ owns (c : Thread nD τ) M2 fullShare X2
            ∗ owns (c : Thread nD τ) M3 fullShare X3)
          ∗ (iprop(owns (c : Thread nD τ) M0 fullShare X0 ∗ owns (c : Thread nD τ) M1 fullShare X1 ∗ owns (c : Thread nD τ) M2 fullShare X2
                ∗ owns (c : Thread nD τ) M3 fullShare (k3_pay1 X0 X1 X2)) -∗ K ⟨⟩))
      ⊢ wp frame (wpE (defs₀ (F := F)) Variants.none c none) E (cc3__mean_kernel i M0 h0 M1 h1 M2 h2 M3 h3) K

/-- On the rows inside the table the mean block depends only on the rows inside the table of its three operands. -/
def PayCut3 : Prop := ∀ (i : grid3.Coords) (d0 d0' d1 d1' d2 d2' : S8192x64.Idx → Elt F .f32)
    (B0 : (win3_0.xblock i).Idx → Elt F .f32) (B1 : (win3_1.xblock i).Idx → Elt F .f32) (B2 : (win3_2.xblock i).Idx → Elt F .f32),
    win3_3.cut i (k3_pay1 (win3_0.fill i d0 B0) (win3_1.fill i d1 B1) (win3_2.fill i d2 B2))
      = win3_3.cut i (k3_pay1 (win3_0.fill i d0' B0) (win3_1.fill i d1' B1) (win3_2.fill i d2' B2))

/-- The library's body obligation at every point: the four staging buffers handed to the body, its run, and each buffer
    handed back stated on the rows inside the table. -/
theorem body_obligation3 (hrun : MeanRun3 (F := F)) (hcut : PayCut3 (F := F)) (c : Dev nD) :
    BodyObligationLoose (dat3 V c) (defs₀ (F := F)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩⟩
  rw [before3_0 V c t d0, before3_1 V c t d1, before3_2 V c t d2, before3_3 V c t d3]
  iapply (hrun c Set.univ (grid3.coords t)
    (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2))
    (win3_3.stage (cfg3.slots t 3)) (hstage3_3 ((cfg3.slots t 3).cast nbuf3_3))
    (win3_0.fill (grid3.coords t) d0 ((win3_0.blk t).view.read (Elt F) (V c main_v6)))
    (win3_1.fill (grid3.coords t) d1 ((win3_1.blk t).view.read (Elt F) (V c main_v11)))
    (win3_2.fill (grid3.coords t) d2 ((win3_2.blk t).view.read (Elt F) (V c main_v16))) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win3_0.cut (grid3.coords t) (ablk3 V c t) = (win3_0.blk t).view.read (Elt F) (V c main_v6) := win3_0.cut_fill _ _ _
  have hy : win3_1.cut (grid3.coords t) (bblk3 V c t) = (win3_1.blk t).view.read (Elt F) (V c main_v11) := win3_1.cut_fill _ _ _
  have hz : win3_2.cut (grid3.coords t) (cblk3 V c t) = (win3_2.blk t).view.read (Elt F) (V c main_v16) := win3_2.cut_fill _ _ _
  isplitl [H0]
  · iexists d0
    change _ ⊢ owns (c : Thread nD τ) (stage3_0 (cfg3.slots t 0)) fullShare (win3_0.fill (grid3.coords t) d0 (win3_0.cut (grid3.coords t) (ablk3 V c t)))
    rw [hx]; try iexact H0
  isplitl [H1]
  · iexists d1
    change _ ⊢ owns (c : Thread nD τ) (stage3_1 (cfg3.slots t 1)) fullShare (win3_1.fill (grid3.coords t) d1 (win3_1.cut (grid3.coords t) (bblk3 V c t)))
    rw [hy]; try iexact H1
  isplitl [H2]
  · iexists d2
    change _ ⊢ owns (c : Thread nD τ) (stage3_2 (cfg3.slots t 2)) fullShare (win3_2.fill (grid3.coords t) d2 (win3_2.cut (grid3.coords t) (cblk3 V c t)))
    rw [hz]; try iexact H2
  · iexists (k3_pay1 (win3_0.fill (grid3.coords t) d0 ((win3_0.blk t).view.read (Elt F) (V c main_v6)))
      (win3_1.fill (grid3.coords t) d1 ((win3_1.blk t).view.read (Elt F) (V c main_v11)))
      (win3_2.fill (grid3.coords t) d2 ((win3_2.blk t).view.read (Elt F) (V c main_v16))))
    have hc := hcut (grid3.coords t) d0 (fun _ => Scalar.ofBits .f32 0#32) d1 (fun _ => Scalar.ofBits .f32 0#32) d2 (fun _ => Scalar.ofBits .f32 0#32)
      ((win3_0.blk t).view.read (Elt F) (V c main_v6)) ((win3_1.blk t).view.read (Elt F) (V c main_v11)) ((win3_2.blk t).view.read (Elt F) (V c main_v16))
    change _ ⊢ owns (c : Thread nD τ) (stage3_3 (cfg3.slots t 3)) fullShare (win3_3.fill (grid3.coords t) _ (win3_3.cut (grid3.coords t) (oblk3 V c t)))
    unfold oblk3 ablk3 bblk3 cblk3
    have e := win3_3.fill_congr_cut (α := Elt F .f32) (grid3.coords t) hc
    first | rw [e] | erw [e]
    try iexact H3

end Cert.KernelIdeal.Hand

end
-- ==== Proof.Chain.lean ====
import proofs.«403625_j20873541059099_2_alg».proof.Proof.Region0
import proofs.«403625_j20873541059099_2_alg».proof.Proof.Region1
import proofs.«403625_j20873541059099_2_alg».proof.Proof.Region2
import proofs.«403625_j20873541059099_2_alg».proof.Proof.Region3
import proofs.«403625_j20873541059099_2_alg».proof.Proof.Gen.KernelIdeal.Regions

/-! The buffers' contents between @main's items, with what each pass leaves fixed to what the pipeline library
    computes from the pass's proof data: each pass is entered from the contents the items before it left. -/

noncomputable section

namespace Cert.KernelIdeal.Hand

open Cert.KernelIdeal Cert.KernelIdeal.Gen

open Idealize.ShloMosaic
open Idealize.ShloMosaic.TcCoe
open Idealize.SL Idealize.SL.RA Idealize.SL.BI
open Idealize.SL.Sem
open Idealize.ShloMosaic.Rounds
open Idealize.ShloMosaic.Pipeline (Dat)

variable {F : FTy → Type} [FloatOps F] [Named F]

variable (m : (ℓ : Loc nD τ sig) → Buf (Elt F) ℓ)

/-- A valuation of the device buffers read at the TensorCore's references. -/
abbrev atRefs (W : (c : Dev nD) → Valuation τ sig (Elt F)) : (c : Dev nD) → (b : Ref sig .tc) → Buf (Elt F) ((c : Thread nD τ).loc b) :=
  fun c b => W c b

/-- The contents pass 0 is entered from: the concatenation, the weights' column and the first gather have run. (A name of
    its own, so that the host operations' fold is never opened by accident.) -/
def W2 (c : Dev nD) : Valuation τ sig (Elt F) := V2 m c
/-- What scale pass 0 leaves in its result table. -/
def o3 (c : Dev nD) : Buf (Elt F) ((c : Thread nD τ).loc main_v3) := (dat0 (atRefs (W2 m)) c).arrAt (2 : Fin 3) cfg0.N
/-- The contents after pass 0, -/
def W3 (c : Dev nD) : Valuation τ sig (Elt F) := Function.update (W2 m c) main_v3 (o3 m c)
/-- and when pass 1 is entered: the scatter-add and the second gather have run. -/
def W5 (c : Dev nD) : Valuation τ sig (Elt F) := StableHlo.after hostOps1_1 (StableHlo.after hostOps1 (W3 m c))
def o6 (c : Dev nD) : Buf (Elt F) ((c : Thread nD τ).loc main_v8) := (dat1 (atRefs (W5 m)) c).arrAt (2 : Fin 3) cfg1.N
def W6 (c : Dev nD) : Valuation τ sig (Elt F) := Function.update (W5 m c) main_v8 (o6 m c)
def W8 (c : Dev nD) : Valuation τ sig (Elt F) := StableHlo.after hostOps2_1 (StableHlo.after hostOps2 (W6 m c))
def o9 (c : Dev nD) : Buf (Elt F) ((c : Thread nD τ).loc main_v13) := (dat2 (atRefs (W8 m)) c).arrAt (2 : Fin 3) cfg2.N
def W9 (c : Dev nD) : Valuation τ sig (Elt F) := Function.update (W8 m c) main_v13 (o9 m c)
def W10 (c : Dev nD) : Valuation τ sig (Elt F) := StableHlo.after hostOps3 (W9 m c)
def o11 (c : Dev nD) : Buf (Elt F) ((c : Thread nD τ).loc main_v17) := (dat3 (atRefs (W10 m)) c).arrAt (3 : Fin 4) cfg3.N
def W11 (c : Dev nD) : Valuation τ sig (Elt F) := Function.update (W10 m c) main_v17 (o11 m c)

/-- What the passes leave, as the family the valuations between items are written over: read only at the four
    points (3, main_v3), (6, main_v8), (9, main_v13), (11, main_v17). -/
def outsK : Outs (F := F) := fun n r c =>
  match n with
  | 3 => W3 m c r
  | 6 => W6 m c r
  | 9 => W9 m c r
  | 11 => W11 m c r
  | _ => V0 m c r

theorem V2_eq (c : Dev nD) : V2 m c = W2 m c := rfl
theorem outs3 (c : Dev nD) : outsK m 3 main_v3 c = o3 m c := by
  show W3 m c main_v3 = _; unfold W3; exact Function.update_self ..
theorem V3_eq (c : Dev nD) : V3 m (outsK m) c = W3 m c := by
  show Function.update (V2 m c) main_v3 (outsK m 3 main_v3 c) = _; rw [outs3]; rfl
theorem V5_eq (c : Dev nD) : V5 m (outsK m) c = W5 m c := by
  show StableHlo.after hostOps1_1 (StableHlo.after hostOps1 (V3 m (outsK m) c)) = _; rw [V3_eq]; rfl
theorem outs6 (c : Dev nD) : outsK m 6 main_v8 c = o6 m c := by
  show W6 m c main_v8 = _; unfold W6; exact Function.update_self ..
theorem V6_eq (c : Dev nD) : V6 m (outsK m) c = W6 m c := by
  show Function.update (V5 m (outsK m) c) main_v8 (outsK m 6 main_v8 c) = _; rw [outs6, V5_eq]; rfl
theorem V8_eq (c : Dev nD) : V8 m (outsK m) c = W8 m c := by
  show StableHlo.after hostOps2_1 (StableHlo.after hostOps2 (V6 m (outsK m) c)) = _; rw [V6_eq]; rfl
theorem outs9 (c : Dev nD) : outsK m 9 main_v13 c = o9 m c := by
  show W9 m c main_v13 = _; unfold W9; exact Function.update_self ..
theorem V9_eq (c : Dev nD) : V9 m (outsK m) c = W9 m c := by
  show Function.update (V8 m (outsK m) c) main_v13 (outsK m 9 main_v13 c) = _; rw [outs9, V8_eq]; rfl
theorem V10_eq (c : Dev nD) : V10 m (outsK m) c = W10 m c := by
  show StableHlo.after hostOps3 (V9 m (outsK m) c) = _; rw [V9_eq]; rfl
theorem outs11 (c : Dev nD) : outsK m 11 main_v17 c = o11 m c := by
  show W11 m c main_v17 = _; unfold W11; exact Function.update_self ..
theorem V11_eq (c : Dev nD) : V11 m (outsK m) c = W11 m c := by
  show Function.update (V10 m (outsK m) c) main_v17 (outsK m 11 main_v17 c) = _; rw [outs11, V10_eq]; rfl

theorem W3_at (c : Dev nD) : W3 m c main_v3 = o3 m c := by unfold W3; exact Function.update_self ..
theorem W6_at (c : Dev nD) : W6 m c main_v8 = o6 m c := by unfold W6; exact Function.update_self ..
theorem W9_at (c : Dev nD) : W9 m c main_v13 = o9 m c := by unfold W9; exact Function.update_self ..
theorem W11_at (c : Dev nD) : W11 m c main_v17 = o11 m c := by unfold W11; exact Function.update_self ..

/-- A pass changes only its result table. -/
theorem W3_of (c : Dev nD) (r : Ref sig .tc) (h : r ∉ ([main_v3] : List (Ref sig .tc))) : W3 m c r = W2 m c r := by
  rw [← V3_eq, ← V2_eq]; exact V3_of m (outsK m) c r h
theorem W6_of (c : Dev nD) (r : Ref sig .tc) (h : r ∉ ([main_v8] : List (Ref sig .tc))) : W6 m c r = W5 m c r := by
  rw [← V6_eq, ← V5_eq]; exact V6_of m (outsK m) c r h
theorem W9_of (c : Dev nD) (r : Ref sig .tc) (h : r ∉ ([main_v13] : List (Ref sig .tc))) : W9 m c r = W8 m c r := by
  rw [← V9_eq, ← V8_eq]; exact V9_of m (outsK m) c r h
theorem W11_of (c : Dev nD) (r : Ref sig .tc) (h : r ∉ ([main_v17] : List (Ref sig .tc))) : W11 m c r = W10 m c r := by
  rw [← V11_eq, ← V10_eq]; exact V11_of m (outsK m) c r h

/-- The proof data of the four passes, each entered from the contents the items before it left. -/
def pdatsK : (p : Fin 4) → (c : Dev nD) → Dat τ (Elt F) Unit ℕ (UR sig nD τ) ℕ (cfgs p) c
  | ⟨0, _⟩ => fun c => dat0 (atRefs (W2 m)) c
  | ⟨1, _⟩ => fun c => dat1 (atRefs (W5 m)) c
  | ⟨2, _⟩ => fun c => dat2 (atRefs (W8 m)) c
  | ⟨3, _⟩ => fun c => dat3 (atRefs (W10 m)) c

end Cert.KernelIdeal.Hand

end
-- ==== Proof.Record0.lean ====
import proofs.«403625_j20873541059099_2_alg».proof.Proof.Chain
import Idealize.ShloMosaic.Lib.Pipeline.RegionsLoop

/-! Scale pass 0 as a segment of @main: entered from every unscoped buffer held at the contents the items before it
    left, left with them held at the same contents but for the pass's result table, which holds what the pipeline
    library computes; the core's debt (nothing) rides beside. -/

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

/-- The pass does not write its two operand tables. -/
theorem W3_gathered (c : Dev nD) : W3 m c main_v2 = W2 m c main_v2 := W3_of m c main_v2 (by decide)
theorem W3_weights (c : Dev nD) : W3 m c main_v1 = W2 m c main_v1 := W3_of m c main_v1 (by decide)

/-- After the pass the three tables hold what the library computes — the operands what they held, the result the
    written-back blocks —, for any contents `V` the pass is entered from and any `V'` that agrees with `V` on the operands
    and holds the computed result. -/
theorem exit_arrays_of0 (V V' : (c : Dev nD) → (b : Ref sig .tc) → Buf (Elt F) ((c : Thread nD τ).loc b)) (c : Dev nD)
    (h0 : V' c main_v2 = V c main_v2) (h1 : V' c main_v1 = V c main_v1)
    (h2 : V' c main_v3 = (dat0 V c).arrAt (2 : Fin 3) cfg0.N) :
    ∀ w : Fin 3, (dat0 V c).arrAt w cfg0.N = V' c (Pipeline.arrRef spec0 w)
  | ⟨0, _⟩ => ((dat0 V c).arrAt_in (0 : Fin 3) rfl _).trans h0.symm
  | ⟨1, _⟩ => ((dat0 V c).arrAt_in (1 : Fin 3) rfl _).trans h1.symm
  | ⟨2, _⟩ => h2.symm
theorem exit_arrays0 (c : Dev nD) (w : Fin 3) :
    (dat0 (atRefs (W2 m)) c).arrAt w cfg0.N = atRefs (W3 m) c (Pipeline.arrRef spec0 w) :=
  exit_arrays_of0 (atRefs (W2 m)) (atRefs (W3 m)) c (W3_gathered m c) (W3_weights m c) (W3_at m c) w
/-- Every other buffer is as the pass found it. -/
theorem exit_rest0 (c : Dev nD) (b : Ref sig .tc) (hb : b ∉ Finset.univ.image (Pipeline.arrRef spec0)) :
    atRefs (W3 m) c b = atRefs (W2 m) c b :=
  W3_of m c b fun h => hb (by
    rw [List.mem_singleton] at h; subst h; exact Finset.mem_image.mpr ⟨2, Finset.mem_univ _, rfl⟩)

-- applying a library lemma stated at a pinned configuration unifies only when unification may unfold plain
-- definitions in a metavariable's type
set_option backward.isDefEq.respectTransparency.types false in
/-- Pass 0 as a region segment. -/
def reg0 (hrun : ScaleRun0 (F := F)) (hcut : PayCut0 (F := F)) :
    Pipeline.RegionSeg (pcfgs (F := F)) adm (pdatsK m) () defs₀ Variants.none (fun _ => (∅ : Finset Unit)) (fun _ _ => (0 : ℕ)) (0 : Fin 4) where
  win := launch0.win.to₀
  block_pos := launch0.block_pos
  stage_whole := launch0.stage_whole
  K := PEmpty
  osem k := k.elim
  ho := Pipeline.OwnSemFacts.none _
  hbody c := (body_obligation0 (atRefs (W2 m)) hrun hcut c)
  hwaits := Pipeline.hwaits_of_owed_zero _ _ _ _ _ _ (0 : Fin 4) fun _ _ => rfl
  pre c := iprop(StableHlo.held (c : Thread nD τ) (Pipeline.ucRefs τ sig) (W2 m c) ∗ ∃ W, owes (c : Thread nD τ) (0 : CellTallies nD τ sig Unit) W)
  post c := iprop(StableHlo.held (c : Thread nD τ) (Pipeline.ucRefs τ sig) (W3 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (atRefs (W2 m) c)
  hentry c := by
    rw [Pipeline.ownSems0_none, ← Pipeline.unscopedBufs_held (Ix := Unit) (Name := ℕ) (U := UR sig nD τ) (Lvl := ℕ) c (W2 m c)]
    have hsplit := Pipeline.arrays_of_unscopedBufs (p := (0 : Fin 4)) (pcfgs (F := F)) adm (pdatsK m) launch0.win launch0.arr_whole c
      ((pdatsK m (0 : Fin 4) c).share_full fun _ => rfl) (atRefs (W2 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdatsK m (0 : Fin 4) c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdatsK m (0 : Fin 4) c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := (0 : Fin 4)) (pcfgs (F := F)) adm (Ix := Unit) (Name := ℕ) (U := UR sig nD τ) (Lvl := ℕ)
      launch0.win launch0.arr_whole c (pdatsK m) ((pdatsK m (0 : Fin 4) c).share_full fun _ => rfl)
      (atRefs (W2 m) c) (atRefs (W3 m) c) ((pdatsK m (0 : Fin 4) c).arrAt · cfg0.N)
      (exit_arrays0 m c) (exit_rest0 m c)
    rw [← Pipeline.unscopedBufs_held (Ix := Unit) (Name := ℕ) (U := UR sig nD τ) (Lvl := ℕ) c (W3 m c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.Record1.lean ====
import proofs.«403625_j20873541059099_2_alg».proof.Proof.Chain
import Idealize.ShloMosaic.Lib.Pipeline.RegionsLoop

/-! Scale pass 1 as a segment of @main: entered from every unscoped buffer held at the contents the items before it
    left, left with them held at the same contents but for the pass's result table, which holds what the pipeline
    library computes; the core's debt (nothing) rides beside. -/

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

/-- The pass does not write its two operand tables. -/
theorem W6_gathered (c : Dev nD) : W6 m c main_v7 = W5 m c main_v7 := W6_of m c main_v7 (by decide)
theorem W6_weights (c : Dev nD) : W6 m c main_v1 = W5 m c main_v1 := W6_of m c main_v1 (by decide)

/-- After the pass the three tables hold what the library computes — the operands what they held, the result the
    written-back blocks —, for any contents `V` the pass is entered from and any `V'` that agrees with `V` on the operands
    and holds the computed result. -/
theorem exit_arrays_of1 (V V' : (c : Dev nD) → (b : Ref sig .tc) → Buf (Elt F) ((c : Thread nD τ).loc b)) (c : Dev nD)
    (h0 : V' c main_v7 = V c main_v7) (h1 : V' c main_v1 = V c main_v1)
    (h2 : V' c main_v8 = (dat1 V c).arrAt (2 : Fin 3) cfg1.N) :
    ∀ w : Fin 3, (dat1 V c).arrAt w cfg1.N = V' c (Pipeline.arrRef spec1 w)
  | ⟨0, _⟩ => ((dat1 V c).arrAt_in (0 : Fin 3) rfl _).trans h0.symm
  | ⟨1, _⟩ => ((dat1 V c).arrAt_in (1 : Fin 3) rfl _).trans h1.symm
  | ⟨2, _⟩ => h2.symm
theorem exit_arrays1 (c : Dev nD) (w : Fin 3) :
    (dat1 (atRefs (W5 m)) c).arrAt w cfg1.N = atRefs (W6 m) c (Pipeline.arrRef spec1 w) :=
  exit_arrays_of1 (atRefs (W5 m)) (atRefs (W6 m)) c (W6_gathered m c) (W6_weights m c) (W6_at m c) w
/-- Every other buffer is as the pass found it. -/
theorem exit_rest1 (c : Dev nD) (b : Ref sig .tc) (hb : b ∉ Finset.univ.image (Pipeline.arrRef spec1)) :
    atRefs (W6 m) c b = atRefs (W5 m) c b :=
  W6_of m c b fun h => hb (by
    rw [List.mem_singleton] at h; subst h; exact Finset.mem_image.mpr ⟨2, Finset.mem_univ _, rfl⟩)

-- applying a library lemma stated at a pinned configuration unifies only when unification may unfold plain
-- definitions in a metavariable's type
set_option backward.isDefEq.respectTransparency.types false in
/-- Pass 0 as a region segment. -/
def reg1 (hrun : ScaleRun1 (F := F)) (hcut : PayCut1 (F := F)) :
    Pipeline.RegionSeg (pcfgs (F := F)) adm (pdatsK m) () defs₀ Variants.none (fun _ => (∅ : Finset Unit)) (fun _ _ => (0 : ℕ)) (1 : Fin 4) where
  win := launch1.win.to₀
  block_pos := launch1.block_pos
  stage_whole := launch1.stage_whole
  K := PEmpty
  osem k := k.elim
  ho := Pipeline.OwnSemFacts.none _
  hbody c := (body_obligation1 (atRefs (W5 m)) hrun hcut c)
  hwaits := Pipeline.hwaits_of_owed_zero _ _ _ _ _ _ (1 : Fin 4) fun _ _ => rfl
  pre c := iprop(StableHlo.held (c : Thread nD τ) (Pipeline.ucRefs τ sig) (W5 m c) ∗ ∃ W, owes (c : Thread nD τ) (0 : CellTallies nD τ sig Unit) W)
  post c := iprop(StableHlo.held (c : Thread nD τ) (Pipeline.ucRefs τ sig) (W6 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (atRefs (W5 m) c)
  hentry c := by
    rw [Pipeline.ownSems0_none, ← Pipeline.unscopedBufs_held (Ix := Unit) (Name := ℕ) (U := UR sig nD τ) (Lvl := ℕ) c (W5 m c)]
    have hsplit := Pipeline.arrays_of_unscopedBufs (p := (1 : Fin 4)) (pcfgs (F := F)) adm (pdatsK m) launch1.win launch1.arr_whole c
      ((pdatsK m (1 : Fin 4) c).share_full fun _ => rfl) (atRefs (W5 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdatsK m (1 : Fin 4) c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdatsK m (1 : Fin 4) c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := (1 : Fin 4)) (pcfgs (F := F)) adm (Ix := Unit) (Name := ℕ) (U := UR sig nD τ) (Lvl := ℕ)
      launch1.win launch1.arr_whole c (pdatsK m) ((pdatsK m (1 : Fin 4) c).share_full fun _ => rfl)
      (atRefs (W5 m) c) (atRefs (W6 m) c) ((pdatsK m (1 : Fin 4) c).arrAt · cfg1.N)
      (exit_arrays1 m c) (exit_rest1 m c)
    rw [← Pipeline.unscopedBufs_held (Ix := Unit) (Name := ℕ) (U := UR sig nD τ) (Lvl := ℕ) c (W6 m c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.Record2.lean ====
import proofs.«403625_j20873541059099_2_alg».proof.Proof.Chain
import Idealize.ShloMosaic.Lib.Pipeline.RegionsLoop

/-! Scale pass 2 as a segment of @main: entered from every unscoped buffer held at the contents the items before it
    left, left with them held at the same contents but for the pass's result table, which holds what the pipeline
    library computes; the core's debt (nothing) rides beside. -/

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

/-- The pass does not write its two operand tables. -/
theorem W9_gathered (c : Dev nD) : W9 m c main_v12 = W8 m c main_v12 := W9_of m c main_v12 (by decide)
theorem W9_weights (c : Dev nD) : W9 m c main_v1 = W8 m c main_v1 := W9_of m c main_v1 (by decide)

/-- After the pass the three tables hold what the library computes — the operands what they held, the result the
    written-back blocks —, for any contents `V` the pass is entered from and any `V'` that agrees with `V` on the operands
    and holds the computed result. -/
theorem exit_arrays_of2 (V V' : (c : Dev nD) → (b : Ref sig .tc) → Buf (Elt F) ((c : Thread nD τ).loc b)) (c : Dev nD)
    (h0 : V' c main_v12 = V c main_v12) (h1 : V' c main_v1 = V c main_v1)
    (h2 : V' c main_v13 = (dat2 V c).arrAt (2 : Fin 3) cfg2.N) :
    ∀ w : Fin 3, (dat2 V c).arrAt w cfg2.N = V' c (Pipeline.arrRef spec2 w)
  | ⟨0, _⟩ => ((dat2 V c).arrAt_in (0 : Fin 3) rfl _).trans h0.symm
  | ⟨1, _⟩ => ((dat2 V c).arrAt_in (1 : Fin 3) rfl _).trans h1.symm
  | ⟨2, _⟩ => h2.symm
theorem exit_arrays2 (c : Dev nD) (w : Fin 3) :
    (dat2 (atRefs (W8 m)) c).arrAt w cfg2.N = atRefs (W9 m) c (Pipeline.arrRef spec2 w) :=
  exit_arrays_of2 (atRefs (W8 m)) (atRefs (W9 m)) c (W9_gathered m c) (W9_weights m c) (W9_at m c) w
/-- Every other buffer is as the pass found it. -/
theorem exit_rest2 (c : Dev nD) (b : Ref sig .tc) (hb : b ∉ Finset.univ.image (Pipeline.arrRef spec2)) :
    atRefs (W9 m) c b = atRefs (W8 m) c b :=
  W9_of m c b fun h => hb (by
    rw [List.mem_singleton] at h; subst h; exact Finset.mem_image.mpr ⟨2, Finset.mem_univ _, rfl⟩)

-- applying a library lemma stated at a pinned configuration unifies only when unification may unfold plain
-- definitions in a metavariable's type
set_option backward.isDefEq.respectTransparency.types false in
/-- Pass 0 as a region segment. -/
def reg2 (hrun : ScaleRun2 (F := F)) (hcut : PayCut2 (F := F)) :
    Pipeline.RegionSeg (pcfgs (F := F)) adm (pdatsK m) () defs₀ Variants.none (fun _ => (∅ : Finset Unit)) (fun _ _ => (0 : ℕ)) (2 : Fin 4) where
  win := launch2.win.to₀
  block_pos := launch2.block_pos
  stage_whole := launch2.stage_whole
  K := PEmpty
  osem k := k.elim
  ho := Pipeline.OwnSemFacts.none _
  hbody c := (body_obligation2 (atRefs (W8 m)) hrun hcut c)
  hwaits := Pipeline.hwaits_of_owed_zero _ _ _ _ _ _ (2 : Fin 4) fun _ _ => rfl
  pre c := iprop(StableHlo.held (c : Thread nD τ) (Pipeline.ucRefs τ sig) (W8 m c) ∗ ∃ W, owes (c : Thread nD τ) (0 : CellTallies nD τ sig Unit) W)
  post c := iprop(StableHlo.held (c : Thread nD τ) (Pipeline.ucRefs τ sig) (W9 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec2 c (atRefs (W8 m) c)
  hentry c := by
    rw [Pipeline.ownSems0_none, ← Pipeline.unscopedBufs_held (Ix := Unit) (Name := ℕ) (U := UR sig nD τ) (Lvl := ℕ) c (W8 m c)]
    have hsplit := Pipeline.arrays_of_unscopedBufs (p := (2 : Fin 4)) (pcfgs (F := F)) adm (pdatsK m) launch2.win launch2.arr_whole c
      ((pdatsK m (2 : Fin 4) c).share_full fun _ => rfl) (atRefs (W8 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdatsK m (2 : Fin 4) c).Φ 0 = Pipeline.scopedRest (Ix := Unit) (Name := ℕ) (U := UR sig nD τ) (Lvl := ℕ) (Val := Elt F) spec2 c from rfl]
    iintro ⟨-, -, Hr⟩; iexact Hr
  hout c := by
    rw [Pipeline.ownSems0_none, show (pdatsK m (2 : Fin 4) c).Φ (Fin.last _) = Pipeline.scopedRest (Ix := Unit) (Name := ℕ) (U := UR sig nD τ) (Lvl := ℕ) (Val := Elt F) spec2 c from rfl]
    iintro Hr
    isplitr; · iempintro
    isplitr; · iempintro
    iexact Hr
  hexit c := by
    have hjoin := Pipeline.unscopedBufs_of_arrays (p := (2 : Fin 4)) (pcfgs (F := F)) adm (Ix := Unit) (Name := ℕ) (U := UR sig nD τ) (Lvl := ℕ)
      launch2.win launch2.arr_whole c (pdatsK m) ((pdatsK m (2 : Fin 4) c).share_full fun _ => rfl)
      (atRefs (W8 m) c) (atRefs (W9 m) c) ((pdatsK m (2 : Fin 4) c).arrAt · cfg2.N)
      (exit_arrays2 m c) (exit_rest2 m c)
    rw [← Pipeline.unscopedBufs_held (Ix := Unit) (Name := ℕ) (U := UR sig nD τ) (Lvl := ℕ) c (W9 m c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.Record3.lean ====
import proofs.«403625_j20873541059099_2_alg».proof.Proof.Chain
import Idealize.ShloMosaic.Lib.Pipeline.RegionsLoop

/-! The mean pass as a segment of @main: entered from every unscoped buffer held at the contents the items before it
    left, left with them held at the same contents but for the pass's result table, which holds what the pipeline
    library computes; the core's debt (nothing) rides beside. -/

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

/-- The pass does not write its three operand tables. -/
theorem W11_first (c : Dev nD) : W11 m c main_v6 = W10 m c main_v6 := W11_of m c main_v6 (by decide)
theorem W11_second (c : Dev nD) : W11 m c main_v11 = W10 m c main_v11 := W11_of m c main_v11 (by decide)
theorem W11_third (c : Dev nD) : W11 m c main_v16 = W10 m c main_v16 := W11_of m c main_v16 (by decide)

/-- After the pass the four tables hold what the library computes — the operands what they held, the result the
    written-back blocks —, for any contents `V` the pass is entered from and any `V'` that agrees with `V` on the operands
    and holds the computed result. -/
theorem exit_arrays_of3 (V V' : (c : Dev nD) → (b : Ref sig .tc) → Buf (Elt F) ((c : Thread nD τ).loc b)) (c : Dev nD)
    (h0 : V' c main_v6 = V c main_v6) (h1 : V' c main_v11 = V c main_v11) (h2 : V' c main_v16 = V c main_v16)
    (h3 : V' c main_v17 = (dat3 V c).arrAt (3 : Fin 4) cfg3.N) :
    ∀ w : Fin 4, (dat3 V c).arrAt w cfg3.N = V' c (Pipeline.arrRef spec3 w)
  | ⟨0, _⟩ => ((dat3 V c).arrAt_in (0 : Fin 4) rfl _).trans h0.symm
  | ⟨1, _⟩ => ((dat3 V c).arrAt_in (1 : Fin 4) rfl _).trans h1.symm
  | ⟨2, _⟩ => ((dat3 V c).arrAt_in (2 : Fin 4) rfl _).trans h2.symm
  | ⟨3, _⟩ => h3.symm
theorem exit_arrays3 (c : Dev nD) (w : Fin 4) :
    (dat3 (atRefs (W10 m)) c).arrAt w cfg3.N = atRefs (W11 m) c (Pipeline.arrRef spec3 w) :=
  exit_arrays_of3 (atRefs (W10 m)) (atRefs (W11 m)) c (W11_first m c) (W11_second m c) (W11_third m c) (W11_at m c) w
/-- Every other buffer is as the pass found it. -/
theorem exit_rest3 (c : Dev nD) (b : Ref sig .tc) (hb : b ∉ Finset.univ.image (Pipeline.arrRef spec3)) :
    atRefs (W11 m) c b = atRefs (W10 m) c b :=
  W11_of m c b fun h => hb (by
    rw [List.mem_singleton] at h; subst h; exact Finset.mem_image.mpr ⟨3, Finset.mem_univ _, rfl⟩)

-- applying a library lemma stated at a pinned configuration unifies only when unification may unfold plain
-- definitions in a metavariable's type
set_option backward.isDefEq.respectTransparency.types false in
/-- The mean pass as a region segment. -/
def reg3 (hrun : MeanRun3 (F := F)) (hcut : PayCut3 (F := F)) :
    Pipeline.RegionSeg (pcfgs (F := F)) adm (pdatsK m) () defs₀ Variants.none (fun _ => (∅ : Finset Unit)) (fun _ _ => (0 : ℕ)) (3 : Fin 4) where
  win := launch3.win.to₀
  block_pos := launch3.block_pos
  stage_whole := launch3.stage_whole
  K := PEmpty
  osem k := k.elim
  ho := Pipeline.OwnSemFacts.none _
  hbody c := (body_obligation3 (atRefs (W10 m)) hrun hcut c)
  hwaits := Pipeline.hwaits_of_owed_zero _ _ _ _ _ _ (3 : Fin 4) fun _ _ => rfl
  pre c := iprop(StableHlo.held (c : Thread nD τ) (Pipeline.ucRefs τ sig) (W10 m c) ∗ ∃ W, owes (c : Thread nD τ) (0 : CellTallies nD τ sig Unit) W)
  post c := iprop(StableHlo.held (c : Thread nD τ) (Pipeline.ucRefs τ sig) (W11 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec3 c (atRefs (W10 m) c)
  hentry c := by
    rw [Pipeline.ownSems0_none, ← Pipeline.unscopedBufs_held (Ix := Unit) (Name := ℕ) (U := UR sig nD τ) (Lvl := ℕ) c (W10 m c)]
    have hsplit := Pipeline.arrays_of_unscopedBufs (p := (3 : Fin 4)) (pcfgs (F := F)) adm (pdatsK m) launch3.win launch3.arr_whole c
      ((pdatsK m (3 : Fin 4) c).share_full fun _ => rfl) (atRefs (W10 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdatsK m (3 : Fin 4) c).Φ 0 = Pipeline.scopedRest (Ix := Unit) (Name := ℕ) (U := UR sig nD τ) (Lvl := ℕ) (Val := Elt F) spec3 c from rfl]
    iintro ⟨-, -, Hr⟩; iexact Hr
  hout c := by
    rw [Pipeline.ownSems0_none, show (pdatsK m (3 : Fin 4) c).Φ (Fin.last _) = Pipeline.scopedRest (Ix := Unit) (Name := ℕ) (U := UR sig nD τ) (Lvl := ℕ) (Val := Elt F) spec3 c from rfl]
    iintro Hr
    isplitr; · iempintro
    isplitr; · iempintro
    iexact Hr
  hexit c := by
    have hjoin := Pipeline.unscopedBufs_of_arrays (p := (3 : Fin 4)) (pcfgs (F := F)) adm (Ix := Unit) (Name := ℕ) (U := UR sig nD τ) (Lvl := ℕ)
      launch3.win launch3.arr_whole c (pdatsK m) ((pdatsK m (3 : Fin 4) c).share_full fun _ => rfl)
      (atRefs (W10 m) c) (atRefs (W11 m) c) ((pdatsK m (3 : Fin 4) c).arrAt · cfg3.N)
      (exit_arrays3 m c) (exit_rest3 m c)
    rw [← Pipeline.unscopedBufs_held (Ix := Unit) (Name := ℕ) (U := UR sig nD τ) (Lvl := ℕ) c (W11 m c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Hand

end
-- ==== Proof.BodyRuns.lean ====
/-
  The two kernel bodies of the graph-propagation program, each as a triple over ARBITRARY whole staging memrefs.

  The scale body (three printed copies, one per propagation layer) loads the gathered block `x` (8192 × 64) and the
  edge weights `v` (8192 × 1), broadcasts `v` along the columns, multiplies lane-wise, loads the result's buffer (a
  dead load: its value is not used) and stores the product over the whole of it. The mean body loads three blocks,
  adds them, multiplies by the named constant and stores the product over the whole of the result's buffer.

  Every access is through the rectangle of the memref's own sizes at zero offsets. Through ANY view such a load
  reads exactly what the view reads (`readAt_unit_zero_view`), and such an unmasked store leaves contents that read
  back as the payload (`read_write_unit_zero_view`); so a memref owned at `X` (some contents that read `X`, held on
  the view's own elements) is, after the body, owned at the payload function of the loaded values, the inputs owned
  as before. Nothing here depends on which buffer a memref is, nor on the float instance.
-/
import proofs.«403625_j20873541059099_2_alg».proof.Proof.Gen.KernelIdeal.Skeleton
import proofs.«403625_j20873541059099_2_alg».proof.Proof.Gen.KernelIdeal.Launch
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {U : Type} [URA U] {Lvl : Type} [Preorder Lvl]

local notation "𝕄" => MT nD τ sig Ix (Elt F) ℕ U Lvl

/-! ## Whole-shape accesses through an arbitrary view -/

section View

variable {sig' : RefSig} {κ : Kind} {sp : Space} {s : Shape} {e : EltTy} {Val : EltTy → Type}

/-- A load through the rectangle of the view's own sizes at zero offsets (however the zeros are spelt) reads what
    the view reads: the rectangle places each index at itself. -/
theorem readAt_unit_zero_view (v : View sig' κ sp s e) {off : Fin s.rank → Nat} (h : off = fun _ => 0)
    (inb : ∀ a, off a + s.size a ≤ s.size a) (f : v.ty.Contents Val) :
    v.readAt Val (Rect.unit off s.size inb).toLoadRect f = v.read Val f := by
  subst h; funext x
  show v.read Val f ((Rect.whole s).emb x) = v.read Val f x
  rw [Rect.emb_whole_apply]

/-- An unmasked store through that rectangle leaves contents the view reads back as the payload, whatever the
    buffer held. -/
theorem read_write_unit_zero_view (v : View sig' κ sp s e) {off : Fin s.rank → Nat} (h : off = fun _ => 0)
    (inb : ∀ a, off a + s.size a ≤ s.size a) (f : v.ty.Contents Val) (w : s.Idx → Val e) :
    v.read Val ((v.slice (Rect.unit off s.size inb)).write Val f w Finset.univ) = w := by
  subst h; funext x
  have hx := View.read_slice_write_emb (v := v) (Val := Val) (Rect.whole s) f w (M := Finset.univ) (x := x)
    (Finset.mem_univ _)
  rwa [Rect.emb_whole_apply] at hx

end View

/-- The printed zero offsets of a rank-two access are the constant-zero offsets. -/
theorem zeros₂ : (![0, 0] : Fin 2 → Nat) = fun _ => 0 := funext fun a => by fin_cases a <;> rfl

/-! ## The scale bodies -/

/-- The scale body of layer 0 on whole staging memrefs `M0` (the gathered block), `M1` (the weights) and `M2` (the
    result): `M0` and `M1` are handed back as they were, `M2` holding the payload — the gathered block times the
    weights broadcast along the columns — whatever it held. -/
theorem sound_scale0 (c : Dev nD) (E : Set ℕ) (i : grid0.Coords)
    (M0 : Memref sig .tc .vmem S8192x64 .f32) (h0 : M0.IsWhole) (M1 : Memref sig .tc .vmem S8192x1 .f32) (h1 : M1.IsWhole)
    (M2 : Memref sig .tc .vmem S8192x64 .f32) (h2 : M2.IsWhole)
    (X0 : S8192x64.Idx → Elt F .f32) (X1 : S8192x1.Idx → Elt F .f32) (X2 : S8192x64.Idx → Elt F .f32) (K : PUnit → sProp 𝕄) :
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                  ∗ owns (c : Thread nD τ) M2 fullShare (k0_pay1 X0 X1)) -∗ K ⟨⟩))
      ⊢ wp frame (wpE (defs₀ (F := F)) Variants.none c none) E (cc0__scale_kernel i M0 h0 M1 h1 M2 h2) K := by
  rw [cc0__scale_kernel_eq_skeleton]; unfold cc0__scale_kernel_skel owns
  simp only [Prog.lift, Prog.bind_op, Prog.bind_ret]
  iintro ⟨⟨⟨%f0, %hf0, H0⟩, ⟨%f1, %hf1, H1⟩, ⟨%f2, %hf2, H2⟩⟩, Hk⟩
  sl_steps
  iapply Hk
  isplitl [H0]
  · iexists f0; isplitr; · ipureintro; exact hf0
    iexact H0
  isplitl [H1]
  · iexists f1; isplitr; · ipureintro; exact hf1
    iexact H1
  · iexists _; isplitr; swap; · iexact H2
    ipureintro
    -- the two loads read `X0` and `X1`; the store's contents read back as the payload
    rw [readAt_unit_zero_view M0.view zeros₂, readAt_unit_zero_view M1.view zeros₂, hf0, hf1]
    exact read_write_unit_zero_view M2.view zeros₂ _ f2 _

/-- The scale body of layer 1 on whole staging memrefs `M0` (the gathered block), `M1` (the weights) and `M2` (the
    result): `M0` and `M1` are handed back as they were, `M2` holding the payload — the gathered block times the
    weights broadcast along the columns — whatever it held. -/
theorem sound_scale1 (c : Dev nD) (E : Set ℕ) (i : grid1.Coords)
    (M0 : Memref sig .tc .vmem S8192x64 .f32) (h0 : M0.IsWhole) (M1 : Memref sig .tc .vmem S8192x1 .f32) (h1 : M1.IsWhole)
    (M2 : Memref sig .tc .vmem S8192x64 .f32) (h2 : M2.IsWhole)
    (X0 : S8192x64.Idx → Elt F .f32) (X1 : S8192x1.Idx → Elt F .f32) (X2 : S8192x64.Idx → Elt F .f32) (K : PUnit → sProp 𝕄) :
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                  ∗ owns (c : Thread nD τ) M2 fullShare (k1_pay1 X0 X1)) -∗ K ⟨⟩))
      ⊢ wp frame (wpE (defs₀ (F := F)) Variants.none c none) E (cc1__scale_kernel i M0 h0 M1 h1 M2 h2) K := by
  rw [cc1__scale_kernel_eq_skeleton]; unfold cc1__scale_kernel_skel owns
  simp only [Prog.lift, Prog.bind_op, Prog.bind_ret]
  iintro ⟨⟨⟨%f0, %hf0, H0⟩, ⟨%f1, %hf1, H1⟩, ⟨%f2, %hf2, H2⟩⟩, Hk⟩
  sl_steps
  iapply Hk
  isplitl [H0]
  · iexists f0; isplitr; · ipureintro; exact hf0
    iexact H0
  isplitl [H1]
  · iexists f1; isplitr; · ipureintro; exact hf1
    iexact H1
  · iexists _; isplitr; swap; · iexact H2
    ipureintro
    -- the two loads read `X0` and `X1`; the store's contents read back as the payload
    rw [readAt_unit_zero_view M0.view zeros₂, readAt_unit_zero_view M1.view zeros₂, hf0, hf1]
    exact read_write_unit_zero_view M2.view zeros₂ _ f2 _

/-- The scale body of layer 2 on whole staging memrefs `M0` (the gathered block), `M1` (the weights) and `M2` (the
    result): `M0` and `M1` are handed back as they were, `M2` holding the payload — the gathered block times the
    weights broadcast along the columns — whatever it held. -/
theorem sound_scale2 (c : Dev nD) (E : Set ℕ) (i : grid2.Coords)
    (M0 : Memref sig .tc .vmem S8192x64 .f32) (h0 : M0.IsWhole) (M1 : Memref sig .tc .vmem S8192x1 .f32) (h1 : M1.IsWhole)
    (M2 : Memref sig .tc .vmem S8192x64 .f32) (h2 : M2.IsWhole)
    (X0 : S8192x64.Idx → Elt F .f32) (X1 : S8192x1.Idx → Elt F .f32) (X2 : S8192x64.Idx → Elt F .f32) (K : PUnit → sProp 𝕄) :
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                  ∗ owns (c : Thread nD τ) M2 fullShare (k2_pay1 X0 X1)) -∗ K ⟨⟩))
      ⊢ wp frame (wpE (defs₀ (F := F)) Variants.none c none) E (cc2__scale_kernel i M0 h0 M1 h1 M2 h2) K := by
  rw [cc2__scale_kernel_eq_skeleton]; unfold cc2__scale_kernel_skel owns
  simp only [Prog.lift, Prog.bind_op, Prog.bind_ret]
  iintro ⟨⟨⟨%f0, %hf0, H0⟩, ⟨%f1, %hf1, H1⟩, ⟨%f2, %hf2, H2⟩⟩, Hk⟩
  sl_steps
  iapply Hk
  isplitl [H0]
  · iexists f0; isplitr; · ipureintro; exact hf0
    iexact H0
  isplitl [H1]
  · iexists f1; isplitr; · ipureintro; exact hf1
    iexact H1
  · iexists _; isplitr; swap; · iexact H2
    ipureintro
    -- the two loads read `X0` and `X1`; the store's contents read back as the payload
    rw [readAt_unit_zero_view M0.view zeros₂, readAt_unit_zero_view M1.view zeros₂, hf0, hf1]
    exact read_write_unit_zero_view M2.view zeros₂ _ f2 _

/-! ## The mean body -/

/-- The mean body on whole staging memrefs `M0`, `M1`, `M2` (the three layers' blocks) and `M3` (the result): the three
    are handed back as they were, `M3` holding the payload — their sum times the named constant — whatever it held. -/
theorem sound_mean3 (c : Dev nD) (E : Set ℕ) (i : grid3.Coords)
    (M0 : Memref sig .tc .vmem S8192x64 .f32) (h0 : M0.IsWhole) (M1 : Memref sig .tc .vmem S8192x64 .f32) (h1 : M1.IsWhole)
    (M2 : Memref sig .tc .vmem S8192x64 .f32) (h2 : M2.IsWhole) (M3 : Memref sig .tc .vmem S8192x64 .f32) (h3 : M3.IsWhole)
    (X0 X1 X2 X3 : S8192x64.Idx → Elt F .f32) (K : PUnit → sProp 𝕄) :
    iprop((owns (c : Thread nD τ) M0 fullShare X0 ∗ owns (c : Thread nD τ) M1 fullShare X1 ∗ owns (c : Thread nD τ) M2 fullShare X2
            ∗ owns (c : Thread nD τ) M3 fullShare X3)
          ∗ (iprop(owns (c : Thread nD τ) M0 fullShare X0 ∗ owns (c : Thread nD τ) M1 fullShare X1
                  ∗ owns (c : Thread nD τ) M2 fullShare X2 ∗ owns (c : Thread nD τ) M3 fullShare (k3_pay1 X0 X1 X2)) -∗ K ⟨⟩))
      ⊢ wp frame (wpE (defs₀ (F := F)) Variants.none c none) E (cc3__mean_kernel i M0 h0 M1 h1 M2 h2 M3 h3) K := by
  rw [cc3__mean_kernel_eq_skeleton]; unfold cc3__mean_kernel_skel owns
  simp only [Prog.lift, Prog.bind_op, Prog.bind_ret]
  iintro ⟨⟨⟨%f0, %hf0, H0⟩, ⟨%f1, %hf1, H1⟩, ⟨%f2, %hf2, H2⟩, ⟨%f3, %hf3, H3⟩⟩, Hk⟩
  sl_steps
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  · iexists _; isplitr; swap; · iexact H3
    ipureintro
    -- the three loads read `X0`, `X1` and `X2`; the store's contents read back as the payload
    rw [readAt_unit_zero_view M0.view zeros₂, readAt_unit_zero_view M1.view zeros₂, readAt_unit_zero_view M2.view zeros₂,
      hf0, hf1, hf2]
    exact read_write_unit_zero_view M3.view zeros₂ _ f3 _

end Cert.KernelIdeal.Hand
-- ==== Proof.LibFill.lean ====
/-
  A staging block filled by a transfer that may be cut at the array's end: where the transfer moves an index, the
  block holds what was fetched, whatever the rest of the block was filled with. Stated once for any window of any
  grid, so that every pass over a table whose last block overhangs it cites the same fact.
-/
import Idealize.ShloMosaic.Lib.Pipeline

noncomputable section

namespace Cert.Fill

open Idealize.ShloMosaic
open Idealize.ShloMosaic.Pipeline (Window)

/-- Where the transfer at `i` moves the block's index `j`, two fills of the same fetched part `g` agree at `j`, whatever
    contents `d`, `d'` they fill the rest of the block with. -/
theorem fill_eq_of_moved {sig : RefSig} {G : Pipeline.Grid} (w : Window sig G) {α : Type} (i : G.Coords)
    (d d' : w.block.Idx → α) (g : (w.xblock i).Idx → α) {j : w.block.Idx} (h : w.moved i j = true) :
    w.fill i d g j = w.fill i d' g j := by
  unfold Window.fill; rw [dif_pos h, dif_pos h]

end Cert.Fill

end
-- ==== Proof.LibColumn.lean ====
/-
  A vector kept as a column and spread along its rows: the two layout steps a row statistic (a row's maximum,
  a row's sum) goes through before it meets the `[a, b]` array it was taken from. A length-`a` vector cast to
  `[a, 1]` reads, at `(p, 0)`, entry `p`; an `[a, 1]` column broadcast to `[a, b]` reads, at `(p, s)`, the
  column's entry `(p, 0)`, whatever `s` is.
-/
import Idealize.ShloMosaic.Lib.Pipeline.Value
import Idealize.ShloMosaic.Lib.ValueIdx

noncomputable section

namespace Cert.Attn.Column

open Idealize.ShloMosaic Idealize.ShloMosaic.ValueIdx

variable {α : Type}

/-- A length-`a` vector cast to an `[a, 1]` column reads, at `(p, u)`, the vector at `p`: both sit at row-major
    position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, s)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.PayCut0.lean ====
/-
  Edge-scale pass 0: the body's payload at an index, and its independence, on the rows inside the table, of what fills
  the operands' staging buffers past the table's end.

  The payload at row `p`, lane `q` of a block is the gathered block's element there times the weight of row `p`
  (`k0_pay1_apply`). The three windows share one index map and one block height (8192 rows of a 2400000-row table: 292
  whole blocks and a last one of 7936 rows), so a row the result's transfer moves is moved by the operands' transfers
  too, and there a filled block holds what was fetched (`payCut0`).
-/
import proofs.«403625_j20873541059099_2_alg».proof.Proof.Region0
import proofs.«403625_j20873541059099_2_alg».proof.Proof.LibFill
import proofs.«403625_j20873541059099_2_alg».proof.Proof.LibColumn
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.TcCoe
open Idealize.ShloMosaic.ValueIdx
open Idealize.ShloMosaic.Pipeline (Dat Cfg Window)

variable {F : FTy → Type} [FloatOps F] [Named F]

/-! ## The body's value at an index -/

/-- The scaled block at row `p`, lane `q`: the gathered block's element there times the weight of row `p`. The two
    shape casts are to the operands' own shapes; the weights' column is spread along the lanes. -/
theorem k0_pay1_apply (X0 : Vec F S8192x64 .f32) (X1 : Vec F S8192x1 .f32) (p : Fin 8192) (q : Fin 64) :
    k0_pay1 X0 X1 (ix2 p q) = FloatOps.mulf (X0 (ix2 p q)) (X1 (ix2 p (0 : Fin 1))) := by
  unfold k0_pay1
  show FloatOps.mulf (shapeCast S8192x64 X0 shapeCasts_S8192x64_S8192x64 (ix2 p q))
      (broadcastTo S8192x64 (shapeCast S8192x1 X1 shapeCasts_S8192x1_S8192x1) broadcasts_S8192x1_S8192x64 (ix2 p q)) = _
  rw [shapeCast_self, shapeCast_self]
  exact congrArg _ (Cert.Attn.Column.broadcastTo_a1_ab_apply (a := 8192) (b := 64) X1 broadcasts_S8192x1_S8192x64 p q)

/-- The same at any index of the block. -/
theorem k0_pay1_apply' (X0 : Vec F S8192x64 .f32) (X1 : Vec F S8192x1 .f32) (y : S8192x64.Idx) :
    k0_pay1 X0 X1 y = FloatOps.mulf (X0 y) (X1 (ix2 (y 0) (0 : Fin 1))) := by
  obtain ⟨p, q, rfl⟩ : ∃ (p : Fin 8192) (q : Fin 64), y = ix2 p q := ⟨y 0, y 1, eq_ix2 y⟩
  exact k0_pay1_apply X0 X1 p q

/-! ## The rows inside the table -/

/-- On the rows inside the table the scaled block does not see what fills its operands past the table's end: the three
    windows have one index map and one block height, so a row the result's transfer moves is moved by the gathered
    rows' transfer too, and (with lane 0, the weights' only lane) by the weights'. -/
theorem payCut0 : PayCut0 (F := F) := by
  intro i d0 d0' d1 d1' B0 B1
  have hy : ∀ y : S8192x64.Idx, (y 0).val < win0_2.xsize i 0 → (y 1).val < win0_2.xsize i 1 →
      k0_pay1 (win0_0.fill i d0 B0) (win0_1.fill i d1 B1) y = k0_pay1 (win0_0.fill i d0' B0) (win0_1.fill i d1' B1) y := by
    intro y h0 h1
    obtain ⟨p, q, rfl⟩ : ∃ (p : Fin 8192) (q : Fin 64), y = ix2 p q := ⟨y 0, y 1, eq_ix2 y⟩
    rw [k0_pay1_apply, k0_pay1_apply]
    have hm0 : win0_0.moved i (ix2 p q) = true := by
      rw [Window.moved_iff]
      intro a
      match a with
      | ⟨0, _⟩ => exact h0
      | ⟨1, _⟩ => exact h1
    have hm1 : win0_1.moved i (ix2 p (0 : Fin 1)) = true := by
      rw [Window.moved_iff]
      intro a
      match a with
      | ⟨0, _⟩ => exact h0
      | ⟨1, _⟩ => exact Pipeline.Clip.extent_pos (win0_1.hclip i 1) Nat.one_pos
    rw [Cert.Fill.fill_eq_of_moved win0_0 i d0 d0' B0 hm0, Cert.Fill.fill_eq_of_moved win0_1 i d1 d1' B1 hm1]
  funext j
  exact hy (win0_2.xinj i j) (j 0).isLt (j 1).isLt

end Cert.KernelIdeal.Hand

end
-- ==== Proof.PayCut1.lean ====
/-
  Edge-scale pass 1: the body's payload at an index, and its independence, on the rows inside the table, of what fills
  the operands' staging buffers past the table's end.

  The payload at row `p`, lane `q` of a block is the gathered block's element there times the weight of row `p`
  (`k1_pay1_apply`). The three windows share one index map and one block height (8192 rows of a 2400000-row table: 292
  whole blocks and a last one of 7936 rows), so a row the result's transfer moves is moved by the operands' transfers
  too, and there a filled block holds what was fetched (`payCut1`).
-/
import proofs.«403625_j20873541059099_2_alg».proof.Proof.Region1
import proofs.«403625_j20873541059099_2_alg».proof.Proof.LibFill
import proofs.«403625_j20873541059099_2_alg».proof.Proof.LibColumn
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.TcCoe
open Idealize.ShloMosaic.ValueIdx
open Idealize.ShloMosaic.Pipeline (Dat Cfg Window)

variable {F : FTy → Type} [FloatOps F] [Named F]

/-! ## The body's value at an index -/

/-- The scaled block at row `p`, lane `q`: the gathered block's element there times the weight of row `p`. The two
    shape casts are to the operands' own shapes; the weights' column is spread along the lanes. -/
theorem k1_pay1_apply (X0 : Vec F S8192x64 .f32) (X1 : Vec F S8192x1 .f32) (p : Fin 8192) (q : Fin 64) :
    k1_pay1 X0 X1 (ix2 p q) = FloatOps.mulf (X0 (ix2 p q)) (X1 (ix2 p (0 : Fin 1))) := by
  unfold k1_pay1
  show FloatOps.mulf (shapeCast S8192x64 X0 shapeCasts_S8192x64_S8192x64 (ix2 p q))
      (broadcastTo S8192x64 (shapeCast S8192x1 X1 shapeCasts_S8192x1_S8192x1) broadcasts_S8192x1_S8192x64 (ix2 p q)) = _
  rw [shapeCast_self, shapeCast_self]
  exact congrArg _ (Cert.Attn.Column.broadcastTo_a1_ab_apply (a := 8192) (b := 64) X1 broadcasts_S8192x1_S8192x64 p q)

/-- The same at any index of the block. -/
theorem k1_pay1_apply' (X0 : Vec F S8192x64 .f32) (X1 : Vec F S8192x1 .f32) (y : S8192x64.Idx) :
    k1_pay1 X0 X1 y = FloatOps.mulf (X0 y) (X1 (ix2 (y 0) (0 : Fin 1))) := by
  obtain ⟨p, q, rfl⟩ : ∃ (p : Fin 8192) (q : Fin 64), y = ix2 p q := ⟨y 0, y 1, eq_ix2 y⟩
  exact k1_pay1_apply X0 X1 p q

/-! ## The rows inside the table -/

/-- On the rows inside the table the scaled block does not see what fills its operands past the table's end: the three
    windows have one index map and one block height, so a row the result's transfer moves is moved by the gathered
    rows' transfer too, and (with lane 0, the weights' only lane) by the weights'. -/
theorem payCut1 : PayCut1 (F := F) := by
  intro i d0 d0' d1 d1' B0 B1
  have hy : ∀ y : S8192x64.Idx, (y 0).val < win1_2.xsize i 0 → (y 1).val < win1_2.xsize i 1 →
      k1_pay1 (win1_0.fill i d0 B0) (win1_1.fill i d1 B1) y = k1_pay1 (win1_0.fill i d0' B0) (win1_1.fill i d1' B1) y := by
    intro y h0 h1
    obtain ⟨p, q, rfl⟩ : ∃ (p : Fin 8192) (q : Fin 64), y = ix2 p q := ⟨y 0, y 1, eq_ix2 y⟩
    rw [k1_pay1_apply, k1_pay1_apply]
    have hm0 : win1_0.moved i (ix2 p q) = true := by
      rw [Window.moved_iff]
      intro a
      match a with
      | ⟨0, _⟩ => exact h0
      | ⟨1, _⟩ => exact h1
    have hm1 : win1_1.moved i (ix2 p (0 : Fin 1)) = true := by
      rw [Window.moved_iff]
      intro a
      match a with
      | ⟨0, _⟩ => exact h0
      | ⟨1, _⟩ => exact Pipeline.Clip.extent_pos (win1_1.hclip i 1) Nat.one_pos
    rw [Cert.Fill.fill_eq_of_moved win1_0 i d0 d0' B0 hm0, Cert.Fill.fill_eq_of_moved win1_1 i d1 d1' B1 hm1]
  funext j
  exact hy (win1_2.xinj i j) (j 0).isLt (j 1).isLt

end Cert.KernelIdeal.Hand

end
-- ==== Proof.PayCut2.lean ====
/-
  Edge-scale pass 2: the body's payload at an index, and its independence, on the rows inside the table, of what fills
  the operands' staging buffers past the table's end.

  The payload at row `p`, lane `q` of a block is the gathered block's element there times the weight of row `p`
  (`k2_pay1_apply`). The three windows share one index map and one block height (8192 rows of a 2400000-row table: 292
  whole blocks and a last one of 7936 rows), so a row the result's transfer moves is moved by the operands' transfers
  too, and there a filled block holds what was fetched (`payCut2`).
-/
import proofs.«403625_j20873541059099_2_alg».proof.Proof.Region2
import proofs.«403625_j20873541059099_2_alg».proof.Proof.LibFill
import proofs.«403625_j20873541059099_2_alg».proof.Proof.LibColumn
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.TcCoe
open Idealize.ShloMosaic.ValueIdx
open Idealize.ShloMosaic.Pipeline (Dat Cfg Window)

variable {F : FTy → Type} [FloatOps F] [Named F]

/-! ## The body's value at an index -/

/-- The scaled block at row `p`, lane `q`: the gathered block's element there times the weight of row `p`. The two
    shape casts are to the operands' own shapes; the weights' column is spread along the lanes. -/
theorem k2_pay1_apply (X0 : Vec F S8192x64 .f32) (X1 : Vec F S8192x1 .f32) (p : Fin 8192) (q : Fin 64) :
    k2_pay1 X0 X1 (ix2 p q) = FloatOps.mulf (X0 (ix2 p q)) (X1 (ix2 p (0 : Fin 1))) := by
  unfold k2_pay1
  show FloatOps.mulf (shapeCast S8192x64 X0 shapeCasts_S8192x64_S8192x64 (ix2 p q))
      (broadcastTo S8192x64 (shapeCast S8192x1 X1 shapeCasts_S8192x1_S8192x1) broadcasts_S8192x1_S8192x64 (ix2 p q)) = _
  rw [shapeCast_self, shapeCast_self]
  exact congrArg _ (Cert.Attn.Column.broadcastTo_a1_ab_apply (a := 8192) (b := 64) X1 broadcasts_S8192x1_S8192x64 p q)

/-- The same at any index of the block. -/
theorem k2_pay1_apply' (X0 : Vec F S8192x64 .f32) (X1 : Vec F S8192x1 .f32) (y : S8192x64.Idx) :
    k2_pay1 X0 X1 y = FloatOps.mulf (X0 y) (X1 (ix2 (y 0) (0 : Fin 1))) := by
  obtain ⟨p, q, rfl⟩ : ∃ (p : Fin 8192) (q : Fin 64), y = ix2 p q := ⟨y 0, y 1, eq_ix2 y⟩
  exact k2_pay1_apply X0 X1 p q

/-! ## The rows inside the table -/

/-- On the rows inside the table the scaled block does not see what fills its operands past the table's end: the three
    windows have one index map and one block height, so a row the result's transfer moves is moved by the gathered
    rows' transfer too, and (with lane 0, the weights' only lane) by the weights'. -/
theorem payCut2 : PayCut2 (F := F) := by
  intro i d0 d0' d1 d1' B0 B1
  have hy : ∀ y : S8192x64.Idx, (y 0).val < win2_2.xsize i 0 → (y 1).val < win2_2.xsize i 1 →
      k2_pay1 (win2_0.fill i d0 B0) (win2_1.fill i d1 B1) y = k2_pay1 (win2_0.fill i d0' B0) (win2_1.fill i d1' B1) y := by
    intro y h0 h1
    obtain ⟨p, q, rfl⟩ : ∃ (p : Fin 8192) (q : Fin 64), y = ix2 p q := ⟨y 0, y 1, eq_ix2 y⟩
    rw [k2_pay1_apply, k2_pay1_apply]
    have hm0 : win2_0.moved i (ix2 p q) = true := by
      rw [Window.moved_iff]
      intro a
      match a with
      | ⟨0, _⟩ => exact h0
      | ⟨1, _⟩ => exact h1
    have hm1 : win2_1.moved i (ix2 p (0 : Fin 1)) = true := by
      rw [Window.moved_iff]
      intro a
      match a with
      | ⟨0, _⟩ => exact h0
      | ⟨1, _⟩ => exact Pipeline.Clip.extent_pos (win2_1.hclip i 1) Nat.one_pos
    rw [Cert.Fill.fill_eq_of_moved win2_0 i d0 d0' B0 hm0, Cert.Fill.fill_eq_of_moved win2_1 i d1 d1' B1 hm1]
  funext j
  exact hy (win2_2.xinj i j) (j 0).isLt (j 1).isLt

end Cert.KernelIdeal.Hand

end
-- ==== Proof.PayCut3.lean ====
import proofs.«403625_j20873541059099_2_alg».proof.Proof.Region3
import Idealize.ShloMosaic.Lib.Pipeline.Value

/-! The mean body's value is pointwise in its three operands, so on the rows inside the table it reads only the rows
    inside the table of its operands. -/

noncomputable section

namespace Cert.KernelIdeal.Hand

open Cert.KernelIdeal Cert.KernelIdeal.Gen
open Idealize.ShloMosaic
open Idealize.ShloMosaic.TcCoe
open Idealize.ShloMosaic.Pipeline (Dat Cfg Window)

variable {F : FTy → Type} [FloatOps F] [Named F]

/-- The body's value at an index of the block is its value on the three operands' elements there: the three shape
    casts are to the same shape, and the sums and the product are elementwise. -/
theorem k3_pay1_pointwise (X0 X1 X2 : Vec F S8192x64 .f32) (j : S8192x64.Idx) :
    k3_pay1 X0 X1 X2 j = k3_pay1 (fun _ => X0 j) (fun _ => X1 j) (fun _ => X2 j) j := by
  unfold k3_pay1
  simp only [shapeCast_self]
  rfl

/-- Operands that agree at an index give the body's same value there. -/
theorem k3_pay1_congr (X0 X0' X1 X1' X2 X2' : Vec F S8192x64 .f32) (j : S8192x64.Idx)
    (h0 : X0 j = X0' j) (h1 : X1 j = X1' j) (h2 : X2 j = X2' j) : k3_pay1 X0 X1 X2 j = k3_pay1 X0' X1' X2' j := by
  rw [k3_pay1_pointwise X0 X1 X2 j, k3_pay1_pointwise X0' X1' X2' j, h0, h1, h2]

/-- On the rows inside the table the mean block reads only the rows inside the table of its operands: the four
    windows cut their blocks alike, and a filled block read on the filled part is the filling. -/
theorem payCut3 : PayCut3 (F := F) := by
  intro i d0 d0' d1 d1' d2 d2' B0 B1 B2
  funext j
  have h0 : ∀ d, win3_0.fill i d B0 (win3_3.xinj i j) = B0 j := fun d => win3_0.fill_xinj i d B0 j
  have h1 : ∀ d, win3_1.fill i d B1 (win3_3.xinj i j) = B1 j := fun d => win3_1.fill_xinj i d B1 j
  have h2 : ∀ d, win3_2.fill i d B2 (win3_3.xinj i j) = B2 j := fun d => win3_2.fill_xinj i d B2 j
  show k3_pay1 _ _ _ (win3_3.xinj i j) = k3_pay1 _ _ _ (win3_3.xinj i j)
  exact k3_pay1_congr _ _ _ _ _ _ _ ((h0 d0).trans (h0 d0').symm) ((h1 d1).trans (h1 d1').symm) ((h2 d2).trans (h2 d2').symm)

end Cert.KernelIdeal.Hand

end
-- ==== Proof.KFrame.lean ====
import proofs.«403625_j20873541059099_2_alg».proof.Proof.Record0
import proofs.«403625_j20873541059099_2_alg».proof.Proof.Record1
import proofs.«403625_j20873541059099_2_alg».proof.Proof.Record2
import proofs.«403625_j20873541059099_2_alg».proof.Proof.Record3
import proofs.«403625_j20873541059099_2_alg».proof.Proof.BodyRuns
import proofs.«403625_j20873541059099_2_alg».proof.Proof.PayCut0
import proofs.«403625_j20873541059099_2_alg».proof.Proof.PayCut1
import proofs.«403625_j20873541059099_2_alg».proof.Proof.PayCut2
import proofs.«403625_j20873541059099_2_alg».proof.Proof.PayCut3

/-! The frame of the whole program: @main's host stretches and its four passes chained through the generated conditional
    frame, each pass entered from the contents the items before it left and leaving what the pipeline library computes. -/

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What rides beside the buffers between items: the core owes nothing. -/
abbrev RestF (c : Dev nD) : sProp 𝕄 := iprop(∃ W, owes (c : Thread nD τ) (0 : CellTallies nD τ sig Unit) W)

set_option backward.isDefEq.respectTransparency.types false in
/-- From any memory with zero counters every weakly fair execution of @main terminates, and every final memory holds every
    argument as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_cond m (Ix := Unit) (U := UR sig nD τ) (Lvl := ℕ) emb₁ () Variants.none (fun _ => (∅ : Finset Unit)) (fun _ _ => (0 : ℕ)) (fun _ _ => rfl) ρ (outsK m) (pdatsK m)
    (fun _ => 0) (fun _ => iprop(emp)) (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (fun _ c => RestF c)
    (Pipeline.initEach _ _ fun c => by
      iintro ⟨⟨-, HO, -, -, -⟩, -⟩; imodintro; iexists ∅; iexact HO)
    (fun c => .rfl)
    (reg0 m sound_scale0 payCut0) (fun c => by rw [V2_eq]; exact .rfl) (fun c => by rw [V3_eq]; exact .rfl)
    (reg1 m sound_scale1 payCut1) (fun c => by rw [V5_eq]; exact .rfl) (fun c => by rw [V6_eq]; exact .rfl)
    (reg2 m sound_scale2 payCut2) (fun c => by rw [V8_eq]; exact .rfl) (fun c => by rw [V9_eq]; exact .rfl)
    (reg3 m sound_mean3 payCut3) (fun c => by rw [V10_eq]; exact .rfl) (fun c => by rw [V11_eq]; exact .rfl)

end Cert.KernelIdeal.Hand

end
-- ==== Proof.WRegion0.lean ====
import proofs.«403625_j20873541059099_2_alg».proof.Proof.Gen.Kernel.Launch
import proofs.«403625_j20873541059099_2_alg».proof.Proof.Gen.Kernel.Points
import proofs.«403625_j20873541059099_2_alg».proof.Proof.Gen.Kernel.Skeleton
import Idealize.ShloMosaic.Lib.Pipeline.Regions
import Idealize.ShloMosaic.Lib.Pipeline.Kit
import Idealize.ShloMosaic.Lib.Tactic

/-! Edge-scale pass 0 as a pipeline: what its staging buffers hold after the body at each grid point, and the body's
    obligation. The edge table has 2400000 rows and the blocks 8192, so the last of the 293 blocks overhangs the table
    by 256 rows; every window is stated only on the rows inside the table. -/

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents the region is entered from, per core
variable (V : (c : Dev nD) → (b : Ref sig .tc) → Buf (Elt F) ((c : Thread nD τ).loc b))

/-- The gathered rows' block at point `t`: its rows inside the table, the zero word past the table's end. -/
def gblk0 (c : Dev nD) (t : Fin cfg0.N) : S8192x64.Idx → Elt F .f32 :=
  win0_0.fill (grid0.coords t) (fun _ => Scalar.ofBits .f32 0#32) ((win0_0.blk t).view.read (Elt F) (V c main_v2))
/-- The weights' block at point `t`, likewise. -/
def vblk0 (c : Dev nD) (t : Fin cfg0.N) : S8192x1.Idx → Elt F .f32 :=
  win0_1.fill (grid0.coords t) (fun _ => Scalar.ofBits .f32 0#32) ((win0_1.blk t).view.read (Elt F) (V c main_v1))
/-- The scaled block: the body's value of the two. -/
def oblk0 (c : Dev nD) (t : Fin cfg0.N) : S8192x64.Idx → Elt F .f32 := k0_pay1 (gblk0 V c t) (vblk0 V c t)

/-- The proof data of the pass on core `c`: the three arrays as the region finds them; after the body the blocks above;
    between points only the scoped buffers the pipeline does not stage; nothing owed; full shares. -/
def dat0 (c : Dev nD) : Dat τ (Elt F) Unit ℕ (UR sig nD τ) ℕ cfg0 c where
  A w := V c (Pipeline.arrRef spec0 w)
  after w t := match w with
    | ⟨0, _⟩ => gblk0 V c t
    | ⟨1, _⟩ => vblk0 V c t
    | ⟨2, _⟩ => oblk0 V c t
  Φ _ := Pipeline.scopedRest (Ix := Unit) (Name := ℕ) (U := UR sig nD τ) (Lvl := ℕ) (Val := Elt F) spec0 c
  q _ := fullShare
  owed _ := 0

theorem before0_0 (c : Dev nD) (t : Fin cfg0.N) (d) :
    (dat0 V c).before (0 : Fin 3) t d = win0_0.fill (grid0.coords t) d ((win0_0.blk t).view.read (Elt F) (V c main_v2)) := by
  unfold Dat.before; rw [if_pos (fetch0_0 t)]; rfl
theorem before0_1 (c : Dev nD) (t : Fin cfg0.N) (d) :
    (dat0 V c).before (1 : Fin 3) t d = win0_1.fill (grid0.coords t) d ((win0_1.blk t).view.read (Elt F) (V c main_v1)) := by
  unfold Dat.before; rw [if_pos (fetch0_1 t)]; rfl
theorem nofetch0_2 (t : Fin cfg0.N) : (cfg0.win (2 : Fin 3)).fetch t = false := rfl
theorem before0_2 (c : Dev nD) (t : Fin cfg0.N) (d) : (dat0 V c).before (2 : Fin 3) t d = d := by
  unfold Dat.before
  rw [if_neg (by rw [nofetch0_2 t]; exact Bool.false_ne_true)]
  by_cases h : t.val = 0
  · rw [if_pos h]
  · rw [if_neg h]; exact if_pos (flush0_2 _)

/-- The body's run, over any three whole staging memrefs: the scaled block lands in the third, the other two keep
    their contents. -/
def ScaleRun0 : Prop := ∀ (c : Dev nD) (E : Set ℕ) (i : grid0.Coords)
    (M0 : Memref sig .tc .vmem S8192x64 .f32) (h0 : M0.IsWhole) (M1 : Memref sig .tc .vmem S8192x1 .f32) (h1 : M1.IsWhole)
    (M2 : Memref sig .tc .vmem S8192x64 .f32) (h2 : M2.IsWhole)
    (X0 : S8192x64.Idx → Elt F .f32) (X1 : S8192x1.Idx → Elt F .f32) (X2 : S8192x64.Idx → Elt F .f32) (K : PUnit → sProp 𝕄),
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                ∗ owns (c : Thread nD τ) M2 fullShare (k0_pay1 X0 X1)) -∗ K ⟨⟩))
      ⊢ wp frame (wpE (defs₀ (F := F)) Variants.none c none) E (cc0__scale_kernel i M0 h0 M1 h1 M2 h2) K

/-- On the rows inside the table the scaled block depends only on the rows inside the table of its two operands. -/
def PayCut0 : Prop := ∀ (i : grid0.Coords) (d0 d0' : S8192x64.Idx → Elt F .f32) (d1 d1' : S8192x1.Idx → Elt F .f32)
    (B0 : (win0_0.xblock i).Idx → Elt F .f32) (B1 : (win0_1.xblock i).Idx → Elt F .f32),
    win0_2.cut i (k0_pay1 (win0_0.fill i d0 B0) (win0_1.fill i d1 B1))
      = win0_2.cut i (k0_pay1 (win0_0.fill i d0' B0) (win0_1.fill i d1' B1))

/-- The library's body obligation at every point: the three staging buffers handed to the body, its run, and each buffer
    handed back stated on the rows inside the table. -/
theorem body_obligation0 (hrun : ScaleRun0 (F := F)) (hcut : PayCut0 (F := F)) (c : Dev nD) :
    BodyObligationLoose (dat0 V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1, before0_2 V c t d2]
  iapply (hrun c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 ((win0_0.blk t).view.read (Elt F) (V c main_v2)))
    (win0_1.fill (grid0.coords t) d1 ((win0_1.blk t).view.read (Elt F) (V c main_v1))) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t) (gblk0 V c t) = (win0_0.blk t).view.read (Elt F) (V c main_v2) := win0_0.cut_fill _ _ _
  have hy : win0_1.cut (grid0.coords t) (vblk0 V c t) = (win0_1.blk t).view.read (Elt F) (V c main_v1) := win0_1.cut_fill _ _ _
  isplitl [H0]
  · iexists d0
    change _ ⊢ owns (c : Thread nD τ) (stage0_0 (cfg0.slots t 0)) fullShare (win0_0.fill (grid0.coords t) d0 (win0_0.cut (grid0.coords t) (gblk0 V c t)))
    rw [hx]; try iexact H0
  isplitl [H1]
  · iexists d1
    change _ ⊢ owns (c : Thread nD τ) (stage0_1 (cfg0.slots t 1)) fullShare (win0_1.fill (grid0.coords t) d1 (win0_1.cut (grid0.coords t) (vblk0 V c t)))
    rw [hy]; try iexact H1
  · iexists (k0_pay1 (win0_0.fill (grid0.coords t) d0 ((win0_0.blk t).view.read (Elt F) (V c main_v2)))
      (win0_1.fill (grid0.coords t) d1 ((win0_1.blk t).view.read (Elt F) (V c main_v1))))
    have hc := hcut (grid0.coords t) d0 (fun _ => Scalar.ofBits .f32 0#32) d1 (fun _ => Scalar.ofBits .f32 0#32)
      ((win0_0.blk t).view.read (Elt F) (V c main_v2)) ((win0_1.blk t).view.read (Elt F) (V c main_v1))
    change _ ⊢ owns (c : Thread nD τ) (stage0_2 (cfg0.slots t 2)) fullShare (win0_2.fill (grid0.coords t) _ (win0_2.cut (grid0.coords t) (oblk0 V c t)))
    unfold oblk0 gblk0 vblk0
    have e := win0_2.fill_congr_cut (α := Elt F .f32) (grid0.coords t) hc
    first | rw [e] | erw [e]
    try iexact H2

end Cert.Kernel.Hand

end
-- ==== Proof.WRegion1.lean ====
import proofs.«403625_j20873541059099_2_alg».proof.Proof.Gen.Kernel.Launch
import proofs.«403625_j20873541059099_2_alg».proof.Proof.Gen.Kernel.Points
import proofs.«403625_j20873541059099_2_alg».proof.Proof.Gen.Kernel.Skeleton
import Idealize.ShloMosaic.Lib.Pipeline.Regions
import Idealize.ShloMosaic.Lib.Pipeline.Kit
import Idealize.ShloMosaic.Lib.Tactic

/-! Edge-scale pass 1 as a pipeline: what its staging buffers hold after the body at each grid point, and the body's
    obligation. The edge table has 2400000 rows and the blocks 8192, so the last of the 293 blocks overhangs the table
    by 256 rows; every window is stated only on the rows inside the table. -/

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents the region is entered from, per core
variable (V : (c : Dev nD) → (b : Ref sig .tc) → Buf (Elt F) ((c : Thread nD τ).loc b))

/-- The gathered rows' block at point `t`: its rows inside the table, the zero word past the table's end. -/
def gblk1 (c : Dev nD) (t : Fin cfg1.N) : S8192x64.Idx → Elt F .f32 :=
  win1_0.fill (grid1.coords t) (fun _ => Scalar.ofBits .f32 0#32) ((win1_0.blk t).view.read (Elt F) (V c main_v7))
/-- The weights' block at point `t`, likewise. -/
def vblk1 (c : Dev nD) (t : Fin cfg1.N) : S8192x1.Idx → Elt F .f32 :=
  win1_1.fill (grid1.coords t) (fun _ => Scalar.ofBits .f32 0#32) ((win1_1.blk t).view.read (Elt F) (V c main_v1))
/-- The scaled block: the body's value of the two. -/
def oblk1 (c : Dev nD) (t : Fin cfg1.N) : S8192x64.Idx → Elt F .f32 := k1_pay1 (gblk1 V c t) (vblk1 V c t)

/-- The proof data of the pass on core `c`: the three arrays as the region finds them; after the body the blocks above;
    between points only the scoped buffers the pipeline does not stage; nothing owed; full shares. -/
def dat1 (c : Dev nD) : Dat τ (Elt F) Unit ℕ (UR sig nD τ) ℕ cfg1 c where
  A w := V c (Pipeline.arrRef spec1 w)
  after w t := match w with
    | ⟨0, _⟩ => gblk1 V c t
    | ⟨1, _⟩ => vblk1 V c t
    | ⟨2, _⟩ => oblk1 V c t
  Φ _ := Pipeline.scopedRest (Ix := Unit) (Name := ℕ) (U := UR sig nD τ) (Lvl := ℕ) (Val := Elt F) spec1 c
  q _ := fullShare
  owed _ := 0

theorem before1_0 (c : Dev nD) (t : Fin cfg1.N) (d) :
    (dat1 V c).before (0 : Fin 3) t d = win1_0.fill (grid1.coords t) d ((win1_0.blk t).view.read (Elt F) (V c main_v7)) := by
  unfold Dat.before; rw [if_pos (fetch1_0 t)]; rfl
theorem before1_1 (c : Dev nD) (t : Fin cfg1.N) (d) :
    (dat1 V c).before (1 : Fin 3) t d = win1_1.fill (grid1.coords t) d ((win1_1.blk t).view.read (Elt F) (V c main_v1)) := by
  unfold Dat.before; rw [if_pos (fetch1_1 t)]; rfl
theorem nofetch1_2 (t : Fin cfg1.N) : (cfg1.win (2 : Fin 3)).fetch t = false := rfl
theorem before1_2 (c : Dev nD) (t : Fin cfg1.N) (d) : (dat1 V c).before (2 : Fin 3) t d = d := by
  unfold Dat.before
  rw [if_neg (by rw [nofetch1_2 t]; exact Bool.false_ne_true)]
  by_cases h : t.val = 0
  · rw [if_pos h]
  · rw [if_neg h]; exact if_pos (flush1_2 _)

/-- The body's run, over any three whole staging memrefs: the scaled block lands in the third, the other two keep
    their contents. -/
def ScaleRun1 : Prop := ∀ (c : Dev nD) (E : Set ℕ) (i : grid1.Coords)
    (M0 : Memref sig .tc .vmem S8192x64 .f32) (h0 : M0.IsWhole) (M1 : Memref sig .tc .vmem S8192x1 .f32) (h1 : M1.IsWhole)
    (M2 : Memref sig .tc .vmem S8192x64 .f32) (h2 : M2.IsWhole)
    (X0 : S8192x64.Idx → Elt F .f32) (X1 : S8192x1.Idx → Elt F .f32) (X2 : S8192x64.Idx → Elt F .f32) (K : PUnit → sProp 𝕄),
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                ∗ owns (c : Thread nD τ) M2 fullShare (k1_pay1 X0 X1)) -∗ K ⟨⟩))
      ⊢ wp frame (wpE (defs₀ (F := F)) Variants.none c none) E (cc1__scale_kernel i M0 h0 M1 h1 M2 h2) K

/-- On the rows inside the table the scaled block depends only on the rows inside the table of its two operands. -/
def PayCut1 : Prop := ∀ (i : grid1.Coords) (d0 d0' : S8192x64.Idx → Elt F .f32) (d1 d1' : S8192x1.Idx → Elt F .f32)
    (B0 : (win1_0.xblock i).Idx → Elt F .f32) (B1 : (win1_1.xblock i).Idx → Elt F .f32),
    win1_2.cut i (k1_pay1 (win1_0.fill i d0 B0) (win1_1.fill i d1 B1))
      = win1_2.cut i (k1_pay1 (win1_0.fill i d0' B0) (win1_1.fill i d1' B1))

/-- The library's body obligation at every point: the three staging buffers handed to the body, its run, and each buffer
    handed back stated on the rows inside the table. -/
theorem body_obligation1 (hrun : ScaleRun1 (F := F)) (hcut : PayCut1 (F := F)) (c : Dev nD) :
    BodyObligationLoose (dat1 V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1, before1_2 V c t d2]
  iapply (hrun c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_0.fill (grid1.coords t) d0 ((win1_0.blk t).view.read (Elt F) (V c main_v7)))
    (win1_1.fill (grid1.coords t) d1 ((win1_1.blk t).view.read (Elt F) (V c main_v1))) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win1_0.cut (grid1.coords t) (gblk1 V c t) = (win1_0.blk t).view.read (Elt F) (V c main_v7) := win1_0.cut_fill _ _ _
  have hy : win1_1.cut (grid1.coords t) (vblk1 V c t) = (win1_1.blk t).view.read (Elt F) (V c main_v1) := win1_1.cut_fill _ _ _
  isplitl [H0]
  · iexists d0
    change _ ⊢ owns (c : Thread nD τ) (stage1_0 (cfg1.slots t 0)) fullShare (win1_0.fill (grid1.coords t) d0 (win1_0.cut (grid1.coords t) (gblk1 V c t)))
    rw [hx]; try iexact H0
  isplitl [H1]
  · iexists d1
    change _ ⊢ owns (c : Thread nD τ) (stage1_1 (cfg1.slots t 1)) fullShare (win1_1.fill (grid1.coords t) d1 (win1_1.cut (grid1.coords t) (vblk1 V c t)))
    rw [hy]; try iexact H1
  · iexists (k1_pay1 (win1_0.fill (grid1.coords t) d0 ((win1_0.blk t).view.read (Elt F) (V c main_v7)))
      (win1_1.fill (grid1.coords t) d1 ((win1_1.blk t).view.read (Elt F) (V c main_v1))))
    have hc := hcut (grid1.coords t) d0 (fun _ => Scalar.ofBits .f32 0#32) d1 (fun _ => Scalar.ofBits .f32 0#32)
      ((win1_0.blk t).view.read (Elt F) (V c main_v7)) ((win1_1.blk t).view.read (Elt F) (V c main_v1))
    change _ ⊢ owns (c : Thread nD τ) (stage1_2 (cfg1.slots t 2)) fullShare (win1_2.fill (grid1.coords t) _ (win1_2.cut (grid1.coords t) (oblk1 V c t)))
    unfold oblk1 gblk1 vblk1
    have e := win1_2.fill_congr_cut (α := Elt F .f32) (grid1.coords t) hc
    first | rw [e] | erw [e]
    try iexact H2

end Cert.Kernel.Hand

end
-- ==== Proof.WRegion2.lean ====
import proofs.«403625_j20873541059099_2_alg».proof.Proof.Gen.Kernel.Launch
import proofs.«403625_j20873541059099_2_alg».proof.Proof.Gen.Kernel.Points
import proofs.«403625_j20873541059099_2_alg».proof.Proof.Gen.Kernel.Skeleton
import Idealize.ShloMosaic.Lib.Pipeline.Regions
import Idealize.ShloMosaic.Lib.Pipeline.Kit
import Idealize.ShloMosaic.Lib.Tactic

/-! Edge-scale pass 2 as a pipeline: what its staging buffers hold after the body at each grid point, and the body's
    obligation. The edge table has 2400000 rows and the blocks 8192, so the last of the 293 blocks overhangs the table
    by 256 rows; every window is stated only on the rows inside the table. -/

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents the region is entered from, per core
variable (V : (c : Dev nD) → (b : Ref sig .tc) → Buf (Elt F) ((c : Thread nD τ).loc b))

/-- The gathered rows' block at point `t`: its rows inside the table, the zero word past the table's end. -/
def gblk2 (c : Dev nD) (t : Fin cfg2.N) : S8192x64.Idx → Elt F .f32 :=
  win2_0.fill (grid2.coords t) (fun _ => Scalar.ofBits .f32 0#32) ((win2_0.blk t).view.read (Elt F) (V c main_v12))
/-- The weights' block at point `t`, likewise. -/
def vblk2 (c : Dev nD) (t : Fin cfg2.N) : S8192x1.Idx → Elt F .f32 :=
  win2_1.fill (grid2.coords t) (fun _ => Scalar.ofBits .f32 0#32) ((win2_1.blk t).view.read (Elt F) (V c main_v1))
/-- The scaled block: the body's value of the two. -/
def oblk2 (c : Dev nD) (t : Fin cfg2.N) : S8192x64.Idx → Elt F .f32 := k2_pay1 (gblk2 V c t) (vblk2 V c t)

/-- The proof data of the pass on core `c`: the three arrays as the region finds them; after the body the blocks above;
    between points only the scoped buffers the pipeline does not stage; nothing owed; full shares. -/
def dat2 (c : Dev nD) : Dat τ (Elt F) Unit ℕ (UR sig nD τ) ℕ cfg2 c where
  A w := V c (Pipeline.arrRef spec2 w)
  after w t := match w with
    | ⟨0, _⟩ => gblk2 V c t
    | ⟨1, _⟩ => vblk2 V c t
    | ⟨2, _⟩ => oblk2 V c t
  Φ _ := Pipeline.scopedRest (Ix := Unit) (Name := ℕ) (U := UR sig nD τ) (Lvl := ℕ) (Val := Elt F) spec2 c
  q _ := fullShare
  owed _ := 0

theorem before2_0 (c : Dev nD) (t : Fin cfg2.N) (d) :
    (dat2 V c).before (0 : Fin 3) t d = win2_0.fill (grid2.coords t) d ((win2_0.blk t).view.read (Elt F) (V c main_v12)) := by
  unfold Dat.before; rw [if_pos (fetch2_0 t)]; rfl
theorem before2_1 (c : Dev nD) (t : Fin cfg2.N) (d) :
    (dat2 V c).before (1 : Fin 3) t d = win2_1.fill (grid2.coords t) d ((win2_1.blk t).view.read (Elt F) (V c main_v1)) := by
  unfold Dat.before; rw [if_pos (fetch2_1 t)]; rfl
theorem nofetch2_2 (t : Fin cfg2.N) : (cfg2.win (2 : Fin 3)).fetch t = false := rfl
theorem before2_2 (c : Dev nD) (t : Fin cfg2.N) (d) : (dat2 V c).before (2 : Fin 3) t d = d := by
  unfold Dat.before
  rw [if_neg (by rw [nofetch2_2 t]; exact Bool.false_ne_true)]
  by_cases h : t.val = 0
  · rw [if_pos h]
  · rw [if_neg h]; exact if_pos (flush2_2 _)

/-- The body's run, over any three whole staging memrefs: the scaled block lands in the third, the other two keep
    their contents. -/
def ScaleRun2 : Prop := ∀ (c : Dev nD) (E : Set ℕ) (i : grid2.Coords)
    (M0 : Memref sig .tc .vmem S8192x64 .f32) (h0 : M0.IsWhole) (M1 : Memref sig .tc .vmem S8192x1 .f32) (h1 : M1.IsWhole)
    (M2 : Memref sig .tc .vmem S8192x64 .f32) (h2 : M2.IsWhole)
    (X0 : S8192x64.Idx → Elt F .f32) (X1 : S8192x1.Idx → Elt F .f32) (X2 : S8192x64.Idx → Elt F .f32) (K : PUnit → sProp 𝕄),
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                ∗ owns (c : Thread nD τ) M2 fullShare (k2_pay1 X0 X1)) -∗ K ⟨⟩))
      ⊢ wp frame (wpE (defs₀ (F := F)) Variants.none c none) E (cc2__scale_kernel i M0 h0 M1 h1 M2 h2) K

/-- On the rows inside the table the scaled block depends only on the rows inside the table of its two operands. -/
def PayCut2 : Prop := ∀ (i : grid2.Coords) (d0 d0' : S8192x64.Idx → Elt F .f32) (d1 d1' : S8192x1.Idx → Elt F .f32)
    (B0 : (win2_0.xblock i).Idx → Elt F .f32) (B1 : (win2_1.xblock i).Idx → Elt F .f32),
    win2_2.cut i (k2_pay1 (win2_0.fill i d0 B0) (win2_1.fill i d1 B1))
      = win2_2.cut i (k2_pay1 (win2_0.fill i d0' B0) (win2_1.fill i d1' B1))

/-- The library's body obligation at every point: the three staging buffers handed to the body, its run, and each buffer
    handed back stated on the rows inside the table. -/
theorem body_obligation2 (hrun : ScaleRun2 (F := F)) (hcut : PayCut2 (F := F)) (c : Dev nD) :
    BodyObligationLoose (dat2 V c) (defs₀ (F := F)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  rw [before2_0 V c t d0, before2_1 V c t d1, before2_2 V c t d2]
  iapply (hrun c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_0.fill (grid2.coords t) d0 ((win2_0.blk t).view.read (Elt F) (V c main_v12)))
    (win2_1.fill (grid2.coords t) d1 ((win2_1.blk t).view.read (Elt F) (V c main_v1))) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win2_0.cut (grid2.coords t) (gblk2 V c t) = (win2_0.blk t).view.read (Elt F) (V c main_v12) := win2_0.cut_fill _ _ _
  have hy : win2_1.cut (grid2.coords t) (vblk2 V c t) = (win2_1.blk t).view.read (Elt F) (V c main_v1) := win2_1.cut_fill _ _ _
  isplitl [H0]
  · iexists d0
    change _ ⊢ owns (c : Thread nD τ) (stage2_0 (cfg2.slots t 0)) fullShare (win2_0.fill (grid2.coords t) d0 (win2_0.cut (grid2.coords t) (gblk2 V c t)))
    rw [hx]; try iexact H0
  isplitl [H1]
  · iexists d1
    change _ ⊢ owns (c : Thread nD τ) (stage2_1 (cfg2.slots t 1)) fullShare (win2_1.fill (grid2.coords t) d1 (win2_1.cut (grid2.coords t) (vblk2 V c t)))
    rw [hy]; try iexact H1
  · iexists (k2_pay1 (win2_0.fill (grid2.coords t) d0 ((win2_0.blk t).view.read (Elt F) (V c main_v12)))
      (win2_1.fill (grid2.coords t) d1 ((win2_1.blk t).view.read (Elt F) (V c main_v1))))
    have hc := hcut (grid2.coords t) d0 (fun _ => Scalar.ofBits .f32 0#32) d1 (fun _ => Scalar.ofBits .f32 0#32)
      ((win2_0.blk t).view.read (Elt F) (V c main_v12)) ((win2_1.blk t).view.read (Elt F) (V c main_v1))
    change _ ⊢ owns (c : Thread nD τ) (stage2_2 (cfg2.slots t 2)) fullShare (win2_2.fill (grid2.coords t) _ (win2_2.cut (grid2.coords t) (oblk2 V c t)))
    unfold oblk2 gblk2 vblk2
    have e := win2_2.fill_congr_cut (α := Elt F .f32) (grid2.coords t) hc
    first | rw [e] | erw [e]
    try iexact H2

end Cert.Kernel.Hand

end
-- ==== Proof.WRegion3.lean ====
import proofs.«403625_j20873541059099_2_alg».proof.Proof.Gen.Kernel.Launch
import proofs.«403625_j20873541059099_2_alg».proof.Proof.Gen.Kernel.Points
import proofs.«403625_j20873541059099_2_alg».proof.Proof.Gen.Kernel.Skeleton
import Idealize.ShloMosaic.Lib.Pipeline.Regions
import Idealize.ShloMosaic.Lib.Pipeline.Kit
import Idealize.ShloMosaic.Lib.Tactic

/-! The mean pass as a pipeline: what its staging buffers hold after the body at each grid point, and the body's
    obligation. The node table has 150000 rows and the blocks 8192, so the last of the 19 blocks overhangs the table;
    every window is stated only on the rows inside the table. -/

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents the region is entered from, per core
variable (V : (c : Dev nD) → (b : Ref sig .tc) → Buf (Elt F) ((c : Thread nD τ).loc b))

/-- The three layer outputs' blocks at point `t`: the rows inside the table, the zero word past the table's end. -/
def ablk3 (c : Dev nD) (t : Fin cfg3.N) : S8192x64.Idx → Elt F .f32 :=
  win3_0.fill (grid3.coords t) (fun _ => Scalar.ofBits .f32 0#32) ((win3_0.blk t).view.read (Elt F) (V c main_v6))
def bblk3 (c : Dev nD) (t : Fin cfg3.N) : S8192x64.Idx → Elt F .f32 :=
  win3_1.fill (grid3.coords t) (fun _ => Scalar.ofBits .f32 0#32) ((win3_1.blk t).view.read (Elt F) (V c main_v11))
def cblk3 (c : Dev nD) (t : Fin cfg3.N) : S8192x64.Idx → Elt F .f32 :=
  win3_2.fill (grid3.coords t) (fun _ => Scalar.ofBits .f32 0#32) ((win3_2.blk t).view.read (Elt F) (V c main_v16))
/-- The mean block: the body's value of the three. -/
def oblk3 (c : Dev nD) (t : Fin cfg3.N) : S8192x64.Idx → Elt F .f32 := k3_pay1 (ablk3 V c t) (bblk3 V c t) (cblk3 V c t)

/-- The proof data of the pass on core `c`: the four arrays as the region finds them; after the body the blocks above;
    between points only the scoped buffers the pipeline does not stage; nothing owed; full shares. -/
def dat3 (c : Dev nD) : Dat τ (Elt F) Unit ℕ (UR sig nD τ) ℕ cfg3 c where
  A w := V c (Pipeline.arrRef spec3 w)
  after w t := match w with
    | ⟨0, _⟩ => ablk3 V c t
    | ⟨1, _⟩ => bblk3 V c t
    | ⟨2, _⟩ => cblk3 V c t
    | ⟨3, _⟩ => oblk3 V c t
  Φ _ := Pipeline.scopedRest (Ix := Unit) (Name := ℕ) (U := UR sig nD τ) (Lvl := ℕ) (Val := Elt F) spec3 c
  q _ := fullShare
  owed _ := 0

theorem before3_0 (c : Dev nD) (t : Fin cfg3.N) (d) :
    (dat3 V c).before (0 : Fin 4) t d = win3_0.fill (grid3.coords t) d ((win3_0.blk t).view.read (Elt F) (V c main_v6)) := by
  unfold Dat.before; rw [if_pos (fetch3_0 t)]; rfl
theorem before3_1 (c : Dev nD) (t : Fin cfg3.N) (d) :
    (dat3 V c).before (1 : Fin 4) t d = win3_1.fill (grid3.coords t) d ((win3_1.blk t).view.read (Elt F) (V c main_v11)) := by
  unfold Dat.before; rw [if_pos (fetch3_1 t)]; rfl
theorem before3_2 (c : Dev nD) (t : Fin cfg3.N) (d) :
    (dat3 V c).before (2 : Fin 4) t d = win3_2.fill (grid3.coords t) d ((win3_2.blk t).view.read (Elt F) (V c main_v16)) := by
  unfold Dat.before; rw [if_pos (fetch3_2 t)]; rfl
theorem nofetch3_3 (t : Fin cfg3.N) : (cfg3.win (3 : Fin 4)).fetch t = false := rfl
theorem before3_3 (c : Dev nD) (t : Fin cfg3.N) (d) : (dat3 V c).before (3 : Fin 4) t d = d := by
  unfold Dat.before
  rw [if_neg (by rw [nofetch3_3 t]; exact Bool.false_ne_true)]
  by_cases h : t.val = 0
  · rw [if_pos h]
  · rw [if_neg h]; exact if_pos (flush3_3 _)

/-- The body's run, over any four whole staging memrefs: the mean block lands in the fourth, the other three keep
    their contents. -/
def MeanRun3 : Prop := ∀ (c : Dev nD) (E : Set ℕ) (i : grid3.Coords)
    (M0 : Memref sig .tc .vmem S8192x64 .f32) (h0 : M0.IsWhole) (M1 : Memref sig .tc .vmem S8192x64 .f32) (h1 : M1.IsWhole)
    (M2 : Memref sig .tc .vmem S8192x64 .f32) (h2 : M2.IsWhole) (M3 : Memref sig .tc .vmem S8192x64 .f32) (h3 : M3.IsWhole)
    (X0 X1 X2 X3 : S8192x64.Idx → Elt F .f32) (K : PUnit → sProp 𝕄),
    iprop((owns (c : Thread nD τ) M0 fullShare X0 ∗ owns (c : Thread nD τ) M1 fullShare X1 ∗ owns (c : Thread nD τ) M2 fullShare X2
            ∗ owns (c : Thread nD τ) M3 fullShare X3)
          ∗ (iprop(owns (c : Thread nD τ) M0 fullShare X0 ∗ owns (c : Thread nD τ) M1 fullShare X1 ∗ owns (c : Thread nD τ) M2 fullShare X2
                ∗ owns (c : Thread nD τ) M3 fullShare (k3_pay1 X0 X1 X2)) -∗ K ⟨⟩))
      ⊢ wp frame (wpE (defs₀ (F := F)) Variants.none c none) E (cc3__mean_kernel i M0 h0 M1 h1 M2 h2 M3 h3) K

/-- On the rows inside the table the mean block depends only on the rows inside the table of its three operands. -/
def PayCut3 : Prop := ∀ (i : grid3.Coords) (d0 d0' d1 d1' d2 d2' : S8192x64.Idx → Elt F .f32)
    (B0 : (win3_0.xblock i).Idx → Elt F .f32) (B1 : (win3_1.xblock i).Idx → Elt F .f32) (B2 : (win3_2.xblock i).Idx → Elt F .f32),
    win3_3.cut i (k3_pay1 (win3_0.fill i d0 B0) (win3_1.fill i d1 B1) (win3_2.fill i d2 B2))
      = win3_3.cut i (k3_pay1 (win3_0.fill i d0' B0) (win3_1.fill i d1' B1) (win3_2.fill i d2' B2))

/-- The library's body obligation at every point: the four staging buffers handed to the body, its run, and each buffer
    handed back stated on the rows inside the table. -/
theorem body_obligation3 (hrun : MeanRun3 (F := F)) (hcut : PayCut3 (F := F)) (c : Dev nD) :
    BodyObligationLoose (dat3 V c) (defs₀ (F := F)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩⟩
  rw [before3_0 V c t d0, before3_1 V c t d1, before3_2 V c t d2, before3_3 V c t d3]
  iapply (hrun c Set.univ (grid3.coords t)
    (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2))
    (win3_3.stage (cfg3.slots t 3)) (hstage3_3 ((cfg3.slots t 3).cast nbuf3_3))
    (win3_0.fill (grid3.coords t) d0 ((win3_0.blk t).view.read (Elt F) (V c main_v6)))
    (win3_1.fill (grid3.coords t) d1 ((win3_1.blk t).view.read (Elt F) (V c main_v11)))
    (win3_2.fill (grid3.coords t) d2 ((win3_2.blk t).view.read (Elt F) (V c main_v16))) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win3_0.cut (grid3.coords t) (ablk3 V c t) = (win3_0.blk t).view.read (Elt F) (V c main_v6) := win3_0.cut_fill _ _ _
  have hy : win3_1.cut (grid3.coords t) (bblk3 V c t) = (win3_1.blk t).view.read (Elt F) (V c main_v11) := win3_1.cut_fill _ _ _
  have hz : win3_2.cut (grid3.coords t) (cblk3 V c t) = (win3_2.blk t).view.read (Elt F) (V c main_v16) := win3_2.cut_fill _ _ _
  isplitl [H0]
  · iexists d0
    change _ ⊢ owns (c : Thread nD τ) (stage3_0 (cfg3.slots t 0)) fullShare (win3_0.fill (grid3.coords t) d0 (win3_0.cut (grid3.coords t) (ablk3 V c t)))
    rw [hx]; try iexact H0
  isplitl [H1]
  · iexists d1
    change _ ⊢ owns (c : Thread nD τ) (stage3_1 (cfg3.slots t 1)) fullShare (win3_1.fill (grid3.coords t) d1 (win3_1.cut (grid3.coords t) (bblk3 V c t)))
    rw [hy]; try iexact H1
  isplitl [H2]
  · iexists d2
    change _ ⊢ owns (c : Thread nD τ) (stage3_2 (cfg3.slots t 2)) fullShare (win3_2.fill (grid3.coords t) d2 (win3_2.cut (grid3.coords t) (cblk3 V c t)))
    rw [hz]; try iexact H2
  · iexists (k3_pay1 (win3_0.fill (grid3.coords t) d0 ((win3_0.blk t).view.read (Elt F) (V c main_v6)))
      (win3_1.fill (grid3.coords t) d1 ((win3_1.blk t).view.read (Elt F) (V c main_v11)))
      (win3_2.fill (grid3.coords t) d2 ((win3_2.blk t).view.read (Elt F) (V c main_v16))))
    have hc := hcut (grid3.coords t) d0 (fun _ => Scalar.ofBits .f32 0#32) d1 (fun _ => Scalar.ofBits .f32 0#32) d2 (fun _ => Scalar.ofBits .f32 0#32)
      ((win3_0.blk t).view.read (Elt F) (V c main_v6)) ((win3_1.blk t).view.read (Elt F) (V c main_v11)) ((win3_2.blk t).view.read (Elt F) (V c main_v16))
    change _ ⊢ owns (c : Thread nD τ) (stage3_3 (cfg3.slots t 3)) fullShare (win3_3.fill (grid3.coords t) _ (win3_3.cut (grid3.coords t) (oblk3 V c t)))
    unfold oblk3 ablk3 bblk3 cblk3
    have e := win3_3.fill_congr_cut (α := Elt F .f32) (grid3.coords t) hc
    first | rw [e] | erw [e]
    try iexact H3

end Cert.Kernel.Hand

end
-- ==== Proof.WChain.lean ====
import proofs.«403625_j20873541059099_2_alg».proof.Proof.WRegion0
import proofs.«403625_j20873541059099_2_alg».proof.Proof.WRegion1
import proofs.«403625_j20873541059099_2_alg».proof.Proof.WRegion2
import proofs.«403625_j20873541059099_2_alg».proof.Proof.WRegion3
import proofs.«403625_j20873541059099_2_alg».proof.Proof.Gen.Kernel.Regions

/-! The buffers' contents between @main's items, with what each pass leaves fixed to what the pipeline library
    computes from the pass's proof data: each pass is entered from the contents the items before it left. -/

noncomputable section

namespace Cert.Kernel.Hand

open Cert.Kernel Cert.Kernel.Gen

open Idealize.ShloMosaic
open Idealize.ShloMosaic.TcCoe
open Idealize.SL Idealize.SL.RA Idealize.SL.BI
open Idealize.SL.Sem
open Idealize.ShloMosaic.Rounds
open Idealize.ShloMosaic.Pipeline (Dat)

variable {F : FTy → Type} [FloatOps F]

variable (m : (ℓ : Loc nD τ sig) → Buf (Elt F) ℓ)

/-- A valuation of the device buffers read at the TensorCore's references. -/
abbrev atRefs (W : (c : Dev nD) → Valuation τ sig (Elt F)) : (c : Dev nD) → (b : Ref sig .tc) → Buf (Elt F) ((c : Thread nD τ).loc b) :=
  fun c b => W c b

/-- The contents pass 0 is entered from: the concatenation, the weights' column and the first gather have run. (A name of
    its own, so that the host operations' fold is never opened by accident.) -/
def W2 (c : Dev nD) : Valuation τ sig (Elt F) := V2 m c
/-- What scale pass 0 leaves in its result table. -/
def o3 (c : Dev nD) : Buf (Elt F) ((c : Thread nD τ).loc main_v3) := (dat0 (atRefs (W2 m)) c).arrAt (2 : Fin 3) cfg0.N
/-- The contents after pass 0, -/
def W3 (c : Dev nD) : Valuation τ sig (Elt F) := Function.update (W2 m c) main_v3 (o3 m c)
/-- and when pass 1 is entered: the scatter-add and the second gather have run. -/
def W5 (c : Dev nD) : Valuation τ sig (Elt F) := StableHlo.after hostOps1_1 (StableHlo.after hostOps1 (W3 m c))
def o6 (c : Dev nD) : Buf (Elt F) ((c : Thread nD τ).loc main_v8) := (dat1 (atRefs (W5 m)) c).arrAt (2 : Fin 3) cfg1.N
def W6 (c : Dev nD) : Valuation τ sig (Elt F) := Function.update (W5 m c) main_v8 (o6 m c)
def W8 (c : Dev nD) : Valuation τ sig (Elt F) := StableHlo.after hostOps2_1 (StableHlo.after hostOps2 (W6 m c))
def o9 (c : Dev nD) : Buf (Elt F) ((c : Thread nD τ).loc main_v13) := (dat2 (atRefs (W8 m)) c).arrAt (2 : Fin 3) cfg2.N
def W9 (c : Dev nD) : Valuation τ sig (Elt F) := Function.update (W8 m c) main_v13 (o9 m c)
def W10 (c : Dev nD) : Valuation τ sig (Elt F) := StableHlo.after hostOps3 (W9 m c)
def o11 (c : Dev nD) : Buf (Elt F) ((c : Thread nD τ).loc main_v17) := (dat3 (atRefs (W10 m)) c).arrAt (3 : Fin 4) cfg3.N
def W11 (c : Dev nD) : Valuation τ sig (Elt F) := Function.update (W10 m c) main_v17 (o11 m c)

/-- What the passes leave, as the family the valuations between items are written over: read only at the four
    points (3, main_v3), (6, main_v8), (9, main_v13), (11, main_v17). -/
def outsK : Outs (F := F) := fun n r c =>
  match n with
  | 3 => W3 m c r
  | 6 => W6 m c r
  | 9 => W9 m c r
  | 11 => W11 m c r
  | _ => V0 m c r

theorem V2_eq (c : Dev nD) : V2 m c = W2 m c := rfl
theorem outs3 (c : Dev nD) : outsK m 3 main_v3 c = o3 m c := by
  show W3 m c main_v3 = _; unfold W3; exact Function.update_self ..
theorem V3_eq (c : Dev nD) : V3 m (outsK m) c = W3 m c := by
  show Function.update (V2 m c) main_v3 (outsK m 3 main_v3 c) = _; rw [outs3]; rfl
theorem V5_eq (c : Dev nD) : V5 m (outsK m) c = W5 m c := by
  show StableHlo.after hostOps1_1 (StableHlo.after hostOps1 (V3 m (outsK m) c)) = _; rw [V3_eq]; rfl
theorem outs6 (c : Dev nD) : outsK m 6 main_v8 c = o6 m c := by
  show W6 m c main_v8 = _; unfold W6; exact Function.update_self ..
theorem V6_eq (c : Dev nD) : V6 m (outsK m) c = W6 m c := by
  show Function.update (V5 m (outsK m) c) main_v8 (outsK m 6 main_v8 c) = _; rw [outs6, V5_eq]; rfl
theorem V8_eq (c : Dev nD) : V8 m (outsK m) c = W8 m c := by
  show StableHlo.after hostOps2_1 (StableHlo.after hostOps2 (V6 m (outsK m) c)) = _; rw [V6_eq]; rfl
theorem outs9 (c : Dev nD) : outsK m 9 main_v13 c = o9 m c := by
  show W9 m c main_v13 = _; unfold W9; exact Function.update_self ..
theorem V9_eq (c : Dev nD) : V9 m (outsK m) c = W9 m c := by
  show Function.update (V8 m (outsK m) c) main_v13 (outsK m 9 main_v13 c) = _; rw [outs9, V8_eq]; rfl
theorem V10_eq (c : Dev nD) : V10 m (outsK m) c = W10 m c := by
  show StableHlo.after hostOps3 (V9 m (outsK m) c) = _; rw [V9_eq]; rfl
theorem outs11 (c : Dev nD) : outsK m 11 main_v17 c = o11 m c := by
  show W11 m c main_v17 = _; unfold W11; exact Function.update_self ..
theorem V11_eq (c : Dev nD) : V11 m (outsK m) c = W11 m c := by
  show Function.update (V10 m (outsK m) c) main_v17 (outsK m 11 main_v17 c) = _; rw [outs11, V10_eq]; rfl

theorem W3_at (c : Dev nD) : W3 m c main_v3 = o3 m c := by unfold W3; exact Function.update_self ..
theorem W6_at (c : Dev nD) : W6 m c main_v8 = o6 m c := by unfold W6; exact Function.update_self ..
theorem W9_at (c : Dev nD) : W9 m c main_v13 = o9 m c := by unfold W9; exact Function.update_self ..
theorem W11_at (c : Dev nD) : W11 m c main_v17 = o11 m c := by unfold W11; exact Function.update_self ..

/-- A pass changes only its result table. -/
theorem W3_of (c : Dev nD) (r : Ref sig .tc) (h : r ∉ ([main_v3] : List (Ref sig .tc))) : W3 m c r = W2 m c r := by
  rw [← V3_eq, ← V2_eq]; exact V3_of m (outsK m) c r h
theorem W6_of (c : Dev nD) (r : Ref sig .tc) (h : r ∉ ([main_v8] : List (Ref sig .tc))) : W6 m c r = W5 m c r := by
  rw [← V6_eq, ← V5_eq]; exact V6_of m (outsK m) c r h
theorem W9_of (c : Dev nD) (r : Ref sig .tc) (h : r ∉ ([main_v13] : List (Ref sig .tc))) : W9 m c r = W8 m c r := by
  rw [← V9_eq, ← V8_eq]; exact V9_of m (outsK m) c r h
theorem W11_of (c : Dev nD) (r : Ref sig .tc) (h : r ∉ ([main_v17] : List (Ref sig .tc))) : W11 m c r = W10 m c r := by
  rw [← V11_eq, ← V10_eq]; exact V11_of m (outsK m) c r h

/-- The proof data of the four passes, each entered from the contents the items before it left. -/
def pdatsK : (p : Fin 4) → (c : Dev nD) → Dat τ (Elt F) Unit ℕ (UR sig nD τ) ℕ (cfgs p) c
  | ⟨0, _⟩ => fun c => dat0 (atRefs (W2 m)) c
  | ⟨1, _⟩ => fun c => dat1 (atRefs (W5 m)) c
  | ⟨2, _⟩ => fun c => dat2 (atRefs (W8 m)) c
  | ⟨3, _⟩ => fun c => dat3 (atRefs (W10 m)) c

end Cert.Kernel.Hand

end
-- ==== Proof.WRecord0.lean ====
import proofs.«403625_j20873541059099_2_alg».proof.Proof.WChain
import Idealize.ShloMosaic.Lib.Pipeline.RegionsLoop

/-! Scale pass 0 as a segment of @main: entered from every unscoped buffer held at the contents the items before it
    left, left with them held at the same contents but for the pass's result table, which holds what the pipeline
    library computes; the core's debt (nothing) rides beside. -/

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The pass does not write its two operand tables. -/
theorem W3_gathered (c : Dev nD) : W3 m c main_v2 = W2 m c main_v2 := W3_of m c main_v2 (by decide)
theorem W3_weights (c : Dev nD) : W3 m c main_v1 = W2 m c main_v1 := W3_of m c main_v1 (by decide)

/-- After the pass the three tables hold what the library computes — the operands what they held, the result the
    written-back blocks —, for any contents `V` the pass is entered from and any `V'` that agrees with `V` on the operands
    and holds the computed result. -/
theorem exit_arrays_of0 (V V' : (c : Dev nD) → (b : Ref sig .tc) → Buf (Elt F) ((c : Thread nD τ).loc b)) (c : Dev nD)
    (h0 : V' c main_v2 = V c main_v2) (h1 : V' c main_v1 = V c main_v1)
    (h2 : V' c main_v3 = (dat0 V c).arrAt (2 : Fin 3) cfg0.N) :
    ∀ w : Fin 3, (dat0 V c).arrAt w cfg0.N = V' c (Pipeline.arrRef spec0 w)
  | ⟨0, _⟩ => ((dat0 V c).arrAt_in (0 : Fin 3) rfl _).trans h0.symm
  | ⟨1, _⟩ => ((dat0 V c).arrAt_in (1 : Fin 3) rfl _).trans h1.symm
  | ⟨2, _⟩ => h2.symm
theorem exit_arrays0 (c : Dev nD) (w : Fin 3) :
    (dat0 (atRefs (W2 m)) c).arrAt w cfg0.N = atRefs (W3 m) c (Pipeline.arrRef spec0 w) :=
  exit_arrays_of0 (atRefs (W2 m)) (atRefs (W3 m)) c (W3_gathered m c) (W3_weights m c) (W3_at m c) w
/-- Every other buffer is as the pass found it. -/
theorem exit_rest0 (c : Dev nD) (b : Ref sig .tc) (hb : b ∉ Finset.univ.image (Pipeline.arrRef spec0)) :
    atRefs (W3 m) c b = atRefs (W2 m) c b :=
  W3_of m c b fun h => hb (by
    rw [List.mem_singleton] at h; subst h; exact Finset.mem_image.mpr ⟨2, Finset.mem_univ _, rfl⟩)

-- applying a library lemma stated at a pinned configuration unifies only when unification may unfold plain
-- definitions in a metavariable's type
set_option backward.isDefEq.respectTransparency.types false in
/-- Pass 0 as a region segment. -/
def reg0 (hrun : ScaleRun0 (F := F)) (hcut : PayCut0 (F := F)) :
    Pipeline.RegionSeg (pcfgs (F := F)) adm (pdatsK m) () defs₀ Variants.none (fun _ => (∅ : Finset Unit)) (fun _ _ => (0 : ℕ)) (0 : Fin 4) where
  win := launch0.win.to₀
  block_pos := launch0.block_pos
  stage_whole := launch0.stage_whole
  K := PEmpty
  osem k := k.elim
  ho := Pipeline.OwnSemFacts.none _
  hbody c := (body_obligation0 (atRefs (W2 m)) hrun hcut c)
  hwaits := Pipeline.hwaits_of_owed_zero _ _ _ _ _ _ (0 : Fin 4) fun _ _ => rfl
  pre c := iprop(StableHlo.held (c : Thread nD τ) (Pipeline.ucRefs τ sig) (W2 m c) ∗ ∃ W, owes (c : Thread nD τ) (0 : CellTallies nD τ sig Unit) W)
  post c := iprop(StableHlo.held (c : Thread nD τ) (Pipeline.ucRefs τ sig) (W3 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (atRefs (W2 m) c)
  hentry c := by
    rw [Pipeline.ownSems0_none, ← Pipeline.unscopedBufs_held (Ix := Unit) (Name := ℕ) (U := UR sig nD τ) (Lvl := ℕ) c (W2 m c)]
    have hsplit := Pipeline.arrays_of_unscopedBufs (p := (0 : Fin 4)) (pcfgs (F := F)) adm (pdatsK m) launch0.win launch0.arr_whole c
      ((pdatsK m (0 : Fin 4) c).share_full fun _ => rfl) (atRefs (W2 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdatsK m (0 : Fin 4) c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdatsK m (0 : Fin 4) c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := (0 : Fin 4)) (pcfgs (F := F)) adm (Ix := Unit) (Name := ℕ) (U := UR sig nD τ) (Lvl := ℕ)
      launch0.win launch0.arr_whole c (pdatsK m) ((pdatsK m (0 : Fin 4) c).share_full fun _ => rfl)
      (atRefs (W2 m) c) (atRefs (W3 m) c) ((pdatsK m (0 : Fin 4) c).arrAt · cfg0.N)
      (exit_arrays0 m c) (exit_rest0 m c)
    rw [← Pipeline.unscopedBufs_held (Ix := Unit) (Name := ℕ) (U := UR sig nD τ) (Lvl := ℕ) c (W3 m c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.WRecord1.lean ====
import proofs.«403625_j20873541059099_2_alg».proof.Proof.WChain
import Idealize.ShloMosaic.Lib.Pipeline.RegionsLoop

/-! Scale pass 1 as a segment of @main: entered from every unscoped buffer held at the contents the items before it
    left, left with them held at the same contents but for the pass's result table, which holds what the pipeline
    library computes; the core's debt (nothing) rides beside. -/

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The pass does not write its two operand tables. -/
theorem W6_gathered (c : Dev nD) : W6 m c main_v7 = W5 m c main_v7 := W6_of m c main_v7 (by decide)
theorem W6_weights (c : Dev nD) : W6 m c main_v1 = W5 m c main_v1 := W6_of m c main_v1 (by decide)

/-- After the pass the three tables hold what the library computes — the operands what they held, the result the
    written-back blocks —, for any contents `V` the pass is entered from and any `V'` that agrees with `V` on the operands
    and holds the computed result. -/
theorem exit_arrays_of1 (V V' : (c : Dev nD) → (b : Ref sig .tc) → Buf (Elt F) ((c : Thread nD τ).loc b)) (c : Dev nD)
    (h0 : V' c main_v7 = V c main_v7) (h1 : V' c main_v1 = V c main_v1)
    (h2 : V' c main_v8 = (dat1 V c).arrAt (2 : Fin 3) cfg1.N) :
    ∀ w : Fin 3, (dat1 V c).arrAt w cfg1.N = V' c (Pipeline.arrRef spec1 w)
  | ⟨0, _⟩ => ((dat1 V c).arrAt_in (0 : Fin 3) rfl _).trans h0.symm
  | ⟨1, _⟩ => ((dat1 V c).arrAt_in (1 : Fin 3) rfl _).trans h1.symm
  | ⟨2, _⟩ => h2.symm
theorem exit_arrays1 (c : Dev nD) (w : Fin 3) :
    (dat1 (atRefs (W5 m)) c).arrAt w cfg1.N = atRefs (W6 m) c (Pipeline.arrRef spec1 w) :=
  exit_arrays_of1 (atRefs (W5 m)) (atRefs (W6 m)) c (W6_gathered m c) (W6_weights m c) (W6_at m c) w
/-- Every other buffer is as the pass found it. -/
theorem exit_rest1 (c : Dev nD) (b : Ref sig .tc) (hb : b ∉ Finset.univ.image (Pipeline.arrRef spec1)) :
    atRefs (W6 m) c b = atRefs (W5 m) c b :=
  W6_of m c b fun h => hb (by
    rw [List.mem_singleton] at h; subst h; exact Finset.mem_image.mpr ⟨2, Finset.mem_univ _, rfl⟩)

-- applying a library lemma stated at a pinned configuration unifies only when unification may unfold plain
-- definitions in a metavariable's type
set_option backward.isDefEq.respectTransparency.types false in
/-- Pass 0 as a region segment. -/
def reg1 (hrun : ScaleRun1 (F := F)) (hcut : PayCut1 (F := F)) :
    Pipeline.RegionSeg (pcfgs (F := F)) adm (pdatsK m) () defs₀ Variants.none (fun _ => (∅ : Finset Unit)) (fun _ _ => (0 : ℕ)) (1 : Fin 4) where
  win := launch1.win.to₀
  block_pos := launch1.block_pos
  stage_whole := launch1.stage_whole
  K := PEmpty
  osem k := k.elim
  ho := Pipeline.OwnSemFacts.none _
  hbody c := (body_obligation1 (atRefs (W5 m)) hrun hcut c)
  hwaits := Pipeline.hwaits_of_owed_zero _ _ _ _ _ _ (1 : Fin 4) fun _ _ => rfl
  pre c := iprop(StableHlo.held (c : Thread nD τ) (Pipeline.ucRefs τ sig) (W5 m c) ∗ ∃ W, owes (c : Thread nD τ) (0 : CellTallies nD τ sig Unit) W)
  post c := iprop(StableHlo.held (c : Thread nD τ) (Pipeline.ucRefs τ sig) (W6 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (atRefs (W5 m) c)
  hentry c := by
    rw [Pipeline.ownSems0_none, ← Pipeline.unscopedBufs_held (Ix := Unit) (Name := ℕ) (U := UR sig nD τ) (Lvl := ℕ) c (W5 m c)]
    have hsplit := Pipeline.arrays_of_unscopedBufs (p := (1 : Fin 4)) (pcfgs (F := F)) adm (pdatsK m) launch1.win launch1.arr_whole c
      ((pdatsK m (1 : Fin 4) c).share_full fun _ => rfl) (atRefs (W5 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdatsK m (1 : Fin 4) c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdatsK m (1 : Fin 4) c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := (1 : Fin 4)) (pcfgs (F := F)) adm (Ix := Unit) (Name := ℕ) (U := UR sig nD τ) (Lvl := ℕ)
      launch1.win launch1.arr_whole c (pdatsK m) ((pdatsK m (1 : Fin 4) c).share_full fun _ => rfl)
      (atRefs (W5 m) c) (atRefs (W6 m) c) ((pdatsK m (1 : Fin 4) c).arrAt · cfg1.N)
      (exit_arrays1 m c) (exit_rest1 m c)
    rw [← Pipeline.unscopedBufs_held (Ix := Unit) (Name := ℕ) (U := UR sig nD τ) (Lvl := ℕ) c (W6 m c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.WRecord2.lean ====
import proofs.«403625_j20873541059099_2_alg».proof.Proof.WChain
import Idealize.ShloMosaic.Lib.Pipeline.RegionsLoop

/-! Scale pass 2 as a segment of @main: entered from every unscoped buffer held at the contents the items before it
    left, left with them held at the same contents but for the pass's result table, which holds what the pipeline
    library computes; the core's debt (nothing) rides beside. -/

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The pass does not write its two operand tables. -/
theorem W9_gathered (c : Dev nD) : W9 m c main_v12 = W8 m c main_v12 := W9_of m c main_v12 (by decide)
theorem W9_weights (c : Dev nD) : W9 m c main_v1 = W8 m c main_v1 := W9_of m c main_v1 (by decide)

/-- After the pass the three tables hold what the library computes — the operands what they held, the result the
    written-back blocks —, for any contents `V` the pass is entered from and any `V'` that agrees with `V` on the operands
    and holds the computed result. -/
theorem exit_arrays_of2 (V V' : (c : Dev nD) → (b : Ref sig .tc) → Buf (Elt F) ((c : Thread nD τ).loc b)) (c : Dev nD)
    (h0 : V' c main_v12 = V c main_v12) (h1 : V' c main_v1 = V c main_v1)
    (h2 : V' c main_v13 = (dat2 V c).arrAt (2 : Fin 3) cfg2.N) :
    ∀ w : Fin 3, (dat2 V c).arrAt w cfg2.N = V' c (Pipeline.arrRef spec2 w)
  | ⟨0, _⟩ => ((dat2 V c).arrAt_in (0 : Fin 3) rfl _).trans h0.symm
  | ⟨1, _⟩ => ((dat2 V c).arrAt_in (1 : Fin 3) rfl _).trans h1.symm
  | ⟨2, _⟩ => h2.symm
theorem exit_arrays2 (c : Dev nD) (w : Fin 3) :
    (dat2 (atRefs (W8 m)) c).arrAt w cfg2.N = atRefs (W9 m) c (Pipeline.arrRef spec2 w) :=
  exit_arrays_of2 (atRefs (W8 m)) (atRefs (W9 m)) c (W9_gathered m c) (W9_weights m c) (W9_at m c) w
/-- Every other buffer is as the pass found it. -/
theorem exit_rest2 (c : Dev nD) (b : Ref sig .tc) (hb : b ∉ Finset.univ.image (Pipeline.arrRef spec2)) :
    atRefs (W9 m) c b = atRefs (W8 m) c b :=
  W9_of m c b fun h => hb (by
    rw [List.mem_singleton] at h; subst h; exact Finset.mem_image.mpr ⟨2, Finset.mem_univ _, rfl⟩)

-- applying a library lemma stated at a pinned configuration unifies only when unification may unfold plain
-- definitions in a metavariable's type
set_option backward.isDefEq.respectTransparency.types false in
/-- Pass 0 as a region segment. -/
def reg2 (hrun : ScaleRun2 (F := F)) (hcut : PayCut2 (F := F)) :
    Pipeline.RegionSeg (pcfgs (F := F)) adm (pdatsK m) () defs₀ Variants.none (fun _ => (∅ : Finset Unit)) (fun _ _ => (0 : ℕ)) (2 : Fin 4) where
  win := launch2.win.to₀
  block_pos := launch2.block_pos
  stage_whole := launch2.stage_whole
  K := PEmpty
  osem k := k.elim
  ho := Pipeline.OwnSemFacts.none _
  hbody c := (body_obligation2 (atRefs (W8 m)) hrun hcut c)
  hwaits := Pipeline.hwaits_of_owed_zero _ _ _ _ _ _ (2 : Fin 4) fun _ _ => rfl
  pre c := iprop(StableHlo.held (c : Thread nD τ) (Pipeline.ucRefs τ sig) (W8 m c) ∗ ∃ W, owes (c : Thread nD τ) (0 : CellTallies nD τ sig Unit) W)
  post c := iprop(StableHlo.held (c : Thread nD τ) (Pipeline.ucRefs τ sig) (W9 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec2 c (atRefs (W8 m) c)
  hentry c := by
    rw [Pipeline.ownSems0_none, ← Pipeline.unscopedBufs_held (Ix := Unit) (Name := ℕ) (U := UR sig nD τ) (Lvl := ℕ) c (W8 m c)]
    have hsplit := Pipeline.arrays_of_unscopedBufs (p := (2 : Fin 4)) (pcfgs (F := F)) adm (pdatsK m) launch2.win launch2.arr_whole c
      ((pdatsK m (2 : Fin 4) c).share_full fun _ => rfl) (atRefs (W8 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdatsK m (2 : Fin 4) c).Φ 0 = Pipeline.scopedRest (Ix := Unit) (Name := ℕ) (U := UR sig nD τ) (Lvl := ℕ) (Val := Elt F) spec2 c from rfl]
    iintro ⟨-, -, Hr⟩; iexact Hr
  hout c := by
    rw [Pipeline.ownSems0_none, show (pdatsK m (2 : Fin 4) c).Φ (Fin.last _) = Pipeline.scopedRest (Ix := Unit) (Name := ℕ) (U := UR sig nD τ) (Lvl := ℕ) (Val := Elt F) spec2 c from rfl]
    iintro Hr
    isplitr; · iempintro
    isplitr; · iempintro
    iexact Hr
  hexit c := by
    have hjoin := Pipeline.unscopedBufs_of_arrays (p := (2 : Fin 4)) (pcfgs (F := F)) adm (Ix := Unit) (Name := ℕ) (U := UR sig nD τ) (Lvl := ℕ)
      launch2.win launch2.arr_whole c (pdatsK m) ((pdatsK m (2 : Fin 4) c).share_full fun _ => rfl)
      (atRefs (W8 m) c) (atRefs (W9 m) c) ((pdatsK m (2 : Fin 4) c).arrAt · cfg2.N)
      (exit_arrays2 m c) (exit_rest2 m c)
    rw [← Pipeline.unscopedBufs_held (Ix := Unit) (Name := ℕ) (U := UR sig nD τ) (Lvl := ℕ) c (W9 m c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.WRecord3.lean ====
import proofs.«403625_j20873541059099_2_alg».proof.Proof.WChain
import Idealize.ShloMosaic.Lib.Pipeline.RegionsLoop

/-! The mean pass as a segment of @main: entered from every unscoped buffer held at the contents the items before it
    left, left with them held at the same contents but for the pass's result table, which holds what the pipeline
    library computes; the core's debt (nothing) rides beside. -/

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The pass does not write its three operand tables. -/
theorem W11_first (c : Dev nD) : W11 m c main_v6 = W10 m c main_v6 := W11_of m c main_v6 (by decide)
theorem W11_second (c : Dev nD) : W11 m c main_v11 = W10 m c main_v11 := W11_of m c main_v11 (by decide)
theorem W11_third (c : Dev nD) : W11 m c main_v16 = W10 m c main_v16 := W11_of m c main_v16 (by decide)

/-- After the pass the four tables hold what the library computes — the operands what they held, the result the
    written-back blocks —, for any contents `V` the pass is entered from and any `V'` that agrees with `V` on the operands
    and holds the computed result. -/
theorem exit_arrays_of3 (V V' : (c : Dev nD) → (b : Ref sig .tc) → Buf (Elt F) ((c : Thread nD τ).loc b)) (c : Dev nD)
    (h0 : V' c main_v6 = V c main_v6) (h1 : V' c main_v11 = V c main_v11) (h2 : V' c main_v16 = V c main_v16)
    (h3 : V' c main_v17 = (dat3 V c).arrAt (3 : Fin 4) cfg3.N) :
    ∀ w : Fin 4, (dat3 V c).arrAt w cfg3.N = V' c (Pipeline.arrRef spec3 w)
  | ⟨0, _⟩ => ((dat3 V c).arrAt_in (0 : Fin 4) rfl _).trans h0.symm
  | ⟨1, _⟩ => ((dat3 V c).arrAt_in (1 : Fin 4) rfl _).trans h1.symm
  | ⟨2, _⟩ => ((dat3 V c).arrAt_in (2 : Fin 4) rfl _).trans h2.symm
  | ⟨3, _⟩ => h3.symm
theorem exit_arrays3 (c : Dev nD) (w : Fin 4) :
    (dat3 (atRefs (W10 m)) c).arrAt w cfg3.N = atRefs (W11 m) c (Pipeline.arrRef spec3 w) :=
  exit_arrays_of3 (atRefs (W10 m)) (atRefs (W11 m)) c (W11_first m c) (W11_second m c) (W11_third m c) (W11_at m c) w
/-- Every other buffer is as the pass found it. -/
theorem exit_rest3 (c : Dev nD) (b : Ref sig .tc) (hb : b ∉ Finset.univ.image (Pipeline.arrRef spec3)) :
    atRefs (W11 m) c b = atRefs (W10 m) c b :=
  W11_of m c b fun h => hb (by
    rw [List.mem_singleton] at h; subst h; exact Finset.mem_image.mpr ⟨3, Finset.mem_univ _, rfl⟩)

-- applying a library lemma stated at a pinned configuration unifies only when unification may unfold plain
-- definitions in a metavariable's type
set_option backward.isDefEq.respectTransparency.types false in
/-- The mean pass as a region segment. -/
def reg3 (hrun : MeanRun3 (F := F)) (hcut : PayCut3 (F := F)) :
    Pipeline.RegionSeg (pcfgs (F := F)) adm (pdatsK m) () defs₀ Variants.none (fun _ => (∅ : Finset Unit)) (fun _ _ => (0 : ℕ)) (3 : Fin 4) where
  win := launch3.win.to₀
  block_pos := launch3.block_pos
  stage_whole := launch3.stage_whole
  K := PEmpty
  osem k := k.elim
  ho := Pipeline.OwnSemFacts.none _
  hbody c := (body_obligation3 (atRefs (W10 m)) hrun hcut c)
  hwaits := Pipeline.hwaits_of_owed_zero _ _ _ _ _ _ (3 : Fin 4) fun _ _ => rfl
  pre c := iprop(StableHlo.held (c : Thread nD τ) (Pipeline.ucRefs τ sig) (W10 m c) ∗ ∃ W, owes (c : Thread nD τ) (0 : CellTallies nD τ sig Unit) W)
  post c := iprop(StableHlo.held (c : Thread nD τ) (Pipeline.ucRefs τ sig) (W11 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec3 c (atRefs (W10 m) c)
  hentry c := by
    rw [Pipeline.ownSems0_none, ← Pipeline.unscopedBufs_held (Ix := Unit) (Name := ℕ) (U := UR sig nD τ) (Lvl := ℕ) c (W10 m c)]
    have hsplit := Pipeline.arrays_of_unscopedBufs (p := (3 : Fin 4)) (pcfgs (F := F)) adm (pdatsK m) launch3.win launch3.arr_whole c
      ((pdatsK m (3 : Fin 4) c).share_full fun _ => rfl) (atRefs (W10 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdatsK m (3 : Fin 4) c).Φ 0 = Pipeline.scopedRest (Ix := Unit) (Name := ℕ) (U := UR sig nD τ) (Lvl := ℕ) (Val := Elt F) spec3 c from rfl]
    iintro ⟨-, -, Hr⟩; iexact Hr
  hout c := by
    rw [Pipeline.ownSems0_none, show (pdatsK m (3 : Fin 4) c).Φ (Fin.last _) = Pipeline.scopedRest (Ix := Unit) (Name := ℕ) (U := UR sig nD τ) (Lvl := ℕ) (Val := Elt F) spec3 c from rfl]
    iintro Hr
    isplitr; · iempintro
    isplitr; · iempintro
    iexact Hr
  hexit c := by
    have hjoin := Pipeline.unscopedBufs_of_arrays (p := (3 : Fin 4)) (pcfgs (F := F)) adm (Ix := Unit) (Name := ℕ) (U := UR sig nD τ) (Lvl := ℕ)
      launch3.win launch3.arr_whole c (pdatsK m) ((pdatsK m (3 : Fin 4) c).share_full fun _ => rfl)
      (atRefs (W10 m) c) (atRefs (W11 m) c) ((pdatsK m (3 : Fin 4) c).arrAt · cfg3.N)
      (exit_arrays3 m c) (exit_rest3 m c)
    rw [← Pipeline.unscopedBufs_held (Ix := Unit) (Name := ℕ) (U := UR sig nD τ) (Lvl := ℕ) c (W11 m c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Hand

end
-- ==== Proof.WBodyRuns.lean ====
/-
  The two kernel bodies of the graph-propagation program, each as a triple over ARBITRARY whole staging memrefs.

  The scale body (three printed copies, one per propagation layer) loads the gathered block `x` (8192 × 64) and the
  edge weights `v` (8192 × 1), broadcasts `v` along the columns, multiplies lane-wise, loads the result's buffer (a
  dead load: its value is not used) and stores the product over the whole of it. The mean body loads three blocks,
  adds them, multiplies by the named constant and stores the product over the whole of the result's buffer.

  Every access is through the rectangle of the memref's own sizes at zero offsets. Through ANY view such a load
  reads exactly what the view reads (`readAt_unit_zero_view`), and such an unmasked store leaves contents that read
  back as the payload (`read_write_unit_zero_view`); so a memref owned at `X` (some contents that read `X`, held on
  the view's own elements) is, after the body, owned at the payload function of the loaded values, the inputs owned
  as before. Nothing here depends on which buffer a memref is, nor on the float instance.
-/
import proofs.«403625_j20873541059099_2_alg».proof.Proof.Gen.Kernel.Skeleton
import proofs.«403625_j20873541059099_2_alg».proof.Proof.Gen.Kernel.Launch
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U] {Lvl : Type} [Preorder Lvl]

local notation "𝕄" => MT nD τ sig Ix (Elt F) ℕ U Lvl

/-! ## Whole-shape accesses through an arbitrary view -/

section View

variable {sig' : RefSig} {κ : Kind} {sp : Space} {s : Shape} {e : EltTy} {Val : EltTy → Type}

/-- A load through the rectangle of the view's own sizes at zero offsets (however the zeros are spelt) reads what
    the view reads: the rectangle places each index at itself. -/
theorem readAt_unit_zero_view (v : View sig' κ sp s e) {off : Fin s.rank → Nat} (h : off = fun _ => 0)
    (inb : ∀ a, off a + s.size a ≤ s.size a) (f : v.ty.Contents Val) :
    v.readAt Val (Rect.unit off s.size inb).toLoadRect f = v.read Val f := by
  subst h; funext x
  show v.read Val f ((Rect.whole s).emb x) = v.read Val f x
  rw [Rect.emb_whole_apply]

/-- An unmasked store through that rectangle leaves contents the view reads back as the payload, whatever the
    buffer held. -/
theorem read_write_unit_zero_view (v : View sig' κ sp s e) {off : Fin s.rank → Nat} (h : off = fun _ => 0)
    (inb : ∀ a, off a + s.size a ≤ s.size a) (f : v.ty.Contents Val) (w : s.Idx → Val e) :
    v.read Val ((v.slice (Rect.unit off s.size inb)).write Val f w Finset.univ) = w := by
  subst h; funext x
  have hx := View.read_slice_write_emb (v := v) (Val := Val) (Rect.whole s) f w (M := Finset.univ) (x := x)
    (Finset.mem_univ _)
  rwa [Rect.emb_whole_apply] at hx

end View

/-- The printed zero offsets of a rank-two access are the constant-zero offsets. -/
theorem zeros₂ : (![0, 0] : Fin 2 → Nat) = fun _ => 0 := funext fun a => by fin_cases a <;> rfl

/-! ## The scale bodies -/

/-- The scale body of layer 0 on whole staging memrefs `M0` (the gathered block), `M1` (the weights) and `M2` (the
    result): `M0` and `M1` are handed back as they were, `M2` holding the payload — the gathered block times the
    weights broadcast along the columns — whatever it held. -/
theorem sound_scale0 (c : Dev nD) (E : Set ℕ) (i : grid0.Coords)
    (M0 : Memref sig .tc .vmem S8192x64 .f32) (h0 : M0.IsWhole) (M1 : Memref sig .tc .vmem S8192x1 .f32) (h1 : M1.IsWhole)
    (M2 : Memref sig .tc .vmem S8192x64 .f32) (h2 : M2.IsWhole)
    (X0 : S8192x64.Idx → Elt F .f32) (X1 : S8192x1.Idx → Elt F .f32) (X2 : S8192x64.Idx → Elt F .f32) (K : PUnit → sProp 𝕄) :
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                  ∗ owns (c : Thread nD τ) M2 fullShare (k0_pay1 X0 X1)) -∗ K ⟨⟩))
      ⊢ wp frame (wpE (defs₀ (F := F)) Variants.none c none) E (cc0__scale_kernel i M0 h0 M1 h1 M2 h2) K := by
  rw [cc0__scale_kernel_eq_skeleton]; unfold cc0__scale_kernel_skel owns
  simp only [Prog.lift, Prog.bind_op, Prog.bind_ret]
  iintro ⟨⟨⟨%f0, %hf0, H0⟩, ⟨%f1, %hf1, H1⟩, ⟨%f2, %hf2, H2⟩⟩, Hk⟩
  sl_steps
  iapply Hk
  isplitl [H0]
  · iexists f0; isplitr; · ipureintro; exact hf0
    iexact H0
  isplitl [H1]
  · iexists f1; isplitr; · ipureintro; exact hf1
    iexact H1
  · iexists _; isplitr; swap; · iexact H2
    ipureintro
    -- the two loads read `X0` and `X1`; the store's contents read back as the payload
    rw [readAt_unit_zero_view M0.view zeros₂, readAt_unit_zero_view M1.view zeros₂, hf0, hf1]
    exact read_write_unit_zero_view M2.view zeros₂ _ f2 _

/-- The scale body of layer 1 on whole staging memrefs `M0` (the gathered block), `M1` (the weights) and `M2` (the
    result): `M0` and `M1` are handed back as they were, `M2` holding the payload — the gathered block times the
    weights broadcast along the columns — whatever it held. -/
theorem sound_scale1 (c : Dev nD) (E : Set ℕ) (i : grid1.Coords)
    (M0 : Memref sig .tc .vmem S8192x64 .f32) (h0 : M0.IsWhole) (M1 : Memref sig .tc .vmem S8192x1 .f32) (h1 : M1.IsWhole)
    (M2 : Memref sig .tc .vmem S8192x64 .f32) (h2 : M2.IsWhole)
    (X0 : S8192x64.Idx → Elt F .f32) (X1 : S8192x1.Idx → Elt F .f32) (X2 : S8192x64.Idx → Elt F .f32) (K : PUnit → sProp 𝕄) :
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                  ∗ owns (c : Thread nD τ) M2 fullShare (k1_pay1 X0 X1)) -∗ K ⟨⟩))
      ⊢ wp frame (wpE (defs₀ (F := F)) Variants.none c none) E (cc1__scale_kernel i M0 h0 M1 h1 M2 h2) K := by
  rw [cc1__scale_kernel_eq_skeleton]; unfold cc1__scale_kernel_skel owns
  simp only [Prog.lift, Prog.bind_op, Prog.bind_ret]
  iintro ⟨⟨⟨%f0, %hf0, H0⟩, ⟨%f1, %hf1, H1⟩, ⟨%f2, %hf2, H2⟩⟩, Hk⟩
  sl_steps
  iapply Hk
  isplitl [H0]
  · iexists f0; isplitr; · ipureintro; exact hf0
    iexact H0
  isplitl [H1]
  · iexists f1; isplitr; · ipureintro; exact hf1
    iexact H1
  · iexists _; isplitr; swap; · iexact H2
    ipureintro
    -- the two loads read `X0` and `X1`; the store's contents read back as the payload
    rw [readAt_unit_zero_view M0.view zeros₂, readAt_unit_zero_view M1.view zeros₂, hf0, hf1]
    exact read_write_unit_zero_view M2.view zeros₂ _ f2 _

/-- The scale body of layer 2 on whole staging memrefs `M0` (the gathered block), `M1` (the weights) and `M2` (the
    result): `M0` and `M1` are handed back as they were, `M2` holding the payload — the gathered block times the
    weights broadcast along the columns — whatever it held. -/
theorem sound_scale2 (c : Dev nD) (E : Set ℕ) (i : grid2.Coords)
    (M0 : Memref sig .tc .vmem S8192x64 .f32) (h0 : M0.IsWhole) (M1 : Memref sig .tc .vmem S8192x1 .f32) (h1 : M1.IsWhole)
    (M2 : Memref sig .tc .vmem S8192x64 .f32) (h2 : M2.IsWhole)
    (X0 : S8192x64.Idx → Elt F .f32) (X1 : S8192x1.Idx → Elt F .f32) (X2 : S8192x64.Idx → Elt F .f32) (K : PUnit → sProp 𝕄) :
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                  ∗ owns (c : Thread nD τ) M2 fullShare (k2_pay1 X0 X1)) -∗ K ⟨⟩))
      ⊢ wp frame (wpE (defs₀ (F := F)) Variants.none c none) E (cc2__scale_kernel i M0 h0 M1 h1 M2 h2) K := by
  rw [cc2__scale_kernel_eq_skeleton]; unfold cc2__scale_kernel_skel owns
  simp only [Prog.lift, Prog.bind_op, Prog.bind_ret]
  iintro ⟨⟨⟨%f0, %hf0, H0⟩, ⟨%f1, %hf1, H1⟩, ⟨%f2, %hf2, H2⟩⟩, Hk⟩
  sl_steps
  iapply Hk
  isplitl [H0]
  · iexists f0; isplitr; · ipureintro; exact hf0
    iexact H0
  isplitl [H1]
  · iexists f1; isplitr; · ipureintro; exact hf1
    iexact H1
  · iexists _; isplitr; swap; · iexact H2
    ipureintro
    -- the two loads read `X0` and `X1`; the store's contents read back as the payload
    rw [readAt_unit_zero_view M0.view zeros₂, readAt_unit_zero_view M1.view zeros₂, hf0, hf1]
    exact read_write_unit_zero_view M2.view zeros₂ _ f2 _

/-! ## The mean body -/

/-- The mean body on whole staging memrefs `M0`, `M1`, `M2` (the three layers' blocks) and `M3` (the result): the three
    are handed back as they were, `M3` holding the payload — their sum times the named constant — whatever it held. -/
theorem sound_mean3 (c : Dev nD) (E : Set ℕ) (i : grid3.Coords)
    (M0 : Memref sig .tc .vmem S8192x64 .f32) (h0 : M0.IsWhole) (M1 : Memref sig .tc .vmem S8192x64 .f32) (h1 : M1.IsWhole)
    (M2 : Memref sig .tc .vmem S8192x64 .f32) (h2 : M2.IsWhole) (M3 : Memref sig .tc .vmem S8192x64 .f32) (h3 : M3.IsWhole)
    (X0 X1 X2 X3 : S8192x64.Idx → Elt F .f32) (K : PUnit → sProp 𝕄) :
    iprop((owns (c : Thread nD τ) M0 fullShare X0 ∗ owns (c : Thread nD τ) M1 fullShare X1 ∗ owns (c : Thread nD τ) M2 fullShare X2
            ∗ owns (c : Thread nD τ) M3 fullShare X3)
          ∗ (iprop(owns (c : Thread nD τ) M0 fullShare X0 ∗ owns (c : Thread nD τ) M1 fullShare X1
                  ∗ owns (c : Thread nD τ) M2 fullShare X2 ∗ owns (c : Thread nD τ) M3 fullShare (k3_pay1 X0 X1 X2)) -∗ K ⟨⟩))
      ⊢ wp frame (wpE (defs₀ (F := F)) Variants.none c none) E (cc3__mean_kernel i M0 h0 M1 h1 M2 h2 M3 h3) K := by
  rw [cc3__mean_kernel_eq_skeleton]; unfold cc3__mean_kernel_skel owns
  simp only [Prog.lift, Prog.bind_op, Prog.bind_ret]
  iintro ⟨⟨⟨%f0, %hf0, H0⟩, ⟨%f1, %hf1, H1⟩, ⟨%f2, %hf2, H2⟩, ⟨%f3, %hf3, H3⟩⟩, Hk⟩
  sl_steps
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  · iexists _; isplitr; swap; · iexact H3
    ipureintro
    -- the three loads read `X0`, `X1` and `X2`; the store's contents read back as the payload
    rw [readAt_unit_zero_view M0.view zeros₂, readAt_unit_zero_view M1.view zeros₂, readAt_unit_zero_view M2.view zeros₂,
      hf0, hf1, hf2]
    exact read_write_unit_zero_view M3.view zeros₂ _ f3 _

end Cert.Kernel.Hand
-- ==== Proof.WPayCut0.lean ====
/-
  Edge-scale pass 0: the body's payload at an index, and its independence, on the rows inside the table, of what fills
  the operands' staging buffers past the table's end.

  The payload at row `p`, lane `q` of a block is the gathered block's element there times the weight of row `p`
  (`k0_pay1_apply`). The three windows share one index map and one block height (8192 rows of a 2400000-row table: 292
  whole blocks and a last one of 7936 rows), so a row the result's transfer moves is moved by the operands' transfers
  too, and there a filled block holds what was fetched (`payCut0`).
-/
import proofs.«403625_j20873541059099_2_alg».proof.Proof.WRegion0
import proofs.«403625_j20873541059099_2_alg».proof.Proof.LibFill
import proofs.«403625_j20873541059099_2_alg».proof.Proof.LibColumn
import Idealize.ShloMosaic.Lib.Pipeline.Value
import Idealize.ShloMosaic.Lib.ValueIdx

noncomputable section

namespace Cert.Kernel.Hand

open Cert.Kernel Cert.Kernel.Gen

open Idealize.ShloMosaic
open Idealize.ShloMosaic.TcCoe
open Idealize.ShloMosaic.ValueIdx
open Idealize.ShloMosaic.Pipeline (Dat Cfg Window)

variable {F : FTy → Type} [FloatOps F]

/-! ## The body's value at an index -/

/-- The scaled block at row `p`, lane `q`: the gathered block's element there times the weight of row `p`. The two
    shape casts are to the operands' own shapes; the weights' column is spread along the lanes. -/
theorem k0_pay1_apply (X0 : Vec F S8192x64 .f32) (X1 : Vec F S8192x1 .f32) (p : Fin 8192) (q : Fin 64) :
    k0_pay1 X0 X1 (ix2 p q) = FloatOps.mulf (X0 (ix2 p q)) (X1 (ix2 p (0 : Fin 1))) := by
  unfold k0_pay1
  show FloatOps.mulf (shapeCast S8192x64 X0 shapeCasts_S8192x64_S8192x64 (ix2 p q))
      (broadcastTo S8192x64 (shapeCast S8192x1 X1 shapeCasts_S8192x1_S8192x1) broadcasts_S8192x1_S8192x64 (ix2 p q)) = _
  rw [shapeCast_self, shapeCast_self]
  exact congrArg _ (Cert.Attn.Column.broadcastTo_a1_ab_apply (a := 8192) (b := 64) X1 broadcasts_S8192x1_S8192x64 p q)

/-- The same at any index of the block. -/
theorem k0_pay1_apply' (X0 : Vec F S8192x64 .f32) (X1 : Vec F S8192x1 .f32) (y : S8192x64.Idx) :
    k0_pay1 X0 X1 y = FloatOps.mulf (X0 y) (X1 (ix2 (y 0) (0 : Fin 1))) := by
  obtain ⟨p, q, rfl⟩ : ∃ (p : Fin 8192) (q : Fin 64), y = ix2 p q := ⟨y 0, y 1, eq_ix2 y⟩
  exact k0_pay1_apply X0 X1 p q

/-! ## The rows inside the table -/

/-- On the rows inside the table the scaled block does not see what fills its operands past the table's end: the three
    windows have one index map and one block height, so a row the result's transfer moves is moved by the gathered
    rows' transfer too, and (with lane 0, the weights' only lane) by the weights'. -/
theorem payCut0 : PayCut0 (F := F) := by
  intro i d0 d0' d1 d1' B0 B1
  have hy : ∀ y : S8192x64.Idx, (y 0).val < win0_2.xsize i 0 → (y 1).val < win0_2.xsize i 1 →
      k0_pay1 (win0_0.fill i d0 B0) (win0_1.fill i d1 B1) y = k0_pay1 (win0_0.fill i d0' B0) (win0_1.fill i d1' B1) y := by
    intro y h0 h1
    obtain ⟨p, q, rfl⟩ : ∃ (p : Fin 8192) (q : Fin 64), y = ix2 p q := ⟨y 0, y 1, eq_ix2 y⟩
    rw [k0_pay1_apply, k0_pay1_apply]
    have hm0 : win0_0.moved i (ix2 p q) = true := by
      rw [Window.moved_iff]
      intro a
      match a with
      | ⟨0, _⟩ => exact h0
      | ⟨1, _⟩ => exact h1
    have hm1 : win0_1.moved i (ix2 p (0 : Fin 1)) = true := by
      rw [Window.moved_iff]
      intro a
      match a with
      | ⟨0, _⟩ => exact h0
      | ⟨1, _⟩ => exact Pipeline.Clip.extent_pos (win0_1.hclip i 1) Nat.one_pos
    rw [Cert.Fill.fill_eq_of_moved win0_0 i d0 d0' B0 hm0, Cert.Fill.fill_eq_of_moved win0_1 i d1 d1' B1 hm1]
  funext j
  exact hy (win0_2.xinj i j) (j 0).isLt (j 1).isLt

end Cert.Kernel.Hand

end
-- ==== Proof.WPayCut1.lean ====
/-
  Edge-scale pass 1: the body's payload at an index, and its independence, on the rows inside the table, of what fills
  the operands' staging buffers past the table's end.

  The payload at row `p`, lane `q` of a block is the gathered block's element there times the weight of row `p`
  (`k1_pay1_apply`). The three windows share one index map and one block height (8192 rows of a 2400000-row table: 292
  whole blocks and a last one of 7936 rows), so a row the result's transfer moves is moved by the operands' transfers
  too, and there a filled block holds what was fetched (`payCut1`).
-/
import proofs.«403625_j20873541059099_2_alg».proof.Proof.WRegion1
import proofs.«403625_j20873541059099_2_alg».proof.Proof.LibFill
import proofs.«403625_j20873541059099_2_alg».proof.Proof.LibColumn
import Idealize.ShloMosaic.Lib.Pipeline.Value
import Idealize.ShloMosaic.Lib.ValueIdx

noncomputable section

namespace Cert.Kernel.Hand

open Cert.Kernel Cert.Kernel.Gen

open Idealize.ShloMosaic
open Idealize.ShloMosaic.TcCoe
open Idealize.ShloMosaic.ValueIdx
open Idealize.ShloMosaic.Pipeline (Dat Cfg Window)

variable {F : FTy → Type} [FloatOps F]

/-! ## The body's value at an index -/

/-- The scaled block at row `p`, lane `q`: the gathered block's element there times the weight of row `p`. The two
    shape casts are to the operands' own shapes; the weights' column is spread along the lanes. -/
theorem k1_pay1_apply (X0 : Vec F S8192x64 .f32) (X1 : Vec F S8192x1 .f32) (p : Fin 8192) (q : Fin 64) :
    k1_pay1 X0 X1 (ix2 p q) = FloatOps.mulf (X0 (ix2 p q)) (X1 (ix2 p (0 : Fin 1))) := by
  unfold k1_pay1
  show FloatOps.mulf (shapeCast S8192x64 X0 shapeCasts_S8192x64_S8192x64 (ix2 p q))
      (broadcastTo S8192x64 (shapeCast S8192x1 X1 shapeCasts_S8192x1_S8192x1) broadcasts_S8192x1_S8192x64 (ix2 p q)) = _
  rw [shapeCast_self, shapeCast_self]
  exact congrArg _ (Cert.Attn.Column.broadcastTo_a1_ab_apply (a := 8192) (b := 64) X1 broadcasts_S8192x1_S8192x64 p q)

/-- The same at any index of the block. -/
theorem k1_pay1_apply' (X0 : Vec F S8192x64 .f32) (X1 : Vec F S8192x1 .f32) (y : S8192x64.Idx) :
    k1_pay1 X0 X1 y = FloatOps.mulf (X0 y) (X1 (ix2 (y 0) (0 : Fin 1))) := by
  obtain ⟨p, q, rfl⟩ : ∃ (p : Fin 8192) (q : Fin 64), y = ix2 p q := ⟨y 0, y 1, eq_ix2 y⟩
  exact k1_pay1_apply X0 X1 p q

/-! ## The rows inside the table -/

/-- On the rows inside the table the scaled block does not see what fills its operands past the table's end: the three
    windows have one index map and one block height, so a row the result's transfer moves is moved by the gathered
    rows' transfer too, and (with lane 0, the weights' only lane) by the weights'. -/
theorem payCut1 : PayCut1 (F := F) := by
  intro i d0 d0' d1 d1' B0 B1
  have hy : ∀ y : S8192x64.Idx, (y 0).val < win1_2.xsize i 0 → (y 1).val < win1_2.xsize i 1 →
      k1_pay1 (win1_0.fill i d0 B0) (win1_1.fill i d1 B1) y = k1_pay1 (win1_0.fill i d0' B0) (win1_1.fill i d1' B1) y := by
    intro y h0 h1
    obtain ⟨p, q, rfl⟩ : ∃ (p : Fin 8192) (q : Fin 64), y = ix2 p q := ⟨y 0, y 1, eq_ix2 y⟩
    rw [k1_pay1_apply, k1_pay1_apply]
    have hm0 : win1_0.moved i (ix2 p q) = true := by
      rw [Window.moved_iff]
      intro a
      match a with
      | ⟨0, _⟩ => exact h0
      | ⟨1, _⟩ => exact h1
    have hm1 : win1_1.moved i (ix2 p (0 : Fin 1)) = true := by
      rw [Window.moved_iff]
      intro a
      match a with
      | ⟨0, _⟩ => exact h0
      | ⟨1, _⟩ => exact Pipeline.Clip.extent_pos (win1_1.hclip i 1) Nat.one_pos
    rw [Cert.Fill.fill_eq_of_moved win1_0 i d0 d0' B0 hm0, Cert.Fill.fill_eq_of_moved win1_1 i d1 d1' B1 hm1]
  funext j
  exact hy (win1_2.xinj i j) (j 0).isLt (j 1).isLt

end Cert.Kernel.Hand

end
-- ==== Proof.WPayCut2.lean ====
/-
  Edge-scale pass 2: the body's payload at an index, and its independence, on the rows inside the table, of what fills
  the operands' staging buffers past the table's end.

  The payload at row `p`, lane `q` of a block is the gathered block's element there times the weight of row `p`
  (`k2_pay1_apply`). The three windows share one index map and one block height (8192 rows of a 2400000-row table: 292
  whole blocks and a last one of 7936 rows), so a row the result's transfer moves is moved by the operands' transfers
  too, and there a filled block holds what was fetched (`payCut2`).
-/
import proofs.«403625_j20873541059099_2_alg».proof.Proof.WRegion2
import proofs.«403625_j20873541059099_2_alg».proof.Proof.LibFill
import proofs.«403625_j20873541059099_2_alg».proof.Proof.LibColumn
import Idealize.ShloMosaic.Lib.Pipeline.Value
import Idealize.ShloMosaic.Lib.ValueIdx

noncomputable section

namespace Cert.Kernel.Hand

open Cert.Kernel Cert.Kernel.Gen

open Idealize.ShloMosaic
open Idealize.ShloMosaic.TcCoe
open Idealize.ShloMosaic.ValueIdx
open Idealize.ShloMosaic.Pipeline (Dat Cfg Window)

variable {F : FTy → Type} [FloatOps F]

/-! ## The body's value at an index -/

/-- The scaled block at row `p`, lane `q`: the gathered block's element there times the weight of row `p`. The two
    shape casts are to the operands' own shapes; the weights' column is spread along the lanes. -/
theorem k2_pay1_apply (X0 : Vec F S8192x64 .f32) (X1 : Vec F S8192x1 .f32) (p : Fin 8192) (q : Fin 64) :
    k2_pay1 X0 X1 (ix2 p q) = FloatOps.mulf (X0 (ix2 p q)) (X1 (ix2 p (0 : Fin 1))) := by
  unfold k2_pay1
  show FloatOps.mulf (shapeCast S8192x64 X0 shapeCasts_S8192x64_S8192x64 (ix2 p q))
      (broadcastTo S8192x64 (shapeCast S8192x1 X1 shapeCasts_S8192x1_S8192x1) broadcasts_S8192x1_S8192x64 (ix2 p q)) = _
  rw [shapeCast_self, shapeCast_self]
  exact congrArg _ (Cert.Attn.Column.broadcastTo_a1_ab_apply (a := 8192) (b := 64) X1 broadcasts_S8192x1_S8192x64 p q)

/-- The same at any index of the block. -/
theorem k2_pay1_apply' (X0 : Vec F S8192x64 .f32) (X1 : Vec F S8192x1 .f32) (y : S8192x64.Idx) :
    k2_pay1 X0 X1 y = FloatOps.mulf (X0 y) (X1 (ix2 (y 0) (0 : Fin 1))) := by
  obtain ⟨p, q, rfl⟩ : ∃ (p : Fin 8192) (q : Fin 64), y = ix2 p q := ⟨y 0, y 1, eq_ix2 y⟩
  exact k2_pay1_apply X0 X1 p q

/-! ## The rows inside the table -/

/-- On the rows inside the table the scaled block does not see what fills its operands past the table's end: the three
    windows have one index map and one block height, so a row the result's transfer moves is moved by the gathered
    rows' transfer too, and (with lane 0, the weights' only lane) by the weights'. -/
theorem payCut2 : PayCut2 (F := F) := by
  intro i d0 d0' d1 d1' B0 B1
  have hy : ∀ y : S8192x64.Idx, (y 0).val < win2_2.xsize i 0 → (y 1).val < win2_2.xsize i 1 →
      k2_pay1 (win2_0.fill i d0 B0) (win2_1.fill i d1 B1) y = k2_pay1 (win2_0.fill i d0' B0) (win2_1.fill i d1' B1) y := by
    intro y h0 h1
    obtain ⟨p, q, rfl⟩ : ∃ (p : Fin 8192) (q : Fin 64), y = ix2 p q := ⟨y 0, y 1, eq_ix2 y⟩
    rw [k2_pay1_apply, k2_pay1_apply]
    have hm0 : win2_0.moved i (ix2 p q) = true := by
      rw [Window.moved_iff]
      intro a
      match a with
      | ⟨0, _⟩ => exact h0
      | ⟨1, _⟩ => exact h1
    have hm1 : win2_1.moved i (ix2 p (0 : Fin 1)) = true := by
      rw [Window.moved_iff]
      intro a
      match a with
      | ⟨0, _⟩ => exact h0
      | ⟨1, _⟩ => exact Pipeline.Clip.extent_pos (win2_1.hclip i 1) Nat.one_pos
    rw [Cert.Fill.fill_eq_of_moved win2_0 i d0 d0' B0 hm0, Cert.Fill.fill_eq_of_moved win2_1 i d1 d1' B1 hm1]
  funext j
  exact hy (win2_2.xinj i j) (j 0).isLt (j 1).isLt

end Cert.Kernel.Hand

end
-- ==== Proof.WPayCut3.lean ====
import proofs.«403625_j20873541059099_2_alg».proof.Proof.WRegion3
import Idealize.ShloMosaic.Lib.Pipeline.Value

/-! The mean body's value is pointwise in its three operands, so on the rows inside the table it reads only the rows
    inside the table of its operands. -/

noncomputable section

namespace Cert.Kernel.Hand

open Cert.Kernel Cert.Kernel.Gen
open Idealize.ShloMosaic
open Idealize.ShloMosaic.TcCoe
open Idealize.ShloMosaic.Pipeline (Dat Cfg Window)

variable {F : FTy → Type} [FloatOps F]

/-- The body's value at an index of the block is its value on the three operands' elements there: the three shape
    casts are to the same shape, and the sums and the product are elementwise. -/
theorem k3_pay1_pointwise (X0 X1 X2 : Vec F S8192x64 .f32) (j : S8192x64.Idx) :
    k3_pay1 X0 X1 X2 j = k3_pay1 (fun _ => X0 j) (fun _ => X1 j) (fun _ => X2 j) j := by
  unfold k3_pay1
  simp only [shapeCast_self]
  rfl

/-- Operands that agree at an index give the body's same value there. -/
theorem k3_pay1_congr (X0 X0' X1 X1' X2 X2' : Vec F S8192x64 .f32) (j : S8192x64.Idx)
    (h0 : X0 j = X0' j) (h1 : X1 j = X1' j) (h2 : X2 j = X2' j) : k3_pay1 X0 X1 X2 j = k3_pay1 X0' X1' X2' j := by
  rw [k3_pay1_pointwise X0 X1 X2 j, k3_pay1_pointwise X0' X1' X2' j, h0, h1, h2]

/-- On the rows inside the table the mean block reads only the rows inside the table of its operands: the four
    windows cut their blocks alike, and a filled block read on the filled part is the filling. -/
theorem payCut3 : PayCut3 (F := F) := by
  intro i d0 d0' d1 d1' d2 d2' B0 B1 B2
  funext j
  have h0 : ∀ d, win3_0.fill i d B0 (win3_3.xinj i j) = B0 j := fun d => win3_0.fill_xinj i d B0 j
  have h1 : ∀ d, win3_1.fill i d B1 (win3_3.xinj i j) = B1 j := fun d => win3_1.fill_xinj i d B1 j
  have h2 : ∀ d, win3_2.fill i d B2 (win3_3.xinj i j) = B2 j := fun d => win3_2.fill_xinj i d B2 j
  show k3_pay1 _ _ _ (win3_3.xinj i j) = k3_pay1 _ _ _ (win3_3.xinj i j)
  exact k3_pay1_congr _ _ _ _ _ _ _ ((h0 d0).trans (h0 d0').symm) ((h1 d1).trans (h1 d1').symm) ((h2 d2).trans (h2 d2').symm)

end Cert.Kernel.Hand

end
-- ==== Proof.WKFrame.lean ====
import proofs.«403625_j20873541059099_2_alg».proof.Proof.WRecord0
import proofs.«403625_j20873541059099_2_alg».proof.Proof.WRecord1
import proofs.«403625_j20873541059099_2_alg».proof.Proof.WRecord2
import proofs.«403625_j20873541059099_2_alg».proof.Proof.WRecord3
import proofs.«403625_j20873541059099_2_alg».proof.Proof.WBodyRuns
import proofs.«403625_j20873541059099_2_alg».proof.Proof.WPayCut0
import proofs.«403625_j20873541059099_2_alg».proof.Proof.WPayCut1
import proofs.«403625_j20873541059099_2_alg».proof.Proof.WPayCut2
import proofs.«403625_j20873541059099_2_alg».proof.Proof.WPayCut3

/-! The frame of the whole program: @main's host stretches and its four passes chained through the generated conditional
    frame, each pass entered from the contents the items before it left and leaving what the pipeline library computes. -/

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What rides beside the buffers between items: the core owes nothing. -/
abbrev RestF (c : Dev nD) : sProp 𝕄 := iprop(∃ W, owes (c : Thread nD τ) (0 : CellTallies nD τ sig Unit) W)

set_option backward.isDefEq.respectTransparency.types false in
/-- From any memory with zero counters every weakly fair execution of @main terminates, and every final memory holds every
    argument as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_cond m (Ix := Unit) (U := UR sig nD τ) (Lvl := ℕ) emb₁ () Variants.none (fun _ => (∅ : Finset Unit)) (fun _ _ => (0 : ℕ)) (fun _ _ => rfl) ρ (outsK m) (pdatsK m)
    (fun _ => 0) (fun _ => iprop(emp)) (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (fun _ c => RestF c)
    (Pipeline.initEach _ _ fun c => by
      iintro ⟨⟨-, HO, -, -, -⟩, -⟩; imodintro; iexists ∅; iexact HO)
    (fun c => .rfl)
    (reg0 m sound_scale0 payCut0) (fun c => by rw [V2_eq]; exact .rfl) (fun c => by rw [V3_eq]; exact .rfl)
    (reg1 m sound_scale1 payCut1) (fun c => by rw [V5_eq]; exact .rfl) (fun c => by rw [V6_eq]; exact .rfl)
    (reg2 m sound_scale2 payCut2) (fun c => by rw [V8_eq]; exact .rfl) (fun c => by rw [V9_eq]; exact .rfl)
    (reg3 m sound_mean3 payCut3) (fun c => by rw [V10_eq]; exact .rfl) (fun c => by rw [V11_eq]; exact .rfl)

end Cert.Kernel.Hand

end
-- ==== Proof.KRun.lean ====
import proofs.«403625_j20873541059099_2_alg».proof.Proof.Record0
import proofs.«403625_j20873541059099_2_alg».proof.Proof.Record1
import proofs.«403625_j20873541059099_2_alg».proof.Proof.Record2
import proofs.«403625_j20873541059099_2_alg».proof.Proof.Record3
import proofs.«403625_j20873541059099_2_alg».proof.Proof.RunCond
import proofs.«403625_j20873541059099_2_alg».proof.Proof.BodyRuns
import proofs.«403625_j20873541059099_2_alg».proof.Proof.PayCut0
import proofs.«403625_j20873541059099_2_alg».proof.Proof.PayCut1
import proofs.«403625_j20873541059099_2_alg».proof.Proof.PayCut2
import proofs.«403625_j20873541059099_2_alg».proof.Proof.PayCut3

/-! The run of the whole program: @main's host stretches and its four passes chained through the conditional run, each
    pass entered from the contents the items before it left and leaving what the pipeline library computes. -/

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What rides beside the buffers between items: the core owes nothing. -/
abbrev Rest (c : Dev nD) : sProp 𝕄 := iprop(∃ W, owes (c : Thread nD τ) (0 : CellTallies nD τ sig Unit) W)

set_option backward.isDefEq.respectTransparency.types false in
/-- From any memory with zero counters every weakly fair execution of @main terminates; every final memory holds the two
    results at the last valuation's contents and every argument as launched. -/
theorem run_main : θ_run defs (onTc (τ := τ) (main (F := F))) ⟨m, fun _ => 0, ρ⟩ (fun r => ∀ c : Dev nD,
      r.2.mem ((c.tc : Thread nD τ).loc main_v18) = V12 m (outsK m) c main_v18
      ∧ r.2.mem ((c.tc : Thread nD τ).loc main_v19) = V12 m (outsK m) c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_cond m (Ix := Unit) (U := UR sig nD τ) (Lvl := ℕ) emb₁ () Variants.none (fun _ => (∅ : Finset Unit)) (fun _ _ => (0 : ℕ)) (fun _ _ => rfl) ρ (outsK m) (pdatsK m)
    (fun _ => 0) (fun _ => iprop(emp)) (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (fun _ c => Rest c)
    (Pipeline.initEach _ _ fun c => by
      iintro ⟨⟨-, HO, -, -, -⟩, -⟩; imodintro; iexists ∅; iexact HO)
    (fun c => .rfl)
    (reg0 m sound_scale0 payCut0) (fun c => by rw [V2_eq]; exact .rfl) (fun c => by rw [V3_eq]; exact .rfl)
    (reg1 m sound_scale1 payCut1) (fun c => by rw [V5_eq]; exact .rfl) (fun c => by rw [V6_eq]; exact .rfl)
    (reg2 m sound_scale2 payCut2) (fun c => by rw [V8_eq]; exact .rfl) (fun c => by rw [V9_eq]; exact .rfl)
    (reg3 m sound_mean3 payCut3) (fun c => by rw [V10_eq]; exact .rfl) (fun c => by rw [V11_eq]; exact .rfl)

end Cert.KernelIdeal.Hand

end
-- ==== Proof.Spec.lean ====
import proofs.«403625_j20873541059099_2_alg».proof.KernelIdeal
import Idealize.ShloMosaic.Lib.ValueIdx

/-! The idealized kernel program's result as whole-array functions of its arguments.

One message-passing layer sends a node table `x` to the table whose row `r` is the sum, over the edges `e`
with `rows e = r`, of `x (cols e) * vals e`; the program applies it three times to the concatenated
embedding table and returns the mean of the three layer outputs, cut into its first 100000 and last 50000 rows. -/

noncomputable section

namespace Cert.KernelIdeal.Hand

open Cert.KernelIdeal Idealize.ShloMosaic

variable {F : FTy → Type} [FloatOps F] [Named F] [Facts]
open Facts₀

/-- The edge-scale pass over the whole edge table: row `e` of `x`, every lane, times the weight of edge `e`. -/
def scaleArr (x : FVec F S2400000x64 .f32) (v : FVec F S2400000x1 .f32) : FVec F S2400000x64 .f32 :=
  fun i => FloatOps.mulf (x i) (v (ValueIdx.ix2 (n0 := 2400000) (n1 := 1) (i 0) 0))

/-- The mean of three node tables: their sum times the named third. -/
def meanArr (a b c : FVec F S150000x64 .f32) : FVec F S150000x64 .f32 :=
  fun i => FloatOps.mulf (FloatOps.addf (FloatOps.addf (a i) (b i)) (c i)) (Named.named κ "inv_3" (φ := .f32) 0x3EAAAAAB#32)

/-- The column indices as the gather takes them: a negative index counted from the end, as a column vector. -/
def wrapIdx (cols : IVec S2400000 32) : IVec S2400000x1 32 :=
  broadcastInDim S2400000x1 ![0] bcast_S2400000_S2400000x1_0
    (select (cmpi .slt cols (broadcastInDim S2400000 ![] bcast_S_S2400000 (constantI S_ 32 0#32)))
      (addi cols (broadcastInDim S2400000 ![] bcast_S_S2400000 (constantI S_ 32 150000#32))) cols)

/-- One layer: gather the rows of `x` at the edges' columns, scale by the edge weights, add up by the edges' rows. -/
def layerK (rows cols : IVec S2400000 32) (v2d : FVec F S2400000x1 .f32) (x : FVec F S150000x64 .f32) : FVec F S150000x64 .f32 :=
  Host.scatterAdd scatter_S150000x64_S2400000x1_S2400000x64_1_0_0_1
    (broadcastInDim S150000x64 ![] bcast_S_S150000x64 (constant S_ .f32 0x00000000#32))
    (broadcastInDim S2400000x1 ![0] bcast_S2400000_S2400000x1_0 rows)
    (scaleArr (Host.gather gather_S150000x64_S2400000x1_S2400000x64_1_0_n_n_0_1_164 x (wrapIdx cols)) v2d)

/-- The embedding table: users over items. -/
def egoK (u : FVec F S100000x64 .f32) (it : FVec F S50000x64 .f32) : FVec F S150000x64 .f32 :=
  concatenate S150000x64 0 [⟨S100000x64, u⟩, ⟨S50000x64, it⟩] concatenates_S100000x64_S50000x64_S150000x64_d0

/-- The mean of the three layer outputs. -/
def meanK (u : FVec F S100000x64 .f32) (it : FVec F S50000x64 .f32) (rows cols : IVec S2400000 32) (v2d : FVec F S2400000x1 .f32) :
    FVec F S150000x64 .f32 :=
  meanArr (layerK rows cols v2d (egoK u it)) (layerK rows cols v2d (layerK rows cols v2d (egoK u it)))
    (layerK rows cols v2d (layerK rows cols v2d (layerK rows cols v2d (egoK u it))))

end Cert.KernelIdeal.Hand

end
-- ==== Proof.Values0.lean ====
/-
  Edge-scale pass 0, read as values: what each grid point writes back, and the table the pass leaves.

  On the rows inside the table the operands' staging blocks hold the tables' own rows, so what point `t` writes back is
  block `t` of ONE whole-table function of the two operand tables, the scaled table (`flushed0_eq`). Row `r` of the
  table lies in the block of point `r / 8192` (the last block cut to the 7936 rows left), every point writes its block
  back, so the blocks cover the table and it ends holding the scaled table (`final0`).
-/
import proofs.«403625_j20873541059099_2_alg».proof.Proof.PayCut0
import proofs.«403625_j20873541059099_2_alg».proof.Proof.Spec
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.TcCoe
open Idealize.ShloMosaic.ValueIdx
open Idealize.ShloMosaic.Pipeline (Dat Cfg Window)

variable {F : FTy → Type} [FloatOps F] [Named F]

/-! ## What point `t` writes back -/

variable (V : (c : Dev nD) → (b : Ref sig .tc) → Buf (Elt F) ((c : Thread nD τ).loc b))

/-- The gathered block on a row inside the table: the array's element under the block (the gathered rows' window and
    the result's cut the table alike). -/
theorem gblk0_xinj (c : Dev nD) (t : Fin cfg0.N) (j : (win0_2.xblock (grid0.coords t)).Idx) :
    gblk0 V c t (win0_2.xinj (grid0.coords t) j)
      = (V c main_v2 : S2400000x64.Idx → Elt F .f32) ((win0_2.blk t).view.emb j) := by
  have key : ∀ j0 : (win0_0.xblock (grid0.coords t)).Idx, gblk0 V c t (win0_0.xinj (grid0.coords t) j0)
      = (V c main_v2 : S2400000x64.Idx → Elt F .f32) ((win0_0.blk t).view.emb j0) := by
    intro j0; unfold gblk0; rw [Window.fill_xinj]; rfl
  exact key j

/-- The weights' block on a row inside the table, at its one lane: the weight of that row of the table. -/
theorem vblk0_row (c : Dev nD) (t : Fin cfg0.N) (j : (win0_2.xblock (grid0.coords t)).Idx) :
    vblk0 V c t (ix2 (win0_2.xinj (grid0.coords t) j 0) (0 : Fin 1))
      = (V c main_v1 : S2400000x1.Idx → Elt F .f32) (ix2 ((win0_2.blk t).view.emb j 0) (0 : Fin 1)) := by
  have key : ∀ j1 : (win0_1.xblock (grid0.coords t)).Idx, vblk0 V c t (win0_1.xinj (grid0.coords t) j1)
      = (V c main_v1 : S2400000x1.Idx → Elt F .f32) ((win0_1.blk t).view.emb j1) := by
    intro j1; unfold vblk0; rw [Window.fill_xinj]; rfl
  -- the row as an index of the weights' moved part
  let j1 : (win0_1.xblock (grid0.coords t)).Idx := fun a => match a with
    | ⟨0, _⟩ => j 0
    | ⟨1, _⟩ => ⟨0, Pipeline.Clip.extent_pos (win0_1.hclip (grid0.coords t) 1) Nat.one_pos⟩
  have e1 : (ix2 (win0_2.xinj (grid0.coords t) j 0) (0 : Fin 1) : S8192x1.Idx) = win0_1.xinj (grid0.coords t) j1 := by
    funext a; match a with | ⟨0, _⟩ => rfl | ⟨1, _⟩ => rfl
  have e2 : (ix2 ((win0_2.blk t).view.emb j 0) (0 : Fin 1) : S2400000x1.Idx) = (win0_1.blk t).view.emb j1 := by
    funext a; match a with | ⟨0, _⟩ => rfl | ⟨1, _⟩ => rfl
  rw [e1, e2]
  exact key j1

/-- WHAT POINT `t` WRITES BACK is block `t` of the scaled table. -/
theorem flushed0_eq (c : Dev nD) (t : Fin cfg0.N) :
    (dat0 V c).flushed (2 : Fin 3) t = ((cfg0.win 2).blk t).view.read (Elt F) (scaleArr (V c main_v2) (V c main_v1)) := by
  funext j
  show k0_pay1 (gblk0 V c t) (vblk0 V c t) (win0_2.xinj (grid0.coords t) j)
    = scaleArr (V c main_v2) (V c main_v1) ((win0_2.blk t).view.emb j)
  rw [k0_pay1_apply', gblk0_xinj, vblk0_row]
  rfl

/-! ## From blocks to the table -/

/-- The grid has 293 points, -/
theorem N0 : cfg0.N = 293 := rfl

/-- and the result's block index at point `t` is `t` on the rows, zero on the lanes. -/
theorem index0_2_rows (t : Fin cfg0.N) : win0_2.index t (0 : Fin 2) = t.val := by
  have ht : t.val < 293 := N0 ▸ t.isLt
  show (BitVec.ofNat 32 (t.val / grid0.stride 0 % 293)).toNat = t.val
  rw [show grid0.stride 0 = 1 from rfl, BitVec.toNat_ofNat]
  omega

/-- The rows the result's transfer moves at point `t`: a whole block while the block ends inside the table, what is left of
    the table at the last point. -/
theorem xsize0_2_rows (t : Fin cfg0.N) :
    win0_2.xsize (grid0.coords t) (0 : Fin 2) = if (t.val + 1) * 8192 ≤ 2400000 then 8192 else 2400000 - t.val * 8192 := by
  show (Pipeline.Clip.of (win0_2.index t (0 : Fin 2)) 8192 2400000).extent 8192 = _
  rw [index0_2_rows]
  unfold Pipeline.Clip.of
  split <;> rfl

/-- An index of the table is in point `t`'s block iff each coordinate is in the block's moved range on its axis. -/
theorem mem_blk0_2 (t : Fin cfg0.N) (i : S2400000x64.Idx) :
    i ∈ ((cfg0.win 2).blk t).view.set ↔ ∀ a : Fin 2, win0_2.index t a * S8192x64.size a ≤ (i a).val
      ∧ (i a).val < win0_2.index t a * S8192x64.size a + win0_2.xsize (grid0.coords t) a := by
  show i ∈ ((View.whole main_v3).slice (win0_2.rect t)).set ↔ _
  rw [View.set_slice_whole, Rect.mem_set_unit]
  exact Iff.rfl

/-- Every row of the table is in the block of the point numbered by the row divided by the block height, which writes
    its block back. -/
theorem cover0_2 (i : S2400000x64.Idx) :
    ∃ t : Fin cfg0.N, (cfg0.win 2).flush t = true ∧ i ∈ ((cfg0.win 2).blk t).view.set := by
  have hi0 : (i 0).val < 2400000 := (i 0).isLt
  have hi1 : (i 1).val < 64 := (i 1).isLt
  refine ⟨⟨(i 0).val / 8192, by rw [N0]; omega⟩, flush0_2 _, ?_⟩
  rw [mem_blk0_2]
  intro a
  match a with
  | ⟨0, _⟩ =>
    show win0_2.index _ (0 : Fin 2) * 8192 ≤ (i 0).val ∧ (i 0).val < win0_2.index _ (0 : Fin 2) * 8192 + win0_2.xsize _ (0 : Fin 2)
    rw [index0_2_rows, xsize0_2_rows]
    show (i 0).val / 8192 * 8192 ≤ (i 0).val
      ∧ (i 0).val < (i 0).val / 8192 * 8192 + (if ((i 0).val / 8192 + 1) * 8192 ≤ 2400000 then 8192 else 2400000 - (i 0).val / 8192 * 8192)
    split <;> omega
  | ⟨1, _⟩ =>
    show 0 * 64 ≤ (i 1).val ∧ (i 1).val < 0 * 64 + 64
    omega

/-- THE TABLE after the pass: the scaled table. -/
theorem final0 (c : Dev nD) : (dat0 V c).arrAt (2 : Fin 3) cfg0.N = scaleArr (V c main_v2) (V c main_v1) :=
  (dat0 V c).arrAt_eq_of_cover 2 _ (fun t _ => flushed0_eq V c t) (fun i => cover0_2 i)

end Cert.KernelIdeal.Hand

end
-- ==== Proof.Values1.lean ====
/-
  Edge-scale pass 1, read as values: what each grid point writes back, and the table the pass leaves.

  On the rows inside the table the operands' staging blocks hold the tables' own rows, so what point `t` writes back is
  block `t` of ONE whole-table function of the two operand tables, the scaled table (`flushed1_eq`). Row `r` of the
  table lies in the block of point `r / 8192` (the last block cut to the 7936 rows left), every point writes its block
  back, so the blocks cover the table and it ends holding the scaled table (`final1`).
-/
import proofs.«403625_j20873541059099_2_alg».proof.Proof.PayCut1
import proofs.«403625_j20873541059099_2_alg».proof.Proof.Spec
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.TcCoe
open Idealize.ShloMosaic.ValueIdx
open Idealize.ShloMosaic.Pipeline (Dat Cfg Window)

variable {F : FTy → Type} [FloatOps F] [Named F]

/-! ## What point `t` writes back -/

variable (V : (c : Dev nD) → (b : Ref sig .tc) → Buf (Elt F) ((c : Thread nD τ).loc b))

/-- The gathered block on a row inside the table: the array's element under the block (the gathered rows' window and
    the result's cut the table alike). -/
theorem gblk1_xinj (c : Dev nD) (t : Fin cfg1.N) (j : (win1_2.xblock (grid1.coords t)).Idx) :
    gblk1 V c t (win1_2.xinj (grid1.coords t) j)
      = (V c main_v7 : S2400000x64.Idx → Elt F .f32) ((win1_2.blk t).view.emb j) := by
  have key : ∀ j0 : (win1_0.xblock (grid1.coords t)).Idx, gblk1 V c t (win1_0.xinj (grid1.coords t) j0)
      = (V c main_v7 : S2400000x64.Idx → Elt F .f32) ((win1_0.blk t).view.emb j0) := by
    intro j0; unfold gblk1; rw [Window.fill_xinj]; rfl
  exact key j

/-- The weights' block on a row inside the table, at its one lane: the weight of that row of the table. -/
theorem vblk1_row (c : Dev nD) (t : Fin cfg1.N) (j : (win1_2.xblock (grid1.coords t)).Idx) :
    vblk1 V c t (ix2 (win1_2.xinj (grid1.coords t) j 0) (0 : Fin 1))
      = (V c main_v1 : S2400000x1.Idx → Elt F .f32) (ix2 ((win1_2.blk t).view.emb j 0) (0 : Fin 1)) := by
  have key : ∀ j1 : (win1_1.xblock (grid1.coords t)).Idx, vblk1 V c t (win1_1.xinj (grid1.coords t) j1)
      = (V c main_v1 : S2400000x1.Idx → Elt F .f32) ((win1_1.blk t).view.emb j1) := by
    intro j1; unfold vblk1; rw [Window.fill_xinj]; rfl
  -- the row as an index of the weights' moved part
  let j1 : (win1_1.xblock (grid1.coords t)).Idx := fun a => match a with
    | ⟨0, _⟩ => j 0
    | ⟨1, _⟩ => ⟨0, Pipeline.Clip.extent_pos (win1_1.hclip (grid1.coords t) 1) Nat.one_pos⟩
  have e1 : (ix2 (win1_2.xinj (grid1.coords t) j 0) (0 : Fin 1) : S8192x1.Idx) = win1_1.xinj (grid1.coords t) j1 := by
    funext a; match a with | ⟨0, _⟩ => rfl | ⟨1, _⟩ => rfl
  have e2 : (ix2 ((win1_2.blk t).view.emb j 0) (0 : Fin 1) : S2400000x1.Idx) = (win1_1.blk t).view.emb j1 := by
    funext a; match a with | ⟨0, _⟩ => rfl | ⟨1, _⟩ => rfl
  rw [e1, e2]
  exact key j1

/-- WHAT POINT `t` WRITES BACK is block `t` of the scaled table. -/
theorem flushed1_eq (c : Dev nD) (t : Fin cfg1.N) :
    (dat1 V c).flushed (2 : Fin 3) t = ((cfg1.win 2).blk t).view.read (Elt F) (scaleArr (V c main_v7) (V c main_v1)) := by
  funext j
  show k1_pay1 (gblk1 V c t) (vblk1 V c t) (win1_2.xinj (grid1.coords t) j)
    = scaleArr (V c main_v7) (V c main_v1) ((win1_2.blk t).view.emb j)
  rw [k1_pay1_apply', gblk1_xinj, vblk1_row]
  rfl

/-! ## From blocks to the table -/

/-- The grid has 293 points, -/
theorem N1 : cfg1.N = 293 := rfl

/-- and the result's block index at point `t` is `t` on the rows, zero on the lanes. -/
theorem index1_2_rows (t : Fin cfg1.N) : win1_2.index t (0 : Fin 2) = t.val := by
  have ht : t.val < 293 := N1 ▸ t.isLt
  show (BitVec.ofNat 32 (t.val / grid1.stride 0 % 293)).toNat = t.val
  rw [show grid1.stride 0 = 1 from rfl, BitVec.toNat_ofNat]
  omega

/-- The rows the result's transfer moves at point `t`: a whole block while the block ends inside the table, what is left of
    the table at the last point. -/
theorem xsize1_2_rows (t : Fin cfg1.N) :
    win1_2.xsize (grid1.coords t) (0 : Fin 2) = if (t.val + 1) * 8192 ≤ 2400000 then 8192 else 2400000 - t.val * 8192 := by
  show (Pipeline.Clip.of (win1_2.index t (0 : Fin 2)) 8192 2400000).extent 8192 = _
  rw [index1_2_rows]
  unfold Pipeline.Clip.of
  split <;> rfl

/-- An index of the table is in point `t`'s block iff each coordinate is in the block's moved range on its axis. -/
theorem mem_blk1_2 (t : Fin cfg1.N) (i : S2400000x64.Idx) :
    i ∈ ((cfg1.win 2).blk t).view.set ↔ ∀ a : Fin 2, win1_2.index t a * S8192x64.size a ≤ (i a).val
      ∧ (i a).val < win1_2.index t a * S8192x64.size a + win1_2.xsize (grid1.coords t) a := by
  show i ∈ ((View.whole main_v8).slice (win1_2.rect t)).set ↔ _
  rw [View.set_slice_whole, Rect.mem_set_unit]
  exact Iff.rfl

/-- Every row of the table is in the block of the point numbered by the row divided by the block height, which writes
    its block back. -/
theorem cover1_2 (i : S2400000x64.Idx) :
    ∃ t : Fin cfg1.N, (cfg1.win 2).flush t = true ∧ i ∈ ((cfg1.win 2).blk t).view.set := by
  have hi0 : (i 0).val < 2400000 := (i 0).isLt
  have hi1 : (i 1).val < 64 := (i 1).isLt
  refine ⟨⟨(i 0).val / 8192, by rw [N1]; omega⟩, flush1_2 _, ?_⟩
  rw [mem_blk1_2]
  intro a
  match a with
  | ⟨0, _⟩ =>
    show win1_2.index _ (0 : Fin 2) * 8192 ≤ (i 0).val ∧ (i 0).val < win1_2.index _ (0 : Fin 2) * 8192 + win1_2.xsize _ (0 : Fin 2)
    rw [index1_2_rows, xsize1_2_rows]
    show (i 0).val / 8192 * 8192 ≤ (i 0).val
      ∧ (i 0).val < (i 0).val / 8192 * 8192 + (if ((i 0).val / 8192 + 1) * 8192 ≤ 2400000 then 8192 else 2400000 - (i 0).val / 8192 * 8192)
    split <;> omega
  | ⟨1, _⟩ =>
    show 0 * 64 ≤ (i 1).val ∧ (i 1).val < 0 * 64 + 64
    omega

/-- THE TABLE after the pass: the scaled table. -/
theorem final1 (c : Dev nD) : (dat1 V c).arrAt (2 : Fin 3) cfg1.N = scaleArr (V c main_v7) (V c main_v1) :=
  (dat1 V c).arrAt_eq_of_cover 2 _ (fun t _ => flushed1_eq V c t) (fun i => cover1_2 i)

end Cert.KernelIdeal.Hand

end
-- ==== Proof.Values2.lean ====
/-
  Edge-scale pass 2, read as values: what each grid point writes back, and the table the pass leaves.

  On the rows inside the table the operands' staging blocks hold the tables' own rows, so what point `t` writes back is
  block `t` of ONE whole-table function of the two operand tables, the scaled table (`flushed2_eq`). Row `r` of the
  table lies in the block of point `r / 8192` (the last block cut to the 7936 rows left), every point writes its block
  back, so the blocks cover the table and it ends holding the scaled table (`final2`).
-/
import proofs.«403625_j20873541059099_2_alg».proof.Proof.PayCut2
import proofs.«403625_j20873541059099_2_alg».proof.Proof.Spec
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.TcCoe
open Idealize.ShloMosaic.ValueIdx
open Idealize.ShloMosaic.Pipeline (Dat Cfg Window)

variable {F : FTy → Type} [FloatOps F] [Named F]

/-! ## What point `t` writes back -/

variable (V : (c : Dev nD) → (b : Ref sig .tc) → Buf (Elt F) ((c : Thread nD τ).loc b))

/-- The gathered block on a row inside the table: the array's element under the block (the gathered rows' window and
    the result's cut the table alike). -/
theorem gblk2_xinj (c : Dev nD) (t : Fin cfg2.N) (j : (win2_2.xblock (grid2.coords t)).Idx) :
    gblk2 V c t (win2_2.xinj (grid2.coords t) j)
      = (V c main_v12 : S2400000x64.Idx → Elt F .f32) ((win2_2.blk t).view.emb j) := by
  have key : ∀ j0 : (win2_0.xblock (grid2.coords t)).Idx, gblk2 V c t (win2_0.xinj (grid2.coords t) j0)
      = (V c main_v12 : S2400000x64.Idx → Elt F .f32) ((win2_0.blk t).view.emb j0) := by
    intro j0; unfold gblk2; rw [Window.fill_xinj]; rfl
  exact key j

/-- The weights' block on a row inside the table, at its one lane: the weight of that row of the table. -/
theorem vblk2_row (c : Dev nD) (t : Fin cfg2.N) (j : (win2_2.xblock (grid2.coords t)).Idx) :
    vblk2 V c t (ix2 (win2_2.xinj (grid2.coords t) j 0) (0 : Fin 1))
      = (V c main_v1 : S2400000x1.Idx → Elt F .f32) (ix2 ((win2_2.blk t).view.emb j 0) (0 : Fin 1)) := by
  have key : ∀ j1 : (win2_1.xblock (grid2.coords t)).Idx, vblk2 V c t (win2_1.xinj (grid2.coords t) j1)
      = (V c main_v1 : S2400000x1.Idx → Elt F .f32) ((win2_1.blk t).view.emb j1) := by
    intro j1; unfold vblk2; rw [Window.fill_xinj]; rfl
  -- the row as an index of the weights' moved part
  let j1 : (win2_1.xblock (grid2.coords t)).Idx := fun a => match a with
    | ⟨0, _⟩ => j 0
    | ⟨1, _⟩ => ⟨0, Pipeline.Clip.extent_pos (win2_1.hclip (grid2.coords t) 1) Nat.one_pos⟩
  have e1 : (ix2 (win2_2.xinj (grid2.coords t) j 0) (0 : Fin 1) : S8192x1.Idx) = win2_1.xinj (grid2.coords t) j1 := by
    funext a; match a with | ⟨0, _⟩ => rfl | ⟨1, _⟩ => rfl
  have e2 : (ix2 ((win2_2.blk t).view.emb j 0) (0 : Fin 1) : S2400000x1.Idx) = (win2_1.blk t).view.emb j1 := by
    funext a; match a with | ⟨0, _⟩ => rfl | ⟨1, _⟩ => rfl
  rw [e1, e2]
  exact key j1

/-- WHAT POINT `t` WRITES BACK is block `t` of the scaled table. -/
theorem flushed2_eq (c : Dev nD) (t : Fin cfg2.N) :
    (dat2 V c).flushed (2 : Fin 3) t = ((cfg2.win 2).blk t).view.read (Elt F) (scaleArr (V c main_v12) (V c main_v1)) := by
  funext j
  show k2_pay1 (gblk2 V c t) (vblk2 V c t) (win2_2.xinj (grid2.coords t) j)
    = scaleArr (V c main_v12) (V c main_v1) ((win2_2.blk t).view.emb j)
  rw [k2_pay1_apply', gblk2_xinj, vblk2_row]
  rfl

/-! ## From blocks to the table -/

/-- The grid has 293 points, -/
theorem N2 : cfg2.N = 293 := rfl

/-- and the result's block index at point `t` is `t` on the rows, zero on the lanes. -/
theorem index2_2_rows (t : Fin cfg2.N) : win2_2.index t (0 : Fin 2) = t.val := by
  have ht : t.val < 293 := N2 ▸ t.isLt
  show (BitVec.ofNat 32 (t.val / grid2.stride 0 % 293)).toNat = t.val
  rw [show grid2.stride 0 = 1 from rfl, BitVec.toNat_ofNat]
  omega

/-- The rows the result's transfer moves at point `t`: a whole block while the block ends inside the table, what is left of
    the table at the last point. -/
theorem xsize2_2_rows (t : Fin cfg2.N) :
    win2_2.xsize (grid2.coords t) (0 : Fin 2) = if (t.val + 1) * 8192 ≤ 2400000 then 8192 else 2400000 - t.val * 8192 := by
  show (Pipeline.Clip.of (win2_2.index t (0 : Fin 2)) 8192 2400000).extent 8192 = _
  rw [index2_2_rows]
  unfold Pipeline.Clip.of
  split <;> rfl

/-- An index of the table is in point `t`'s block iff each coordinate is in the block's moved range on its axis. -/
theorem mem_blk2_2 (t : Fin cfg2.N) (i : S2400000x64.Idx) :
    i ∈ ((cfg2.win 2).blk t).view.set ↔ ∀ a : Fin 2, win2_2.index t a * S8192x64.size a ≤ (i a).val
      ∧ (i a).val < win2_2.index t a * S8192x64.size a + win2_2.xsize (grid2.coords t) a := by
  show i ∈ ((View.whole main_v13).slice (win2_2.rect t)).set ↔ _
  rw [View.set_slice_whole, Rect.mem_set_unit]
  exact Iff.rfl

/-- Every row of the table is in the block of the point numbered by the row divided by the block height, which writes
    its block back. -/
theorem cover2_2 (i : S2400000x64.Idx) :
    ∃ t : Fin cfg2.N, (cfg2.win 2).flush t = true ∧ i ∈ ((cfg2.win 2).blk t).view.set := by
  have hi0 : (i 0).val < 2400000 := (i 0).isLt
  have hi1 : (i 1).val < 64 := (i 1).isLt
  refine ⟨⟨(i 0).val / 8192, by rw [N2]; omega⟩, flush2_2 _, ?_⟩
  rw [mem_blk2_2]
  intro a
  match a with
  | ⟨0, _⟩ =>
    show win2_2.index _ (0 : Fin 2) * 8192 ≤ (i 0).val ∧ (i 0).val < win2_2.index _ (0 : Fin 2) * 8192 + win2_2.xsize _ (0 : Fin 2)
    rw [index2_2_rows, xsize2_2_rows]
    show (i 0).val / 8192 * 8192 ≤ (i 0).val
      ∧ (i 0).val < (i 0).val / 8192 * 8192 + (if ((i 0).val / 8192 + 1) * 8192 ≤ 2400000 then 8192 else 2400000 - (i 0).val / 8192 * 8192)
    split <;> omega
  | ⟨1, _⟩ =>
    show 0 * 64 ≤ (i 1).val ∧ (i 1).val < 0 * 64 + 64
    omega

/-- THE TABLE after the pass: the scaled table. -/
theorem final2 (c : Dev nD) : (dat2 V c).arrAt (2 : Fin 3) cfg2.N = scaleArr (V c main_v12) (V c main_v1) :=
  (dat2 V c).arrAt_eq_of_cover 2 _ (fun t _ => flushed2_eq V c t) (fun i => cover2_2 i)

end Cert.KernelIdeal.Hand

end
-- ==== Proof.Values3.lean ====
import proofs.«403625_j20873541059099_2_alg».proof.Proof.PayCut3
import proofs.«403625_j20873541059099_2_alg».proof.Proof.Spec
import Idealize.ShloMosaic.Lib.Pipeline.Value
import Idealize.ShloMosaic.Lib.ValueIdx

/-! The mean pass's values: what each grid point writes back is its block of the mean of the three node tables, and
    the nineteen blocks cover the table, so the result table ends holding the mean. -/

noncomputable section

namespace Cert.KernelIdeal.Hand

open Cert.KernelIdeal Cert.KernelIdeal.Gen
open Idealize.ShloMosaic
open Idealize.ShloMosaic.TcCoe
open Idealize.ShloMosaic.Pipeline (Dat Cfg Window)

variable {F : FTy → Type} [FloatOps F] [Named F]

/-- The body's value at an index of the block: the sum of the three operands there, times the named third. -/
theorem k3_pay1_apply (X0 X1 X2 : Vec F S8192x64 .f32) (j : S8192x64.Idx) :
    k3_pay1 X0 X1 X2 j
      = FloatOps.mulf (FloatOps.addf (FloatOps.addf (X0 j) (X1 j)) (X2 j)) (Named.named κ "inv_3" (φ := .f32) 0x3EAAAAAB#32) := by
  unfold k3_pay1
  simp only [shapeCast_self]
  rfl

variable (V : (c : Dev nD) → (b : Ref sig .tc) → Buf (Elt F) ((c : Thread nD τ).loc b))

/-! ## What a point writes back -/

/-- WHAT POINT `t` WRITES BACK is block `t` of the mean of the three node tables: the body's value at a row inside the
    table reads the three operands' blocks at that row, each the table's row at the same place. -/
theorem flushed3_eq (c : Dev nD) (t : Fin cfg3.N) :
    (dat3 V c).flushed (3 : Fin 4) t
      = ((cfg3.win 3).blk t).view.read (Elt F) (meanArr (V c main_v6) (V c main_v11) (V c main_v16)) := by
  show win3_3.cut (grid3.coords t) ((dat3 V c).after (3 : Fin 4) t) = _
  dsimp only [dat3]
  unfold oblk3 ablk3 bblk3 cblk3
  funext j
  have h0 : ∀ d, win3_0.fill (grid3.coords t) d ((win3_0.blk t).view.read (Elt F) (V c main_v6)) (win3_3.xinj (grid3.coords t) j)
      = (win3_0.blk t).view.read (Elt F) (V c main_v6) j := fun d => win3_0.fill_xinj _ d _ j
  have h1 : ∀ d, win3_1.fill (grid3.coords t) d ((win3_1.blk t).view.read (Elt F) (V c main_v11)) (win3_3.xinj (grid3.coords t) j)
      = (win3_1.blk t).view.read (Elt F) (V c main_v11) j := fun d => win3_1.fill_xinj _ d _ j
  have h2 : ∀ d, win3_2.fill (grid3.coords t) d ((win3_2.blk t).view.read (Elt F) (V c main_v16)) (win3_3.xinj (grid3.coords t) j)
      = (win3_2.blk t).view.read (Elt F) (V c main_v16) j := fun d => win3_2.fill_xinj _ d _ j
  show k3_pay1 _ _ _ (win3_3.xinj (grid3.coords t) j) = _
  rw [k3_pay1_apply, h0, h1, h2]
  rfl

/-! ## From the blocks to the table -/

/-- An index of the table is in point `t`'s block iff each coordinate is in the block's range on its axis, the block
    cut at the table's end. -/
theorem mem_blk3 (t : Fin cfg3.N) (i : S150000x64.Idx) :
    i ∈ ((cfg3.win 3).blk t).view.set
      ↔ ∀ a : Fin 2, win3_3.index t a * S8192x64.size a ≤ (i a).val
          ∧ (i a).val < win3_3.index t a * S8192x64.size a + win3_3.xsize (grid3.coords t) a := by
  show i ∈ ((View.whole main_v17).slice (win3_3.rect t)).set ↔ _
  rw [View.set_slice_whole, Rect.mem_set_unit]
  exact Iff.rfl

/-- The printed index map and the cuts, decided over the nineteen points: point `t`'s block is block `t` of the rows and
    all 64 lanes; it has 8192 rows but for the last, which has the 2544 rows left. -/
theorem idx_facts3 : ∀ t : Fin cfg3.N, win3_3.index t (0 : Fin 2) = t.val ∧ win3_3.index t (1 : Fin 2) = 0
    ∧ win3_3.xsize (grid3.coords t) (0 : Fin 2) = (if t.val < 18 then 8192 else 2544)
    ∧ win3_3.xsize (grid3.coords t) (1 : Fin 2) = 64 :=
  (by decide +kernel : ∀ t : Fin grid3.N, _)

/-- Every index of the table is in some point's block: row `r` is in block `r / 8192`. -/
theorem cover3 (i : S150000x64.Idx) :
    ∃ t : Fin cfg3.N, (cfg3.win 3).flush t = true ∧ i ∈ ((cfg3.win 3).blk t).view.set := by
  have hi0 : (i 0).val < 150000 := (i 0).isLt
  have hi1 : (i 1).val < 64 := (i 1).isLt
  have hlt : (i 0).val / 8192 < 19 := by omega
  let t : Fin cfg3.N := ⟨(i 0).val / 8192, hlt⟩
  have ht : t.val = (i 0).val / 8192 := rfl
  obtain ⟨e0, e1, e2, e3⟩ := idx_facts3 t
  refine ⟨t, flush3_3 t, ?_⟩
  rw [mem_blk3]
  intro a
  match a with
  | ⟨0, _⟩ =>
    show win3_3.index t (0 : Fin 2) * 8192 ≤ (i 0).val
      ∧ (i 0).val < win3_3.index t (0 : Fin 2) * 8192 + win3_3.xsize (grid3.coords t) (0 : Fin 2)
    rw [e0, e2]
    by_cases h18 : t.val < 18
    · rw [if_pos h18]; omega
    · rw [if_neg h18]; omega
  | ⟨1, _⟩ =>
    show win3_3.index t (1 : Fin 2) * 64 ≤ (i 1).val
      ∧ (i 1).val < win3_3.index t (1 : Fin 2) * 64 + win3_3.xsize (grid3.coords t) (1 : Fin 2)
    rw [e1, e3]; omega

/-- THE RESULT TABLE after the pass: the mean of the three node tables. -/
theorem final3 (c : Dev nD) :
    (dat3 V c).arrAt (3 : Fin 4) cfg3.N = meanArr (V c main_v6) (V c main_v11) (V c main_v16) :=
  (dat3 V c).arrAt_eq_of_cover 3 _ (fun t _ => flushed3_eq V c t) cover3

end Cert.KernelIdeal.Hand

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.TakeValue.lean ====
/-
  What the outlined `take` leaves in its result buffer.

  The take is in fill mode: the signed index table is wrapped the NumPy way (a negative index counts from the end of
  the 150000 rows), every wrapped index is tested `0 ≤ s ≤ 149999`, the test is reduced by `and` along the one-column
  axis and broadcast along the 64 columns, and the result is the gather of the operand table at the wrapped indices
  where the test passed and a NaN literal elsewhere. If every index lies in `[-150000, 150000)` as a signed integer,
  every wrapped index lies in `[0, 150000)`, the test passes everywhere, the mask is 1 everywhere, and the select is its
  first branch: the plain gather at the wrapped indices. The three calls of the take differ in the operand table and
  the buffers they name, not in this argument; the pure fact is stated once (`masked_take_eq`) and each call's line of
  operations is read down to it.
-/
import proofs.«403625_j20873541059099_2_alg».proof.Proof.Gen.KernelIdeal.Launch
import Idealize.ShloMosaic.Lib.StableHlo.Run
import proofs.«403625_j20873541059099_2_alg».proof.Proof.LibIndexWrap
import proofs.«403625_j20873541059099_2_alg».proof.Proof.LibTRef

noncomputable section

namespace Cert.KernelIdeal.Hand

open Idealize.ShloMosaic Idealize.ShloMosaic.TcCoe
open Cert.KernelIdeal.Gen

variable {F : FTy → Type} [FloatOps F] [Named F]

/-- The index table wrapped the NumPy way: a negative index counts from the end of the 150000 rows. -/
abbrev wrapped (idx : IVec S2400000 32) : IVec S2400000 32 :=
  select (cmpi .slt idx (broadcastInDim S2400000 ![] bcast_S_S2400000 (constantI S_ 32 0#32)))
    (addi idx (broadcastInDim S2400000 ![] bcast_S_S2400000 (constantI S_ 32 150000#32))) idx

/-- The wrapped index table as the one-column start-index table of the gather. -/
abbrev starts (idx : IVec S2400000 32) : IVec S2400000x1 32 :=
  broadcastInDim S2400000x1 ![0] bcast_S2400000_S2400000x1_0 (wrapped idx)

/-- The in-range mask of the fill-mode take: the test `0 ≤ s ≤ 149999` of every start index, reduced by `and`
    along the one column. -/
abbrev inRange (idx : IVec S2400000 32) : IVec S2400000 1 :=
  Host.reduce IntOp.andi
    (andi (cmpi .sge (starts idx) (broadcastInDim S2400000x1 ![] bcast_S_S2400000x1 (constantI S_ 32 0#32)))
      (cmpi .sle (starts idx) (broadcastInDim S2400000x1 ![0, 1] bcast_S1x1_S2400000x1_0_1
        (broadcastInDim S1x1 ![1] bcast_S1_S1x1_1 (constantI S1 32 149999#32)))))
    (constantI S_ 1 1#1) reducesTo_S2400000x1_S2400000_d1 h_S_

/-- Under the range hypothesis every bit of the in-range mask is 1. -/
theorem inRange_ones (idx : IVec S2400000 32)
    (hr : ∀ e : S2400000.Idx, -(150000 : Int) ≤ (idx e).toInt ∧ (idx e).toInt < 150000) (j : S2400000.Idx) :
    inRange idx j = 1#1 := by
  refine IndexWrap.reduce_andi_of_all _ _ _ _ (fun _ => rfl) (fun k => ?_) j
  exact IndexWrap.rangeTest_wrap 150000 (by decide) (by decide) 149999#32 (by decide) _ (hr _).1 (hr _).2

/-- Under the range hypothesis the fill-mode take is the plain gather at the wrapped indices. -/
theorem masked_take_eq (x : FVec F S150000x64 .f32) (idx : IVec S2400000 32)
    (hr : ∀ e : S2400000.Idx, -(150000 : Int) ≤ (idx e).toInt ∧ (idx e).toInt < 150000) :
    select (broadcastInDim S2400000x64 ![0] bcast_S2400000_S2400000x64_0 (inRange idx))
        (Host.gather gather_S150000x64_S2400000x1_S2400000x64_1_0_n_n_0_1_164 x (starts idx))
        (broadcastInDim S2400000x64 ![] bcast_S_S2400000x64 (constant S_ .f32 0x7FC00000#32))
      = Host.gather gather_S150000x64_S2400000x1_S2400000x64_1_0_n_n_0_1_164 x (starts idx) :=
  IndexWrap.select_of_ones _ _ _ fun i => inRange_ones idx hr _

set_option maxHeartbeats 4000000 in
/-- Call 0 of the take: after its operations, from any contents `W` whose index table is in range, the result
    buffer holds the plain gather of the operand table at the wrapped indices. -/
theorem take0_value (W : Valuation τ sig (Elt F))
    (hr : ∀ e : S2400000.Idx, -(150000 : Int) ≤ ((W main_arg3 : IVec S2400000 32) e).toInt ∧ ((W main_arg3 : IVec S2400000 32) e).toInt < 150000) :
    (StableHlo.after hostOps0_1 W main_v2 : FVec F S2400000x64 .f32)
      = Host.gather gather_S150000x64_S2400000x1_S2400000x64_1_0_n_n_0_1_164 (W main_v0)
          (broadcastInDim S2400000x1 ![0] bcast_S2400000_S2400000x1_0
            (select (cmpi .slt (W main_arg3) (broadcastInDim S2400000 ![] bcast_S_S2400000 (constantI S_ 32 0#32)))
              (addi (W main_arg3) (broadcastInDim S2400000 ![] bcast_S_S2400000 (constantI S_ 32 150000#32))) (W main_arg3))) := by
  dsimp only [hostOps0_1]
  after_results_simp
  simp only [StableHlo.TRef.ofBuf_toBuf]
  simp only [StableHlo.TRef.toBuf, StableHlo.TRef.ofBuf, cast_eq]
  exact masked_take_eq _ _ hr

set_option maxHeartbeats 4000000 in
/-- Call 1 of the take: after its operations, from any contents `W` whose index table is in range, the result
    buffer holds the plain gather of the operand table at the wrapped indices. -/
theorem take1_value (W : Valuation τ sig (Elt F))
    (hr : ∀ e : S2400000.Idx, -(150000 : Int) ≤ ((W main_arg3 : IVec S2400000 32) e).toInt ∧ ((W main_arg3 : IVec S2400000 32) e).toInt < 150000) :
    (StableHlo.after hostOps1_1 W main_v7 : FVec F S2400000x64 .f32)
      = Host.gather gather_S150000x64_S2400000x1_S2400000x64_1_0_n_n_0_1_164 (W main_v6)
          (broadcastInDim S2400000x1 ![0] bcast_S2400000_S2400000x1_0
            (select (cmpi .slt (W main_arg3) (broadcastInDim S2400000 ![] bcast_S_S2400000 (constantI S_ 32 0#32)))
              (addi (W main_arg3) (broadcastInDim S2400000 ![] bcast_S_S2400000 (constantI S_ 32 150000#32))) (W main_arg3))) := by
  dsimp only [hostOps1_1]
  after_results_simp
  simp only [StableHlo.TRef.ofBuf_toBuf]
  simp only [StableHlo.TRef.toBuf, StableHlo.TRef.ofBuf, cast_eq]
  exact masked_take_eq _ _ hr

set_option maxHeartbeats 4000000 in
/-- Call 2 of the take: after its operations, from any contents `W` whose index table is in range, the result
    buffer holds the plain gather of the operand table at the wrapped indices. -/
theorem take2_value (W : Valuation τ sig (Elt F))
    (hr : ∀ e : S2400000.Idx, -(150000 : Int) ≤ ((W main_arg3 : IVec S2400000 32) e).toInt ∧ ((W main_arg3 : IVec S2400000 32) e).toInt < 150000) :
    (StableHlo.after hostOps2_1 W main_v12 : FVec F S2400000x64 .f32)
      = Host.gather gather_S150000x64_S2400000x1_S2400000x64_1_0_n_n_0_1_164 (W main_v11)
          (broadcastInDim S2400000x1 ![0] bcast_S2400000_S2400000x1_0
            (select (cmpi .slt (W main_arg3) (broadcastInDim S2400000 ![] bcast_S_S2400000 (constantI S_ 32 0#32)))
              (addi (W main_arg3) (broadcastInDim S2400000 ![] bcast_S_S2400000 (constantI S_ 32 150000#32))) (W main_arg3))) := by
  dsimp only [hostOps2_1]
  after_results_simp
  simp only [StableHlo.TRef.ofBuf_toBuf]
  simp only [StableHlo.TRef.toBuf, StableHlo.TRef.ofBuf, cast_eq]
  exact masked_take_eq _ _ hr

end Cert.KernelIdeal.Hand
-- ==== Proof.HostValues.lean ====
/-
  The host side of the program, item by item: what every buffer the result depends on holds between the items.

  The program alternates host stretches and kernel passes. The first stretch builds the embedding table (users over
  items) and the column of edge weights. Then, three times: a take gathers the current table's rows at the edges'
  wrapped column indices; a kernel pass scales the gathered rows by the edge weights (what it leaves is a hypothesis
  here); a scatter-add sums the scaled rows by the edges' row indices into a table of zeros. That is one layer of
  message passing. A last kernel pass takes the mean of the three layer outputs (again a hypothesis), and the last
  stretch cuts the mean into its first 100000 and its last 50000 rows. No stretch and no pass writes the index tables
  or the weight column, so they are the launch contents throughout.
-/
import proofs.«403625_j20873541059099_2_alg».proof.Proof.Gen.KernelIdeal.Regions
import proofs.«403625_j20873541059099_2_alg».proof.Proof.Spec
import proofs.«403625_j20873541059099_2_alg».proof.Proof.TakeValue
import proofs.«403625_j20873541059099_2_alg».proof.Proof.LibColumn
import Idealize.ShloMosaic.Lib.StableHlo.Run

noncomputable section

namespace Cert.KernelIdeal.Hand

open Idealize.ShloMosaic Idealize.ShloMosaic.TcCoe
open Cert.KernelIdeal.Gen

variable {F : FTy → Type} [FloatOps F] [Named F]

/-! ## Each host stretch, read from any contents -/

/-- The first stretch leaves the embedding table: the users' rows over the items'. -/
theorem ops0_v0 (W : Valuation τ sig (Elt F)) :
    (StableHlo.after hostOps0 W main_v0 : FVec F S150000x64 .f32) = egoK (W main_arg0) (W main_arg1) := by
  dsimp only [hostOps0]
  after_results
  rfl

/-- The first stretch leaves the edge weights as a column: entry `(e, 0)` is weight `e`. -/
theorem ops0_v1 (W : Valuation τ sig (Elt F)) (e : Fin 2400000) :
    (StableHlo.after hostOps0 W main_v1 : FVec F S2400000x1 .f32) (ValueIdx.ix2 e (0 : Fin 1))
      = (W main_arg4 : FVec F S2400000 .f32) (ValueIdx.ix1 e) := by
  dsimp only [hostOps0]
  after_results
  exact Cert.Attn.Column.shapeCast_a_a1_apply _ _ e 0

/-- The scatter-add stretch of layer 0: the scaled rows summed by the edges' row indices into zeros. -/
theorem ops1_v6 (W : Valuation τ sig (Elt F)) :
    (StableHlo.after hostOps1 W main_v6 : FVec F S150000x64 .f32)
      = Host.scatterAdd scatter_S150000x64_S2400000x1_S2400000x64_1_0_0_1
        (broadcastInDim S150000x64 ![] bcast_S_S150000x64 (constant S_ .f32 0x00000000#32))
        (broadcastInDim S2400000x1 ![0] bcast_S2400000_S2400000x1_0 (W main_arg2)) (W main_v3) := by
  dsimp only [hostOps1]
  after_results

/-- The scatter-add stretch of layer 1. -/
theorem ops2_v11 (W : Valuation τ sig (Elt F)) :
    (StableHlo.after hostOps2 W main_v11 : FVec F S150000x64 .f32)
      = Host.scatterAdd scatter_S150000x64_S2400000x1_S2400000x64_1_0_0_1
        (broadcastInDim S150000x64 ![] bcast_S_S150000x64 (constant S_ .f32 0x00000000#32))
        (broadcastInDim S2400000x1 ![0] bcast_S2400000_S2400000x1_0 (W main_arg2)) (W main_v8) := by
  dsimp only [hostOps2]
  after_results

/-- The scatter-add stretch of layer 2. -/
theorem ops3_v16 (W : Valuation τ sig (Elt F)) :
    (StableHlo.after hostOps3 W main_v16 : FVec F S150000x64 .f32)
      = Host.scatterAdd scatter_S150000x64_S2400000x1_S2400000x64_1_0_0_1
        (broadcastInDim S150000x64 ![] bcast_S_S150000x64 (constant S_ .f32 0x00000000#32))
        (broadcastInDim S2400000x1 ![0] bcast_S2400000_S2400000x1_0 (W main_arg2)) (W main_v13) := by
  dsimp only [hostOps3]
  after_results

/-- The last stretch: the first 100000 rows of the mean. -/
theorem ops4_v18 (W : Valuation τ sig (Elt F)) :
    (StableHlo.after hostOps4 W main_v18 : FVec F S100000x64 .f32)
      = extractStridedSlice S100000x64 ![0, 0] (W main_v17) slices_S150000x64_S100000x64_0_0 := by
  dsimp only [hostOps4]
  after_results

/-- The last stretch: the last 50000 rows of the mean. -/
theorem ops4_v19 (W : Valuation τ sig (Elt F)) :
    (StableHlo.after hostOps4 W main_v19 : FVec F S50000x64 .f32)
      = extractStridedSlice S50000x64 ![100000, 0] (W main_v17) slices_S150000x64_S50000x64_100000_0 := by
  dsimp only [hostOps4]
  after_results

/-- One layer, as the three items spell it: the gather at the wrapped indices, scaled, summed into zeros. -/
theorem layerK_eq (rows cols : IVec S2400000 32) (v2d : FVec F S2400000x1 .f32) (x : FVec F S150000x64 .f32) :
    Host.scatterAdd scatter_S150000x64_S2400000x1_S2400000x64_1_0_0_1
        (broadcastInDim S150000x64 ![] bcast_S_S150000x64 (constant S_ .f32 0x00000000#32))
        (broadcastInDim S2400000x1 ![0] bcast_S2400000_S2400000x1_0 rows)
        (scaleArr (Host.gather gather_S150000x64_S2400000x1_S2400000x64_1_0_n_n_0_1_164 x
          (broadcastInDim S2400000x1 ![0] bcast_S2400000_S2400000x1_0
            (select (cmpi .slt cols (broadcastInDim S2400000 ![] bcast_S_S2400000 (constantI S_ 32 0#32)))
              (addi cols (broadcastInDim S2400000 ![] bcast_S_S2400000 (constantI S_ 32 150000#32))) cols))) v2d)
      = layerK rows cols v2d x := rfl

/-! ## The buffers between the items -/

section Chain

variable (m : (ℓ : Loc nD τ sig) → Buf (Elt F) ℓ) (outs : Outs (F := F)) (c : Dev nD)

/-- The weight column after the first stretch: entry `(e, 0)` is the launch weight of edge `e`. -/
theorem vals2d_apply (e : Fin 2400000) :
    (V1 m c main_v1 : FVec F S2400000x1 .f32) (ValueIdx.ix2 e (0 : Fin 1))
      = (m ((c : Thread nD τ).loc main_arg4) : FVec F S2400000 .f32) (ValueIdx.ix1 e) :=
  ops0_v1 (V0 m c) e

/-- After the first stretch the table buffer holds the embedding table. -/
theorem V1_v0 : (V1 m c main_v0 : FVec F S150000x64 .f32) = (egoK (m ((c : Thread nD τ).loc main_arg0)) (m ((c : Thread nD τ).loc main_arg1))) := ops0_v0 (V0 m c)

/-! ### Layer 0 -/

/-- The first take: the embedding table's rows at the wrapped column indices. -/
theorem V2_v2 (hr : ∀ e : S2400000.Idx, -(150000 : Int) ≤ ((m ((c : Thread nD τ).loc main_arg3) : IVec S2400000 32) e).toInt ∧ ((m ((c : Thread nD τ).loc main_arg3) : IVec S2400000 32) e).toInt < 150000) :
    (V2 m c main_v2 : FVec F S2400000x64 .f32) = Host.gather gather_S150000x64_S2400000x1_S2400000x64_1_0_n_n_0_1_164 (egoK (m ((c : Thread nD τ).loc main_arg0)) (m ((c : Thread nD τ).loc main_arg1))) (wrapIdx (m ((c : Thread nD τ).loc main_arg3))) :=
  (take0_value (V1 m c) (fun e => by rw [(V1_of m c main_arg3 (by decide))]; exact hr e)).trans <| by
    rw [V1_v0 m c, (V1_of m c main_arg3 (by decide))]; rfl

/-- What the first scale pass leaves, over the launch contents. -/
theorem V3_v3 (hr : ∀ e : S2400000.Idx, -(150000 : Int) ≤ ((m ((c : Thread nD τ).loc main_arg3) : IVec S2400000 32) e).toInt ∧ ((m ((c : Thread nD τ).loc main_arg3) : IVec S2400000 32) e).toInt < 150000) (h3 : outs 3 main_v3 c = scaleArr (V2 m c main_v2) (V2 m c main_v1)) :
    (V3 m outs c main_v3 : FVec F S2400000x64 .f32) = scaleArr (Host.gather gather_S150000x64_S2400000x1_S2400000x64_1_0_n_n_0_1_164 (egoK (m ((c : Thread nD τ).loc main_arg0)) (m ((c : Thread nD τ).loc main_arg1))) (wrapIdx (m ((c : Thread nD τ).loc main_arg3)))) (V1 m c main_v1) := by
  have hs : V3 m outs c main_v3 = outs 3 main_v3 c := Function.update_self _ _ _
  rw [hs, h3, V2_v2 m c hr, (V2_of m c main_v1 (by decide))]

/-- The first layer's output. -/
theorem V4_v6 (hr : ∀ e : S2400000.Idx, -(150000 : Int) ≤ ((m ((c : Thread nD τ).loc main_arg3) : IVec S2400000 32) e).toInt ∧ ((m ((c : Thread nD τ).loc main_arg3) : IVec S2400000 32) e).toInt < 150000) (h3 : outs 3 main_v3 c = scaleArr (V2 m c main_v2) (V2 m c main_v1)) :
    (V4 m outs c main_v6 : FVec F S150000x64 .f32) = (layerK (m ((c : Thread nD τ).loc main_arg2)) (m ((c : Thread nD τ).loc main_arg3)) (V1 m c main_v1) (egoK (m ((c : Thread nD τ).loc main_arg0)) (m ((c : Thread nD τ).loc main_arg1)))) :=
  (ops1_v6 (V3 m outs c)).trans <| by
    rw [V3_v3 m outs c hr h3, (V3_of m outs c main_arg2 (by decide)).trans <| (V2_of m c main_arg2 (by decide)).trans <| (V1_of m c main_arg2 (by decide))]; rfl

/-! ### Layer 1 -/

/-- The second take: the first layer's rows at the wrapped column indices. -/
theorem V5_v7 (hr : ∀ e : S2400000.Idx, -(150000 : Int) ≤ ((m ((c : Thread nD τ).loc main_arg3) : IVec S2400000 32) e).toInt ∧ ((m ((c : Thread nD τ).loc main_arg3) : IVec S2400000 32) e).toInt < 150000) (h3 : outs 3 main_v3 c = scaleArr (V2 m c main_v2) (V2 m c main_v1)) :
    (V5 m outs c main_v7 : FVec F S2400000x64 .f32) = Host.gather gather_S150000x64_S2400000x1_S2400000x64_1_0_n_n_0_1_164 (layerK (m ((c : Thread nD τ).loc main_arg2)) (m ((c : Thread nD τ).loc main_arg3)) (V1 m c main_v1) (egoK (m ((c : Thread nD τ).loc main_arg0)) (m ((c : Thread nD τ).loc main_arg1)))) (wrapIdx (m ((c : Thread nD τ).loc main_arg3))) :=
  (take1_value (V4 m outs c) (fun e => by rw [(V4_of m outs c main_arg3 (by decide)).trans <| (V3_of m outs c main_arg3 (by decide)).trans <| (V2_of m c main_arg3 (by decide)).trans <| (V1_of m c main_arg3 (by decide))]; exact hr e)).trans <| by
    rw [V4_v6 m outs c hr h3, (V4_of m outs c main_arg3 (by decide)).trans <| (V3_of m outs c main_arg3 (by decide)).trans <| (V2_of m c main_arg3 (by decide)).trans <| (V1_of m c main_arg3 (by decide))]; rfl

/-- What the second scale pass leaves. -/
theorem V6_v8 (hr : ∀ e : S2400000.Idx, -(150000 : Int) ≤ ((m ((c : Thread nD τ).loc main_arg3) : IVec S2400000 32) e).toInt ∧ ((m ((c : Thread nD τ).loc main_arg3) : IVec S2400000 32) e).toInt < 150000) (h3 : outs 3 main_v3 c = scaleArr (V2 m c main_v2) (V2 m c main_v1)) (h6 : outs 6 main_v8 c = scaleArr (V5 m outs c main_v7) (V5 m outs c main_v1)) :
    (V6 m outs c main_v8 : FVec F S2400000x64 .f32) = scaleArr (Host.gather gather_S150000x64_S2400000x1_S2400000x64_1_0_n_n_0_1_164 (layerK (m ((c : Thread nD τ).loc main_arg2)) (m ((c : Thread nD τ).loc main_arg3)) (V1 m c main_v1) (egoK (m ((c : Thread nD τ).loc main_arg0)) (m ((c : Thread nD τ).loc main_arg1)))) (wrapIdx (m ((c : Thread nD τ).loc main_arg3)))) (V1 m c main_v1) := by
  have hs : V6 m outs c main_v8 = outs 6 main_v8 c := Function.update_self _ _ _
  rw [hs, h6, V5_v7 m outs c hr h3, (V5_of m outs c main_v1 (by decide)).trans <| (V4_of m outs c main_v1 (by decide)).trans <| (V3_of m outs c main_v1 (by decide)).trans <| (V2_of m c main_v1 (by decide))]

/-- The second layer's output. -/
theorem V7_v11 (hr : ∀ e : S2400000.Idx, -(150000 : Int) ≤ ((m ((c : Thread nD τ).loc main_arg3) : IVec S2400000 32) e).toInt ∧ ((m ((c : Thread nD τ).loc main_arg3) : IVec S2400000 32) e).toInt < 150000) (h3 : outs 3 main_v3 c = scaleArr (V2 m c main_v2) (V2 m c main_v1)) (h6 : outs 6 main_v8 c = scaleArr (V5 m outs c main_v7) (V5 m outs c main_v1)) :
    (V7 m outs c main_v11 : FVec F S150000x64 .f32) = (layerK (m ((c : Thread nD τ).loc main_arg2)) (m ((c : Thread nD τ).loc main_arg3)) (V1 m c main_v1) (layerK (m ((c : Thread nD τ).loc main_arg2)) (m ((c : Thread nD τ).loc main_arg3)) (V1 m c main_v1) (egoK (m ((c : Thread nD τ).loc main_arg0)) (m ((c : Thread nD τ).loc main_arg1))))) :=
  (ops2_v11 (V6 m outs c)).trans <| by
    rw [V6_v8 m outs c hr h3 h6, (V6_of m outs c main_arg2 (by decide)).trans <| (V5_of m outs c main_arg2 (by decide)).trans <| (V4_of m outs c main_arg2 (by decide)).trans <| (V3_of m outs c main_arg2 (by decide)).trans <| (V2_of m c main_arg2 (by decide)).trans <| (V1_of m c main_arg2 (by decide))]; rfl

/-! ### Layer 2 -/

/-- The third take: the second layer's rows at the wrapped column indices. -/
theorem V8_v12 (hr : ∀ e : S2400000.Idx, -(150000 : Int) ≤ ((m ((c : Thread nD τ).loc main_arg3) : IVec S2400000 32) e).toInt ∧ ((m ((c : Thread nD τ).loc main_arg3) : IVec S2400000 32) e).toInt < 150000) (h3 : outs 3 main_v3 c = scaleArr (V2 m c main_v2) (V2 m c main_v1)) (h6 : outs 6 main_v8 c = scaleArr (V5 m outs c main_v7) (V5 m outs c main_v1)) :
    (V8 m outs c main_v12 : FVec F S2400000x64 .f32) = Host.gather gather_S150000x64_S2400000x1_S2400000x64_1_0_n_n_0_1_164 (layerK (m ((c : Thread nD τ).loc main_arg2)) (m ((c : Thread nD τ).loc main_arg3)) (V1 m c main_v1) (layerK (m ((c : Thread nD τ).loc main_arg2)) (m ((c : Thread nD τ).loc main_arg3)) (V1 m c main_v1) (egoK (m ((c : Thread nD τ).loc main_arg0)) (m ((c : Thread nD τ).loc main_arg1))))) (wrapIdx (m ((c : Thread nD τ).loc main_arg3))) :=
  (take2_value (V7 m outs c) (fun e => by rw [(V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m c main_arg3 (by decide)).trans <| (V1_of m c main_arg3 (by decide))]; exact hr e)).trans <| by
    rw [V7_v11 m outs c hr h3 h6, (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m c main_arg3 (by decide)).trans <| (V1_of m c main_arg3 (by decide))]; rfl

/-- What the third scale pass leaves. -/
theorem V9_v13 (hr : ∀ e : S2400000.Idx, -(150000 : Int) ≤ ((m ((c : Thread nD τ).loc main_arg3) : IVec S2400000 32) e).toInt ∧ ((m ((c : Thread nD τ).loc main_arg3) : IVec S2400000 32) e).toInt < 150000) (h3 : outs 3 main_v3 c = scaleArr (V2 m c main_v2) (V2 m c main_v1)) (h6 : outs 6 main_v8 c = scaleArr (V5 m outs c main_v7) (V5 m outs c main_v1)) (h9 : outs 9 main_v13 c = scaleArr (V8 m outs c main_v12) (V8 m outs c main_v1)) :
    (V9 m outs c main_v13 : FVec F S2400000x64 .f32) = scaleArr (Host.gather gather_S150000x64_S2400000x1_S2400000x64_1_0_n_n_0_1_164 (layerK (m ((c : Thread nD τ).loc main_arg2)) (m ((c : Thread nD τ).loc main_arg3)) (V1 m c main_v1) (layerK (m ((c : Thread nD τ).loc main_arg2)) (m ((c : Thread nD τ).loc main_arg3)) (V1 m c main_v1) (egoK (m ((c : Thread nD τ).loc main_arg0)) (m ((c : Thread nD τ).loc main_arg1))))) (wrapIdx (m ((c : Thread nD τ).loc main_arg3)))) (V1 m c main_v1) := by
  have hs : V9 m outs c main_v13 = outs 9 main_v13 c := Function.update_self _ _ _
  rw [hs, h9, V8_v12 m outs c hr h3 h6, (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m c main_v1 (by decide))]

/-- The third layer's output. -/
theorem V10_v16 (hr : ∀ e : S2400000.Idx, -(150000 : Int) ≤ ((m ((c : Thread nD τ).loc main_arg3) : IVec S2400000 32) e).toInt ∧ ((m ((c : Thread nD τ).loc main_arg3) : IVec S2400000 32) e).toInt < 150000) (h3 : outs 3 main_v3 c = scaleArr (V2 m c main_v2) (V2 m c main_v1)) (h6 : outs 6 main_v8 c = scaleArr (V5 m outs c main_v7) (V5 m outs c main_v1)) (h9 : outs 9 main_v13 c = scaleArr (V8 m outs c main_v12) (V8 m outs c main_v1)) :
    (V10 m outs c main_v16 : FVec F S150000x64 .f32) = (layerK (m ((c : Thread nD τ).loc main_arg2)) (m ((c : Thread nD τ).loc main_arg3)) (V1 m c main_v1) (layerK (m ((c : Thread nD τ).loc main_arg2)) (m ((c : Thread nD τ).loc main_arg3)) (V1 m c main_v1) (layerK (m ((c : Thread nD τ).loc main_arg2)) (m ((c : Thread nD τ).loc main_arg3)) (V1 m c main_v1) (egoK (m ((c : Thread nD τ).loc main_arg0)) (m ((c : Thread nD τ).loc main_arg1)))))) :=
  (ops3_v16 (V9 m outs c)).trans <| by
    rw [V9_v13 m outs c hr h3 h6 h9, (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m outs c main_arg2 (by decide)).trans <| (V2_of m c main_arg2 (by decide)).trans <| (V1_of m c main_arg2 (by decide))]; rfl

/-! ### The mean and the result -/

/-- What the mean pass leaves: the mean of the three layer outputs. -/
theorem V11_v17 (hr : ∀ e : S2400000.Idx, -(150000 : Int) ≤ ((m ((c : Thread nD τ).loc main_arg3) : IVec S2400000 32) e).toInt ∧ ((m ((c : Thread nD τ).loc main_arg3) : IVec S2400000 32) e).toInt < 150000) (h3 : outs 3 main_v3 c = scaleArr (V2 m c main_v2) (V2 m c main_v1)) (h6 : outs 6 main_v8 c = scaleArr (V5 m outs c main_v7) (V5 m outs c main_v1)) (h9 : outs 9 main_v13 c = scaleArr (V8 m outs c main_v12) (V8 m outs c main_v1)) (h11 : outs 11 main_v17 c = meanArr (V10 m outs c main_v6) (V10 m outs c main_v11) (V10 m outs c main_v16)) :
    (V11 m outs c main_v17 : FVec F S150000x64 .f32)
      = meanK (m ((c : Thread nD τ).loc main_arg0)) (m ((c : Thread nD τ).loc main_arg1)) (m ((c : Thread nD τ).loc main_arg2)) (m ((c : Thread nD τ).loc main_arg3)) (V1 m c main_v1) := by
  have hs : V11 m outs c main_v17 = outs 11 main_v17 c := Function.update_self _ _ _
  rw [hs, h11, (V10_of m outs c main_v6 (by decide)).trans <| (V9_of m outs c main_v6 (by decide)).trans <| (V8_of m outs c main_v6 (by decide)).trans <| (V7_of m outs c main_v6 (by decide)).trans <| (V6_of m outs c main_v6 (by decide)).trans <| (V5_of m outs c main_v6 (by decide)), V4_v6 m outs c hr h3,
    (V10_of m outs c main_v11 (by decide)).trans <| (V9_of m outs c main_v11 (by decide)).trans <| (V8_of m outs c main_v11 (by decide)), V7_v11 m outs c hr h3 h6, V10_v16 m outs c hr h3 h6 h9]
  rfl

/-- The program's two results: the first 100000 and the last 50000 rows of the mean of the three layer outputs. -/
theorem result_value (hr : ∀ e : S2400000.Idx, -(150000 : Int) ≤ ((m ((c : Thread nD τ).loc main_arg3) : IVec S2400000 32) e).toInt ∧ ((m ((c : Thread nD τ).loc main_arg3) : IVec S2400000 32) e).toInt < 150000) (h3 : outs 3 main_v3 c = scaleArr (V2 m c main_v2) (V2 m c main_v1)) (h6 : outs 6 main_v8 c = scaleArr (V5 m outs c main_v7) (V5 m outs c main_v1)) (h9 : outs 9 main_v13 c = scaleArr (V8 m outs c main_v12) (V8 m outs c main_v1)) (h11 : outs 11 main_v17 c = meanArr (V10 m outs c main_v6) (V10 m outs c main_v11) (V10 m outs c main_v16)) :
    (V12 m outs c main_v18 : FVec F S100000x64 .f32)
        = extractStridedSlice S100000x64 ![0, 0]
            (meanK (m ((c : Thread nD τ).loc main_arg0)) (m ((c : Thread nD τ).loc main_arg1)) (m ((c : Thread nD τ).loc main_arg2)) (m ((c : Thread nD τ).loc main_arg3)) (V1 m c main_v1))
            slices_S150000x64_S100000x64_0_0
      ∧ (V12 m outs c main_v19 : FVec F S50000x64 .f32)
        = extractStridedSlice S50000x64 ![100000, 0]
            (meanK (m ((c : Thread nD τ).loc main_arg0)) (m ((c : Thread nD τ).loc main_arg1)) (m ((c : Thread nD τ).loc main_arg2)) (m ((c : Thread nD τ).loc main_arg3)) (V1 m c main_v1))
            slices_S150000x64_S50000x64_100000_0 :=
  ⟨(ops4_v18 (V11 m outs c)).trans (by rw [V11_v17 m outs c hr h3 h6 h9 h11]),
   (ops4_v19 (V11 m outs c)).trans (by rw [V11_v17 m outs c hr h3 h6 h9 h11])⟩

end Chain

end Cert.KernelIdeal.Hand
-- ==== Proof.KValue.lean ====
import proofs.«403625_j20873541059099_2_alg».proof.Proof.KRun
import proofs.«403625_j20873541059099_2_alg».proof.Proof.Values0
import proofs.«403625_j20873541059099_2_alg».proof.Proof.Values1
import proofs.«403625_j20873541059099_2_alg».proof.Proof.Values2
import proofs.«403625_j20873541059099_2_alg».proof.Proof.Values3
import proofs.«403625_j20873541059099_2_alg».proof.Proof.HostValues

/-! The two results of the idealized program as whole-array functions of the arguments: each pass's result table is the
    pass's function of its operand tables (the written-back blocks cover the table), and the host stretches between the
    passes compose them into the mean of the three layer outputs. -/

noncomputable section

namespace Cert.KernelIdeal.Hand

open Cert.KernelIdeal Cert.KernelIdeal.Gen
open Idealize.ShloMosaic Idealize.ShloMosaic.TcCoe

variable {F : FTy → Type} [FloatOps F] [Named F]

variable (m : (ℓ : Loc nD τ sig) → Buf (Elt F) ℓ)

theorem pass0_value (c : Dev nD) : outsK m 3 main_v3 c = scaleArr (V2 m c main_v2) (V2 m c main_v1) := by
  rw [V2_eq]; exact (outs3 m c).trans (final0 (atRefs (W2 m)) c)
theorem pass1_value (c : Dev nD) : outsK m 6 main_v8 c = scaleArr (V5 m (outsK m) c main_v7) (V5 m (outsK m) c main_v1) := by
  rw [V5_eq]; exact (outs6 m c).trans (final1 (atRefs (W5 m)) c)
theorem pass2_value (c : Dev nD) : outsK m 9 main_v13 c = scaleArr (V8 m (outsK m) c main_v12) (V8 m (outsK m) c main_v1) := by
  rw [V8_eq]; exact (outs9 m c).trans (final2 (atRefs (W8 m)) c)
theorem pass3_value (c : Dev nD) :
    outsK m 11 main_v17 c = meanArr (V10 m (outsK m) c main_v6) (V10 m (outsK m) c main_v11) (V10 m (outsK m) c main_v16) := by
  rw [V10_eq]; exact (outs11 m c).trans (final3 (atRefs (W10 m)) c)

/-- Under the index range the two results are the two slices of the mean of the three layer outputs. -/
theorem kernel_value (c : Dev nD)
    (hr : ∀ e : S2400000.Idx, -(150000 : Int) ≤ ((m ((c : Thread nD τ).loc main_arg3) : IVec S2400000 32) e).toInt
      ∧ ((m ((c : Thread nD τ).loc main_arg3) : IVec S2400000 32) e).toInt < 150000) :
    (V12 m (outsK m) c main_v18 : FVec F S100000x64 .f32)
        = extractStridedSlice S100000x64 ![0, 0] (meanK (m ((c : Thread nD τ).loc main_arg0)) (m ((c : Thread nD τ).loc main_arg1)) (m ((c : Thread nD τ).loc main_arg2)) (m ((c : Thread nD τ).loc main_arg3)) (V1 m c main_v1)) slices_S150000x64_S100000x64_0_0
      ∧ (V12 m (outsK m) c main_v19 : FVec F S50000x64 .f32)
        = extractStridedSlice S50000x64 ![100000, 0] (meanK (m ((c : Thread nD τ).loc main_arg0)) (m ((c : Thread nD τ).loc main_arg1)) (m ((c : Thread nD τ).loc main_arg2)) (m ((c : Thread nD τ).loc main_arg3)) (V1 m c main_v1)) slices_S150000x64_S50000x64_100000_0 :=
  result_value m (outsK m) c hr (pass0_value m c) (pass1_value m c) (pass2_value m c) (pass3_value m c)

end Cert.KernelIdeal.Hand

end
-- ==== Proof.RefSide.lean ====
import proofs.«403625_j20873541059099_2_alg».proof.Proof.Gen.ReferenceIdeal.Run
import proofs.«403625_j20873541059099_2_alg».proof.Proof.Gen.ReferenceIdeal.Read
import proofs.«403625_j20873541059099_2_alg».proof.Proof.Spec
import Idealize.ShloMosaic.PureOps.Ideal.Laws
import Idealize.ShloMosaic.PureOps.IdealRules
import Idealize.ShloMosaic.Lib.ValueIdx
import Idealize.ShloMosaic.Lib.Pipeline.Value

/-! The reference's result and the kernel's whole-array function are one function on the extended reals.

One message-passing layer of the reference scales row `e` of the gathered table by `vals e` from the left, the
kernel's by the same weight from the right: the product of extended reals commutes. The reference averages
`((0 + a) + b) + c` by a quotient by `3`, the kernel `(a + b) + c` by a product with the named third: `0 + a = a`,
and a quotient by the real `3` is the product with the real `1/3` at every extended real, the infinities included. -/

noncomputable section

namespace Cert.RefSide

open Idealize.ShloMosaic Idealize.ShloMosaic.ValueIdx

/-! ## The constants -/

/-- The pattern of `3.0`, the reference's divisor, denotes the real `3`. -/
theorem ofBits_3 : Ideal.ofBits .f32 0x40400000#32 = ((3 : ℝ) : EReal) := by
  simp [Ideal.ofBits, Ideal.ieee, -EReal.coe_mul]; norm_num

/-- The kernel's named third denotes the rational `1/3`, by the certificate's table. -/
theorem inv_3 : Named.named (F := Ideal) Cert.KernelIdeal.κ "inv_3" (φ := .f32) 0x3EAAAAAB#32 = ((1 / 3 : ℝ) : EReal) :=
  IdealRules.named_const.ideal_named_scalar _ _ _ _ rfl

/-! ## The shape records of the two programs are the same records -/

theorem gather_eq [Cert.KernelIdeal.Facts] [Cert.ReferenceIdeal.Facts] :
    Cert.KernelIdeal.gather_S150000x64_S2400000x1_S2400000x64_1_0_n_n_0_1_164
      = Cert.ReferenceIdeal.gather_S150000x64_S2400000x1_S2400000x64_1_0_n_n_0_1_164 := rfl

theorem scatter_eq [Cert.KernelIdeal.Facts] [Cert.ReferenceIdeal.Facts] :
    Cert.KernelIdeal.scatter_S150000x64_S2400000x1_S2400000x64_1_0_0_1
      = Cert.ReferenceIdeal.scatter_S150000x64_S2400000x1_S2400000x64_1_0_0_1 := rfl

/-! ## The edge-scale pass -/

/-- The weight vector as a column, read at `(e, 0)`, is the weight of edge `e`. -/
theorem col_apply [Cert.ReferenceIdeal.Facts] (vals : FVec Ideal Cert.ReferenceIdeal.S2400000 .f32) (e : Fin 2400000) :
    broadcastInDim Cert.ReferenceIdeal.S2400000x1 ![0] Cert.ReferenceIdeal.Facts₀.bcast_S2400000_S2400000x1_0 vals
      (ix2 e (0 : Fin 1)) = vals (ix1 e) := by
  refine broadcastInDim_apply _ _ _ _ _ ?_
  intro a
  match a with
  | ⟨0, _⟩ => rfl

/-- The column broadcast along the 64 lanes, read at `(e, d)`, is the column at `(e, 0)`. -/
theorem lanes_apply [Cert.ReferenceIdeal.Facts] (v : FVec Ideal Cert.ReferenceIdeal.S2400000x1 .f32)
    (e : Fin 2400000) (d : Fin 64) :
    broadcastInDim Cert.ReferenceIdeal.S2400000x64 ![0, 1] Cert.ReferenceIdeal.Facts₀.bcast_S2400000x1_S2400000x64_0_1 v (ix2 e d)
      = v (ix2 e (0 : Fin 1)) := by
  refine broadcastInDim_apply _ _ _ _ _ ?_
  intro a
  match a with
  | ⟨0, _⟩ => rfl
  | ⟨1, _⟩ => rfl

/-- The kernel's edge-scale pass is the reference's product with the broadcast weights: at edge `e` and every lane
    both are the product of `x (e, lane)` and the weight of `e`, which commutes. -/
theorem scale_eq [Cert.KernelIdeal.Facts] [Cert.ReferenceIdeal.Facts] (x : FVec Ideal Cert.ReferenceIdeal.S2400000x64 .f32)
    (vals : FVec Ideal Cert.ReferenceIdeal.S2400000 .f32) (v2d : FVec Ideal Cert.ReferenceIdeal.S2400000x1 .f32)
    (hv : ∀ e : Fin 2400000, v2d (ix2 e (0 : Fin 1)) = vals (ix1 e)) :
    Cert.KernelIdeal.Hand.scaleArr (F := Ideal) x v2d
      = mulf (broadcastInDim Cert.ReferenceIdeal.S2400000x64 ![0, 1] Cert.ReferenceIdeal.Facts₀.bcast_S2400000x1_S2400000x64_0_1
          (broadcastInDim Cert.ReferenceIdeal.S2400000x1 ![0] Cert.ReferenceIdeal.Facts₀.bcast_S2400000_S2400000x1_0 vals)) x := by
  funext i
  obtain ⟨e, d, rfl⟩ : ∃ (e : Fin 2400000) (d : Fin 64), i = ix2 e d := ⟨i 0, i 1, eq_ix2 i⟩
  show x (ix2 e d) * v2d (ix2 e (0 : Fin 1)) = _ * x (ix2 e d)
  rw [lanes_apply, col_apply, hv, mul_comm]

/-! ## One layer, the mean, and the whole result -/

section
open Cert.ReferenceIdeal Cert.ReferenceIdeal.Facts₀

/-- One layer of the reference over a node table `x`: gather the rows of `x` at the edges' columns (a negative column
    counted from the end), scale by the edge weights, add up by the edges' rows. -/
def layerR [Cert.ReferenceIdeal.Facts] (rows cols : IVec S2400000 32) (vals : FVec Ideal S2400000 .f32)
    (x : FVec Ideal S150000x64 .f32) : FVec Ideal S150000x64 .f32 :=
  Host.scatterAdd scatter_S150000x64_S2400000x1_S2400000x64_1_0_0_1 (broadcastInDim S150000x64 ![] bcast_S_S150000x64 (constant (F := Ideal) S_ .f32 0x00000000#32)) (broadcastInDim S2400000x1 ![0] bcast_S2400000_S2400000x1_0 rows) (mulf (broadcastInDim S2400000x64 ![0, 1] bcast_S2400000x1_S2400000x64_0_1 (broadcastInDim S2400000x1 ![0] bcast_S2400000_S2400000x1_0 vals)) (Host.gather gather_S150000x64_S2400000x1_S2400000x64_1_0_n_n_0_1_164 x (broadcastInDim S2400000x1 ![0] bcast_S2400000_S2400000x1_0 (select (cmpi .slt cols (broadcastInDim S2400000 ![] bcast_S_S2400000 (constantI S_ 32 0#32))) (addi cols (broadcastInDim S2400000 ![] bcast_S_S2400000 (constantI S_ 32 150000#32))) cols))))

/-- The reference's embedding table: users over items. -/
def egoR [Cert.ReferenceIdeal.Facts] (u : FVec Ideal S100000x64 .f32) (it : FVec Ideal S50000x64 .f32) : FVec Ideal S150000x64 .f32 :=
  concatenate S150000x64 0 [⟨S100000x64, u⟩, ⟨S50000x64, it⟩] concatenates_S100000x64_S50000x64_S150000x64_d0

/-- The reference's result before its two slices: the sum of the zero table and the three layer outputs, over three. -/
def refMean [Cert.ReferenceIdeal.Facts] (u : FVec Ideal S100000x64 .f32) (it : FVec Ideal S50000x64 .f32)
    (rows cols : IVec S2400000 32) (vals : FVec Ideal S2400000 .f32) : FVec Ideal S150000x64 .f32 :=
  Host.divf (addf (addf (addf (broadcastInDim S150000x64 ![] bcast_S_S150000x64 (constant (F := Ideal) S_ .f32 0x00000000#32))
      (layerR rows cols vals (egoR u it)))
      (layerR rows cols vals (layerR rows cols vals (egoR u it))))
      (layerR rows cols vals (layerR rows cols vals (layerR rows cols vals (egoR u it)))))
    (broadcastInDim S150000x64 ![] bcast_S_S150000x64 (constant (F := Ideal) S_ .f32 0x40400000#32))

/-- The two programs build the same embedding table. -/
theorem ego_eq [Cert.KernelIdeal.Facts] [Cert.ReferenceIdeal.Facts] (u : FVec Ideal S100000x64 .f32) (it : FVec Ideal S50000x64 .f32) :
    Cert.KernelIdeal.Hand.egoK (F := Ideal) u it = egoR u it := rfl

/-- The kernel's layer is the reference's: the same gather and the same scatter-add of edge tables that agree
    (`scale_eq`). -/
theorem layer_eq [Cert.KernelIdeal.Facts] [Cert.ReferenceIdeal.Facts] (rows cols : IVec S2400000 32) (vals : FVec Ideal S2400000 .f32)
    (v2d : FVec Ideal S2400000x1 .f32) (hv : ∀ e : Fin 2400000, v2d (ix2 e (0 : Fin 1)) = vals (ix1 e))
    (x : FVec Ideal S150000x64 .f32) :
    Cert.KernelIdeal.Hand.layerK (F := Ideal) rows cols v2d x = layerR rows cols vals x := by
  unfold Cert.KernelIdeal.Hand.layerK layerR Cert.KernelIdeal.Hand.wrapIdx
  rw [scale_eq _ vals v2d hv]
  rfl

end

section
open Cert.ReferenceIdeal Cert.ReferenceIdeal.Facts₀

/-- The mean of three node tables: `((a + b) + c)` times the named third is `(((0 + a) + b) + c)` over three, at every
    extended real. -/
theorem mean_eq [Cert.KernelIdeal.Facts] [Cert.ReferenceIdeal.Facts] (a b c : FVec Ideal S150000x64 .f32) :
    Cert.KernelIdeal.Hand.meanArr (F := Ideal) a b c
      = Host.divf (addf (addf (addf (broadcastInDim S150000x64 ![] bcast_S_S150000x64 (constant (F := Ideal) S_ .f32 0x00000000#32)) a) b) c)
          (broadcastInDim S150000x64 ![] bcast_S_S150000x64 (constant (F := Ideal) S_ .f32 0x40400000#32)) := by
  funext i
  simp only [Cert.KernelIdeal.Hand.meanArr, Host.divf, addf, broadcastInDim, constant, Ideal.hostDivf_def,
    Ideal.addf_def, Ideal.mulf_def, Ideal.ofBits_def, ofBits_3, Ideal.ofBits_zero_f32, inv_3, zero_add,
    Ideal.div_coe (by norm_num : (3 : ℝ) ≠ 0)]

/-- The kernel's whole-array result is the reference's result before its two slices. -/
theorem mean_bridge [Cert.KernelIdeal.Facts] [Cert.ReferenceIdeal.Facts] (u : FVec Ideal S100000x64 .f32) (it : FVec Ideal S50000x64 .f32)
    (rows cols : IVec S2400000 32) (vals : FVec Ideal S2400000 .f32) (v2d : FVec Ideal S2400000x1 .f32)
    (hv : ∀ e : Fin 2400000, v2d (ix2 e (0 : Fin 1)) = vals (ix1 e)) :
    Cert.KernelIdeal.Hand.meanK (F := Ideal) u it rows cols v2d = refMean u it rows cols vals := by
  unfold Cert.KernelIdeal.Hand.meanK refMean
  rw [ego_eq]
  simp only [layer_eq rows cols vals v2d hv]
  exact mean_eq _ _ _

/-- The reference's first result is the first 100000 rows of the kernel's whole-array result. -/
theorem ref_out0 [Cert.KernelIdeal.Facts] [Cert.ReferenceIdeal.Facts] (m' : (ℓ : Loc nD τ sig) → Buf (Elt Ideal) ℓ) (c : Dev nD)
    (v2d : FVec Ideal S2400000x1 .f32)
    (hv : ∀ e : Fin 2400000, v2d (ix2 e (0 : Fin 1)) = (m' ((c.tc : Thread nD τ).loc main_arg4) : FVec Ideal S2400000 .f32) (ix1 e)) :
    Cert.ReferenceIdeal.Value.res_main_v46 (F := Ideal) m' c
      = extractStridedSlice S100000x64 ![0, 0]
          (Cert.KernelIdeal.Hand.meanK (F := Ideal) (m' ((c.tc : Thread nD τ).loc main_arg0)) (m' ((c.tc : Thread nD τ).loc main_arg1))
            (m' ((c.tc : Thread nD τ).loc main_arg2)) (m' ((c.tc : Thread nD τ).loc main_arg3)) v2d)
          slices_S150000x64_S100000x64_0_0 := by
  rw [mean_bridge _ _ _ _ _ v2d hv]
  rfl

/-- The reference's second result is the last 50000 rows of the kernel's whole-array result. -/
theorem ref_out1 [Cert.KernelIdeal.Facts] [Cert.ReferenceIdeal.Facts] (m' : (ℓ : Loc nD τ sig) → Buf (Elt Ideal) ℓ) (c : Dev nD)
    (v2d : FVec Ideal S2400000x1 .f32)
    (hv : ∀ e : Fin 2400000, v2d (ix2 e (0 : Fin 1)) = (m' ((c.tc : Thread nD τ).loc main_arg4) : FVec Ideal S2400000 .f32) (ix1 e)) :
    Cert.ReferenceIdeal.Value.res_main_v47 (F := Ideal) m' c
      = extractStridedSlice S50000x64 ![100000, 0]
          (Cert.KernelIdeal.Hand.meanK (F := Ideal) (m' ((c.tc : Thread nD τ).loc main_arg0)) (m' ((c.tc : Thread nD τ).loc main_arg1))
            (m' ((c.tc : Thread nD τ).loc main_arg2)) (m' ((c.tc : Thread nD τ).loc main_arg3)) v2d)
          slices_S150000x64_S50000x64_100000_0 := by
  rw [mean_bridge _ _ _ _ _ v2d hv]
  rfl

end

end Cert.RefSide

end
-- ==== Proof.PreRange.lean ====
/-
  The index range, read out of the printed precondition.

  The precondition is the conjunction of three finiteness tests and two tests of the column-index table: every entry
  is at least -150000 and every entry is below 150000, both signed. Each test is an `and`-reduction, from the bit 1, of
  a word compare against a broadcast scalar. If the whole conjunction is the bit 1, each reduction is 1, so each
  compared bit is 1 at every entry, which is the signed inequality of the entry against the constant.
-/
import proofs.«403625_j20873541059099_2_alg».proof.Pre_finite_inputs
import proofs.«403625_j20873541059099_2_alg».proof.Proof.Gen.Pre_finite_inputs
import Idealize.ShloMosaic.Lib.ReduceAll
import Idealize.ShloMosaic.Lib.StableHlo.Predicate

namespace Cert.KernelIdeal.Hand

open Idealize.ShloMosaic
open Cert.Pre_finite_inputs

/-- A rank-0 shape has one index. -/
instance subsingleton_scalar_idx : Subsingleton S_.Idx := ⟨fun a b => funext fun d => d.elim0⟩

/-- Under the printed precondition every column index lies in `[-150000, 150000)` as a signed integer. -/
theorem cols_range {F : FTy → Type} [FloatOps F] [Cert.Pre_finite_inputs.Facts]
    (a0 : FVec F S100000x64 .f32) (a1 : FVec F S50000x64 .f32) (a2 a3 : IVec S2400000 32) (a4 : FVec F S2400000 .f32)
    (h : Cert.Pre_finite_inputs.fn (F := F) a0 a1 a2 a3 a4 = (fun _ => 1#1)) :
    ∀ e : S2400000.Idx, -(150000 : Int) ≤ (a3 e).toInt ∧ (a3 e).toInt < 150000 := by
  intro e
  have h0 := congrFun h (fun d => d.elim0)
  dsimp only [fn, fn_part1, andi] at h0
  obtain ⟨h1, hlt⟩ := IntOp.andi_eq_one.1 h0
  obtain ⟨_, hge⟩ := IntOp.andi_eq_one.1 h1
  have hge' : IntOp.cmpi .sge (a3 e) 4294817296#32 = 1#1 := Host.reduce_andi_all _ _ _ _ _ hge e
  have hlt' : IntOp.cmpi .slt (a3 e) 150000#32 = 1#1 := Host.reduce_andi_all _ _ _ _ _ hlt e
  have hlo : (4294817296#32 : BitVec 32).toInt = -150000 := by decide
  have hhi : (150000#32 : BitVec 32).toInt = 150000 := by decide
  have h2 := IntOp.cmpi_sge.1 hge'
  have h3 := IntOp.cmpi_slt.1 hlt'
  rw [hlo] at h2
  rw [hhi] at h3
  exact ⟨h2, h3⟩

end Cert.KernelIdeal.Hand
-- ==== Proof.lean ====
/- The kernel against its reference, over the extended reals.
   Both programs compute three rounds of message passing over an edge list and the mean of the three layer outputs:
   with ego = [user_emb; item_emb], a layer sends a node table x to the table whose row r is the sum over the edges e
   with rows e = r of x (cols e) * vals e, and the result is (L ego + L (L ego) + L (L (L ego))) / 3, cut into its first
   100000 and last 50000 rows. The kernel forms each edge product in a pass over blocks of 8192 edges (the last block
   overhangs the edge table and is cut at its end) and the mean in a pass over blocks of 8192 nodes, multiplying by the
   named third where the reference divides by three; it gathers with an index-range guard, which under the precondition
   -150000 ≤ cols e < 150000 (the range in which the reference's own indexing is defined, negative indices counted from
   the end) never fires. The laws that join the two sides are the commutativity of the product, 0 + x = x, and
   x / 3 = x * (1/3) on every extended real; no finiteness is used.
   The frames: each pass is a region of @main entered from the contents the host operations before it left; its body
   obligation is the body's run at every grid point with each staging buffer stated on the rows inside the table, and what
   it leaves is the table its written-back blocks cover. -/
import proofs.«403625_j20873541059099_2_alg».proof.Defs
import proofs.«403625_j20873541059099_2_alg».proof.Proof.Gen.Kernel
import proofs.«403625_j20873541059099_2_alg».proof.Proof.Gen.KernelIdeal
import proofs.«403625_j20873541059099_2_alg».proof.Proof.Gen.ReferenceIdeal
import proofs.«403625_j20873541059099_2_alg».proof.Proof.Gen.Pre_finite_inputs
import proofs.«403625_j20873541059099_2_alg».proof.Proof.Gen.ReferenceIdeal.Run
import proofs.«403625_j20873541059099_2_alg».proof.Proof.KFrame
import proofs.«403625_j20873541059099_2_alg».proof.Proof.WKFrame
import proofs.«403625_j20873541059099_2_alg».proof.Proof.KRun
import proofs.«403625_j20873541059099_2_alg».proof.Proof.KValue
import proofs.«403625_j20873541059099_2_alg».proof.Proof.RefSide
import proofs.«403625_j20873541059099_2_alg».proof.Proof.PreRange
import Idealize.ShloMosaic.Adequacy
import Idealize.ShloMosaic.Init
import Idealize.ShloMosaic.PureOps.IdealRules

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame_main (F := Bits) m ρ

/-- So does the idealized program. -/
theorem frame_ki : Cert.frame_KernelIdeal := fun m ρ _ => Cert.KernelIdeal.Hand.frame_main (F := Ideal) m ρ

/-- The reference is host operations only: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the mean pass's literal is the named third. -/
theorem preserves : Cert.preserves_Kernel_KernelIdeal :=
  IdealRules.named_const.statement Cert.KernelIdeal.κ "inv_3" .f32 0x3EAAAAAB#32 ((1 / 3 : ℝ) : EReal) rfl

/-- From memories agreeing on the arguments both programs end with each result at one and the same table: the kernel's
    run leaves the two slices of the mean of its three layer outputs, which is the reference's composed term. -/
theorem algebraic : Cert.algebraic_KernelIdeal_ReferenceIdeal := by
  intro m ρ m' ρ' hpre hagree
  refine ⟨fun c => Cert.KernelIdeal.Gen.V12 m (Cert.KernelIdeal.Hand.outsK m) c Cert.KernelIdeal.main_v18,
    fun c => Cert.KernelIdeal.Gen.V12 m (Cert.KernelIdeal.Hand.outsK m) c Cert.KernelIdeal.main_v19,
    Cert.KernelIdeal.Hand.run_main (F := Ideal) m ρ, ?_⟩
  refine (θ_run Cert.ReferenceIdeal.defs _ _).mono (fun _ h c => ?_) (Cert.ReferenceIdeal.Value.run (F := Ideal) m' ρ')
  have hr := Cert.KernelIdeal.Hand.cols_range _ _ _ _ _ (hpre c)
  have hk := Cert.KernelIdeal.Hand.kernel_value (F := Ideal) m c hr
  have hv : ∀ e : Fin 2400000,
      (Cert.KernelIdeal.Gen.V1 m c Cert.KernelIdeal.main_v1 : FVec Ideal Cert.KernelIdeal.S2400000x1 .f32) (ValueIdx.ix2 e (0 : Fin 1))
        = (m' ((c.tc : Thread Cert.ReferenceIdeal.nD Cert.ReferenceIdeal.τ).loc Cert.ReferenceIdeal.main_arg4) : FVec Ideal Cert.ReferenceIdeal.S2400000 .f32) (ValueIdx.ix1 e) := fun e => by
    rw [(hagree c).2.2.2.2]; exact Cert.KernelIdeal.Hand.vals2d_apply m c e
  refine ⟨(h c).1.trans ?_, (h c).2.1.trans ?_, (h c).2.2⟩
  · rw [Cert.RefSide.ref_out0 m' c _ hv, (hagree c).1, (hagree c).2.1, (hagree c).2.2.1, (hagree c).2.2.2.1]
    exact hk.1.symm
  · rw [Cert.RefSide.ref_out1 m' c _ hv, (hagree c).1, (hagree c).2.1, (hagree c).2.2.1, (hagree c).2.2.2.1]
    exact hk.2.symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
